-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x3 : Shape := ⟨2, ![1500000, 3]⟩
abbrev S50000x16 : Shape := ⟨2, ![50000, 16]⟩
abbrev S50000x32 : Shape := ⟨2, ![50000, 32]⟩
abbrev S1500000x3x16 : Shape := ⟨3, ![1500000, 3, 16]⟩
abbrev S1500000x3x32 : Shape := ⟨3, ![1500000, 3, 32]⟩
abbrev S50000 : Shape := ⟨1, ![50000]⟩
abbrev S1500000x2 : Shape := ⟨2, ![1500000, 2]⟩
abbrev S_ : Shape := ⟨0, ![]⟩

class Facts : Prop where
  bcast_S_S1500000x3 : S_.BroadcastsInDim S1500000x3 (![] : Fin 0 → Fin S1500000x3.rank)
  reducesTo_S1500000x3_S_d0_1 : S1500000x3.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S50000x32 : S_.BroadcastsInDim S50000x32 (![] : Fin 0 → Fin S50000x32.rank)
  reducesTo_S50000x32_S_d0_1 : S50000x32.ReducesTo [0, 1] S_
  bcast_S_S1500000x3x16 : S_.BroadcastsInDim S1500000x3x16 (![] : Fin 0 → Fin S1500000x3x16.rank)
  reducesTo_S1500000x3x16_S_d0_1_2 : S1500000x3x16.ReducesTo [0, 1, 2] S_
  bcast_S_S1500000x3x32 : S_.BroadcastsInDim S1500000x3x32 (![] : Fin 0 → Fin S1500000x3x32.rank)
  reducesTo_S1500000x3x32_S_d0_1_2 : S1500000x3x32.ReducesTo [0, 1, 2] S_

variable [Facts]

def fn_part1 {F : FTy → Type} [FloatOps F] (main_arg4 : FVec F S1500000x3x32 .f32) (main_v13 : IVec S_ 1) (main_v16 : IVec S1500000x3x16 1) : IVec S_ 1 :=
  let main_c_5 : IVec S_ 1 := constantI S_ 1 1#1
  let main_v17 : IVec S_ 1 := (fun x v => Host.reduce IntOp.andi x v reducesTo_S1500000x3x16_S_d0_1_2 h_S_) main_v16 main_c_5
  let main_v18 : IVec S_ 1 := andi main_v13 main_v17
  let main_v19 : FVec F S1500000x3x32 .f32 := Host.absf main_arg4
  let main_cst_6 : FVec F S_ .f32 := constant S_ .f32 0x7F800000#32
  let main_v20 : FVec F S1500000x3x32 .f32 := broadcastInDim S1500000x3x32 ![] bcast_S_S1500000x3x32 main_cst_6
  let main_v21 : IVec S1500000x3x32 1 := cmpf .olt main_v19 main_v20
  let main_c_7 : IVec S_ 1 := constantI S_ 1 1#1
  let main_v22 : IVec S_ 1 := (fun x v => Host.reduce IntOp.andi x v reducesTo_S1500000x3x32_S_d0_1_2 h_S_) main_v21 main_c_7
  let main_v23 : IVec S_ 1 := andi main_v18 main_v22
  main_v23

def fn {F : FTy → Type} [FloatOps F] (main_arg0 : FVec F S1500000x3 .f32) (main_arg1 : FVec F S50000x16 .f32) (main_arg2 : FVec F S50000x32 .f32) (main_arg3 : FVec F S1500000x3x16 .f32) (main_arg4 : FVec F S1500000x3x32 .f32) (main_arg5 : IVec S50000 32) (main_arg6 : IVec S1500000x2 32) (main_arg7 : IVec S1500000x2 32) : IVec S_ 1 :=
  let main_v0 : FVec F S1500000x3 .f32 := Host.absf main_arg0
  let main_cst : FVec F S_ .f32 := constant S_ .f32 0x7F800000#32
  let main_v1 : FVec F S1500000x3 .f32 := broadcastInDim S1500000x3 ![] bcast_S_S1500000x3 main_cst
  let main_v2 : IVec S1500000x3 1 := cmpf .olt main_v0 main_v1
  let main_c : IVec S_ 1 := constantI S_ 1 1#1
  let main_v3 : IVec S_ 1 := (fun x v => Host.reduce IntOp.andi x v reducesTo_S1500000x3_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S1500000x3x16 .f32 := Host.absf main_arg3
  let main_cst_4 : FVec F S_ .f32 := constant S_ .f32 0x7F800000#32
  let main_v15 : FVec F S1500000x3x16 .f32 := broadcastInDim S1500000x3x16 ![] bcast_S_S1500000x3x16 main_cst_4
  let main_v16 : IVec S1500000x3x16 1 := cmpf .olt main_v14 main_v15
  fn_part1 (F := F) main_arg4 main_v13 main_v16
-- ==== Kernel.lean ====
abbrev S1500000x3 : Shape := ⟨2, ![1500000, 3]⟩
abbrev S50000x16 : Shape := ⟨2, ![50000, 16]⟩
abbrev S50000x32 : Shape := ⟨2, ![50000, 32]⟩
abbrev S1500000x3x16 : Shape := ⟨3, ![1500000, 3, 16]⟩
abbrev S1500000x3x32 : Shape := ⟨3, ![1500000, 3, 32]⟩
abbrev S50000 : Shape := ⟨1, ![50000]⟩
abbrev S1500000x2 : Shape := ⟨2, ![1500000, 2]⟩
abbrev S50000x48 : Shape := ⟨2, ![50000, 48]⟩
abbrev S5000x16 : Shape := ⟨2, ![5000, 16]⟩
abbrev S5000x32 : Shape := ⟨2, ![5000, 32]⟩
abbrev S5000x48 : Shape := ⟨2, ![5000, 48]⟩
abbrev S_ : Shape := ⟨0, ![]⟩
abbrev S25000 : Shape := ⟨1, ![25000]⟩
abbrev S50000x1 : Shape := ⟨2, ![50000, 1]⟩
abbrev S25000x1 : Shape := ⟨2, ![25000, 1]⟩
abbrev S25000x48 : Shape := ⟨2, ![25000, 48]⟩

abbrev nBuf : Space → Nat
  | .hbm => 160
  | .vmem => 6
  | .smem => 0
  | _ => 0

abbrev hbmTy0_0 (i : Nat) : BufTy := match i % 128 with
  | 0 => ⟨S1500000x3, .f32⟩
  | 1 => ⟨S50000x16, .f32⟩
  | 2 => ⟨S50000x32, .f32⟩
  | 3 => ⟨S1500000x3x16, .f32⟩
  | 4 => ⟨S1500000x3x32, .f32⟩
  | 5 => ⟨S50000, .i32⟩
  | 6 => ⟨S1500000x2, .i32⟩
  | 7 => ⟨S1500000x2, .i32⟩
  | 8 => ⟨S50000x48, .f32⟩
  | 9 => ⟨S_, .i32⟩
  | 10 => ⟨S50000, .i32⟩
  | 11 => ⟨S50000, .i1⟩
  | 12 => ⟨S50000, .i32⟩
  | 13 => ⟨S_, .i32⟩
  | 14 => ⟨S_, .i32⟩
  | 15 => ⟨S50000, .i32⟩
  | 16 => ⟨S_, .i32⟩
  | 17 => ⟨S25000, .i32⟩
  | 18 => ⟨S_, .i32⟩
  | 19 => ⟨S_, .i32⟩
  | 20 => ⟨S50000, .i32⟩
  | 21 => ⟨S50000, .i32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S_, .i32⟩
  | 31 => ⟨S50000, .i32⟩
  | 32 => ⟨S25000, .i32⟩
  | 33 => ⟨S_, .i32⟩
  | 34 => ⟨S_, .i32⟩
  | 35 => ⟨S25000, .i32⟩
  | 36 => ⟨S_, .i32⟩
  | 37 => ⟨S25000, .i32⟩
  | 38 => ⟨S25000, .i32⟩
  | 39 => ⟨S25000, .i32⟩
  | 40 => ⟨S_, .i32⟩
  | 41 => ⟨S25000, .i32⟩
  | 42 => ⟨S25000, .i1⟩
  | 43 => ⟨S25000, .i32⟩
  | 44 => ⟨S25000, .i32⟩
  | 45 => ⟨S_, .i32⟩
  | 46 => ⟨S25000, .i32⟩
  | 47 => ⟨S25000, .i1⟩
  | 48 => ⟨S25000, .i1⟩
  | 49 => ⟨S_, .i32⟩
  | 50 => ⟨S25000, .i32⟩
  | 51 => ⟨S25000, .i32⟩
  | 52 => ⟨S25000, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S25000, .i32⟩
  | 60 => ⟨S25000, .i32⟩
  | 61 => ⟨S_, .i32⟩
  | 62 => ⟨S25000, .i32⟩
  | 63 => ⟨S25000, .i1⟩
  | 64 => ⟨S_, .i32⟩
  | 65 => ⟨S25000, .i32⟩
  | 66 => ⟨S25000, .i1⟩
  | 67 => ⟨S_, .i32⟩
  | 68 => ⟨S_, .i1⟩
  | 69 => ⟨S25000, .i1⟩
  | 70 => ⟨S25000, .i1⟩
  | 71 => ⟨S25000, .i1⟩
  | 72 => ⟨S25000, .i32⟩
  | 73 => ⟨S25000, .i32⟩
  | 74 => ⟨S25000, .i32⟩
  | 75 => ⟨S_, .i32⟩
  | 76 => ⟨S50000, .i32⟩
  | 77 => ⟨S50000, .i1⟩
  | 78 => ⟨S50000, .i32⟩
  | 79 => ⟨S_, .i32⟩
  | 80 => ⟨S_, .i32⟩
  | 81 => ⟨S50000, .i32⟩
  | 82 => ⟨S_, .i32⟩
  | 83 => ⟨S25000, .i32⟩
  | 84 => ⟨S_, .i32⟩
  | 85 => ⟨S_, .i32⟩
  | 86 => ⟨S50000, .i32⟩
  | 87 => ⟨S50000, .i32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S_, .i32⟩
  | 97 => ⟨S50000, .i32⟩
  | 98 => ⟨S25000, .i32⟩
  | 99 => ⟨S_, .i32⟩
  | 100 => ⟨S_, .i32⟩
  | 101 => ⟨S25000, .i32⟩
  | 102 => ⟨S_, .i32⟩
  | 103 => ⟨S25000, .i32⟩
  | 104 => ⟨S25000, .i32⟩
  | 105 => ⟨S25000, .i32⟩
  | 106 => ⟨S_, .i32⟩
  | 107 => ⟨S25000, .i32⟩
  | 108 => ⟨S25000, .i1⟩
  | 109 => ⟨S25000, .i32⟩
  | 110 => ⟨S25000, .i32⟩
  | 111 => ⟨S_, .i32⟩
  | 112 => ⟨S25000, .i32⟩
  | 113 => ⟨S25000, .i1⟩
  | 114 => ⟨S25000, .i1⟩
  | 115 => ⟨S_, .i32⟩
  | 116 => ⟨S25000, .i32⟩
  | 117 => ⟨S25000, .i32⟩
  | 118 => ⟨S25000, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S25000, .i32⟩
  | 126 => ⟨S25000, .i32⟩
  | 127 => ⟨S_, .i32⟩
  | _ => ⟨S1500000x3, .f32⟩

abbrev hbmTy0_1 (i : Nat) : BufTy := match i % 128 with
  | 0 => ⟨S25000, .i32⟩
  | 1 => ⟨S25000, .i1⟩
  | 2 => ⟨S_, .i32⟩
  | 3 => ⟨S25000, .i32⟩
  | 4 => ⟨S25000, .i1⟩
  | 5 => ⟨S_, .i32⟩
  | 6 => ⟨S_, .i1⟩
  | 7 => ⟨S25000, .i1⟩
  | 8 => ⟨S25000, .i1⟩
  | 9 => ⟨S25000, .i1⟩
  | 10 => ⟨S25000, .i32⟩
  | 11 => ⟨S25000, .i32⟩
  | 12 => ⟨S25000, .i32⟩
  | 13 => ⟨S_, .i32⟩
  | 14 => ⟨S25000, .i32⟩
  | 15 => ⟨S25000, .i1⟩
  | 16 => ⟨S_, .i32⟩
  | 17 => ⟨S25000, .i32⟩
  | 18 => ⟨S25000, .i32⟩
  | 19 => ⟨S25000, .i32⟩
  | 20 => ⟨S25000x1, .i32⟩
  | 21 => ⟨S25000x48, .f32⟩
  | 22 => ⟨S_, .i32⟩
  | 23 => ⟨S25000, .i32⟩
  | 24 => ⟨S25000, .i1⟩
  | 25 => ⟨S_, .i32⟩
  | 26 => ⟨S25000, .i32⟩
  | 27 => ⟨S25000, .i32⟩
  | 28 => ⟨S25000, .i32⟩
  | 29 => ⟨S25000x1, .i32⟩
  | 30 => ⟨S25000x48, .f32⟩
  | 31 => ⟨S50000x48, .f32⟩
  | _ => ⟨S1500000x3, .f32⟩

abbrev hbmTy (i : Nat) : BufTy := match i / 128 with
  | 0 => hbmTy0_0 i
  | 1 => hbmTy0_1 i
  | _ => ⟨S1500000x3, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S5000x32, .f32⟩
  | .local _ .vmem, ⟨3, _⟩ => ⟨S5000x32, .f32⟩
  | .local _ .vmem, ⟨4, _⟩ => ⟨S5000x48, .f32⟩
  | .local _ .vmem, ⟨5, _⟩ => ⟨S5000x48, .f32⟩
  | _, _ => ⟨S1500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_call2_call0_c : Ref sig .tc := ⟨.hbm, 33, rfl⟩
abbrev main_call2_call0_v0 : Ref sig .tc := ⟨.hbm, 34, rfl⟩
abbrev main_v14 : Ref sig .tc := ⟨.hbm, 35, rfl⟩
abbrev main_c_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v15 : Ref sig .tc := ⟨.hbm, 52, rfl⟩
abbrev main_c_6 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v16 : Ref sig .tc := ⟨.hbm, 74, rfl⟩
abbrev main_c_7 : Ref sig .tc := ⟨.hbm, 75, rfl⟩
abbrev main_v17 : Ref sig .tc := ⟨.hbm, 76, rfl⟩
abbrev main_v18 : Ref sig .tc := ⟨.hbm, 77, rfl⟩
abbrev main_call5_v0 : Ref sig .tc := ⟨.hbm, 78, rfl⟩
abbrev main_call5_call0_c : Ref sig .tc := ⟨.hbm, 79, rfl⟩
abbrev main_call5_call0_v0 : Ref sig .tc := ⟨.hbm, 80, rfl⟩
abbrev main_v19 : Ref sig .tc := ⟨.hbm, 81, rfl⟩
abbrev main_c_8 : Ref sig .tc := ⟨.hbm, 82, rfl⟩
abbrev main_v20 : Ref sig .tc := ⟨.hbm, 83, rfl⟩
abbrev main_c_9 : Ref sig .tc := ⟨.hbm, 84, rfl⟩
abbrev main_call6_v0 : Ref sig .tc := ⟨.hbm, 85, rfl⟩
abbrev main_call6_v1 : Ref sig .tc := ⟨.hbm, 86, rfl⟩
abbrev main_v21 : Ref sig .tc := ⟨.hbm, 87, rfl⟩
abbrev main_c_10 : Ref sig .tc := ⟨.hbm, 88, rfl⟩
abbrev main_v22 : Ref sig .tc := ⟨.hbm, 89, rfl⟩
abbrev main_v23 : Ref sig .tc := ⟨.hbm, 90, rfl⟩
abbrev main_c_11 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_c_12 : Ref sig .tc := ⟨.hbm, 96, rfl⟩
abbrev main_v28 : Ref sig .tc := ⟨.hbm, 97, rfl⟩
abbrev main_v29 : Ref sig .tc := ⟨.hbm, 98, rfl⟩
abbrev main_call7_call0_c : Ref sig .tc := ⟨.hbm, 99, rfl⟩
abbrev main_call7_call0_v0 : Ref sig .tc := ⟨.hbm, 100, rfl⟩
abbrev main_v30 : Ref sig .tc := ⟨.hbm, 101, rfl⟩
abbrev main_c_13 : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_call8_v3 : Ref sig .tc := ⟨.hbm, 106, rfl⟩
abbrev main_call8_v4 : Ref sig .tc := ⟨.hbm, 107, rfl⟩
abbrev main_call8_v5 : Ref sig .tc := ⟨.hbm, 108, rfl⟩
abbrev main_call8_v6 : Ref sig .tc := ⟨.hbm, 109, rfl⟩
abbrev main_call8_v7 : Ref sig .tc := ⟨.hbm, 110, rfl⟩
abbrev main_call8_c : Ref sig .tc := ⟨.hbm, 111, rfl⟩
abbrev main_call8_v8 : Ref sig .tc := ⟨.hbm, 112, rfl⟩
abbrev main_call8_v9 : Ref sig .tc := ⟨.hbm, 113, rfl⟩
abbrev main_call8_v10 : Ref sig .tc := ⟨.hbm, 114, rfl⟩
abbrev main_call8_c_0 : Ref sig .tc := ⟨.hbm, 115, rfl⟩
abbrev main_call8_v11 : Ref sig .tc := ⟨.hbm, 116, rfl⟩
abbrev main_call8_v12 : Ref sig .tc := ⟨.hbm, 117, rfl⟩
abbrev main_v31 : Ref sig .tc := ⟨.hbm, 118, rfl⟩
abbrev main_c_14 : Ref sig .tc := ⟨.hbm, 119, rfl⟩
abbrev main_call9_v0 : Ref sig .tc := ⟨.hbm, 120, rfl⟩
abbrev main_call9_c : Ref sig .tc := ⟨.hbm, 121, rfl⟩
abbrev main_call9_v1 : Ref sig .tc := ⟨.hbm, 122, rfl⟩
abbrev main_call9_c_0 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_call9_c_1 : Ref sig .tc := ⟨.hbm, 127, rfl⟩
abbrev main_call9_v5 : Ref sig .tc := ⟨.hbm, 128, rfl⟩
abbrev main_call9_v6 : Ref sig .tc := ⟨.hbm, 129, rfl⟩
abbrev main_call9_c_2 : Ref sig .tc := ⟨.hbm, 130, rfl⟩
abbrev main_call9_v7 : Ref sig .tc := ⟨.hbm, 131, rfl⟩
abbrev main_call9_v8 : Ref sig .tc := ⟨.hbm, 132, rfl⟩
abbrev main_call9_c_3 : Ref sig .tc := ⟨.hbm, 133, rfl⟩
abbrev main_call9_v9 : Ref sig .tc := ⟨.hbm, 134, rfl⟩
abbrev main_call9_v10 : Ref sig .tc := ⟨.hbm, 135, rfl⟩
abbrev main_call9_v11 : Ref sig .tc := ⟨.hbm, 136, rfl⟩
abbrev main_call9_v12 : Ref sig .tc := ⟨.hbm, 137, rfl⟩
abbrev main_call9_v13 : Ref sig .tc := ⟨.hbm, 138, rfl⟩
abbrev main_call9_v14 : Ref sig .tc := ⟨.hbm, 139, rfl⟩
abbrev main_v32 : Ref sig .tc := ⟨.hbm, 140, rfl⟩
abbrev main_c_15 : Ref sig .tc := ⟨.hbm, 141, rfl⟩
abbrev main_v33 : Ref sig .tc := ⟨.hbm, 142, rfl⟩
abbrev main_v34 : Ref sig .tc := ⟨.hbm, 143, rfl⟩
abbrev main_c_16 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_c_17 : Ref sig .tc := ⟨.hbm, 150, rfl⟩
abbrev main_v40 : Ref sig .tc := ⟨.hbm, 151, rfl⟩
abbrev main_v41 : Ref sig .tc := ⟨.hbm, 152, rfl⟩
abbrev main_c_18 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x16_S5000x16_0_0 : ∀ a, (![0, 0] : Fin 2 → Nat) a + S5000x16.size a ≤ S5000x16.size a
  h_S5000x16 : 0 < S5000x16.numel
  inb_S5000x32_S5000x32_0_0 : ∀ a, (![0, 0] : Fin 2 → Nat) a + S5000x32.size a ≤ S5000x32.size a
  h_S5000x32 : 0 < S5000x32.numel
  concatenates_S5000x16_S5000x32_S5000x48_d1 : Shape.Concatenates [S5000x16, S5000x32] S5000x48 1
  inb_S5000x48_S5000x48_0_0 : ∀ a, (![0, 0] : Fin 2 → Nat) a + S5000x48.size a ≤ S5000x48.size a
  h_S5000x48 : 0 < S5000x48.numel
  bcast_S_S50000 : S_.BroadcastsInDim S50000 (![] : Fin 0 → Fin S50000.rank)
  natLt_1_32 : 1 < 32
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  bcast_S_S25000 : S_.BroadcastsInDim S25000 (![] : Fin 0 → Fin S25000.rank)
  bcast_S50000_S50000x1_0 : S50000.BroadcastsInDim S50000x1 (![0] : Fin 1 → Fin S50000x1.rank)
  reduceWindows_S25000_S25000_w25000s1p24999_0 : S25000.ReduceWindows (![25000] : Fin 1 → Nat) ![1] ![24999] ![0] S25000
  bcast_S25000_S25000x1_0 : S25000.BroadcastsInDim S25000x1 (![0] : Fin 1 → Fin S25000x1.rank)
  concatenates_S25000x48_S25000x48_S50000x48_d0 : Shape.Concatenates [S25000x48, S25000x48] S50000x48 0
  scatter_S25000_S50000x1_S50000_n_0_0_1_wf : ScatterDims.WF S25000 S50000x1 S50000 [] [0] [0] 1
  gather_S50000x48_S25000x1_S25000x48_1_0_n_n_0_1_148_wf : GatherDims.WF S50000x48 S25000x1 S25000x48 [1] [0] [] [0] [] 1 ![1, 48]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S50000x48.size a
  hwx0_2 : ∀ i : grid0.Coords, EltTy.bits .f32 = 32 ∨ (Rect.block (s := S50000x48) S5000x48.size (cc0_transform_2 i) (hinb0_2 i)).WholeWords (EltTy.packing .f32)

variable [Facts₀]

def scatter_S25000_S50000x1_S50000_n_0_0_1 : ScatterDims S25000 S50000x1 S50000 where
  updateWindowDims := []
  insertedWindowDims := [0]
  scatterDimsToOperandDims := [0]
  indexVectorDim := 1
  wf := scatter_S25000_S50000x1_S50000_n_0_0_1_wf
def gather_S50000x48_S25000x1_S25000x48_1_0_n_n_0_1_148 : GatherDims S50000x48 S25000x1 S25000x48 where
  offsetDims := [1]
  collapsedSliceDims := [0]
  operandBatchingDims := []
  startIndicesBatchingDims := []
  startIndexMap := [0]
  indexVectorDim := 1
  sliceSizes := ![1, 48]
  wf := gather_S50000x48_S25000x1_S25000x48_1_0_n_n_0_1_148_wf

abbrev win0_0 : Pipeline.Window sig grid0 :=
  Pipeline.Window.ofSpec (Memref.whole main_arg1) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1500000x3 : Shape := ⟨2, ![1500000, 3]⟩
abbrev S50000x16 : Shape := ⟨2, ![50000, 16]⟩
abbrev S50000x32 : Shape := ⟨2, ![50000, 32]⟩
abbrev S1500000x3x16 : Shape := ⟨3, ![1500000, 3, 16]⟩
abbrev S1500000x3x32 : Shape := ⟨3, ![1500000, 3, 32]⟩
abbrev S50000 : Shape := ⟨1, ![50000]⟩
abbrev S1500000x2 : Shape := ⟨2, ![1500000, 2]⟩
abbrev S_ : Shape := ⟨0, ![]⟩
abbrev S50000x48 : Shape := ⟨2, ![50000, 48]⟩
abbrev S25000 : Shape := ⟨1, ![25000]⟩
abbrev S50000x1 : Shape := ⟨2, ![50000, 1]⟩
abbrev S25000x1 : Shape := ⟨2, ![25000, 1]⟩
abbrev S25000x48 : Shape := ⟨2, ![25000, 48]⟩

abbrev nBuf : Space → Nat
  | .hbm => 190
  | .vmem => 0
  | .smem => 0
  | _ => 0

abbrev hbmTy0_0 (i : Nat) : BufTy := match i % 128 with
  | 0 => ⟨S1500000x3, .f32⟩
  | 1 => ⟨S50000x16, .f32⟩
  | 2 => ⟨S50000x32, .f32⟩
  | 3 => ⟨S1500000x3x16, .f32⟩
  | 4 => ⟨S1500000x3x32, .f32⟩
  | 5 => ⟨S50000, .i32⟩
  | 6 => ⟨S1500000x2, .i32⟩
  | 7 => ⟨S1500000x2, .i32⟩
  | 8 => ⟨S_, .f32⟩
  | 9 => ⟨S50000x16, .f32⟩
  | 10 => ⟨S50000x16, .f32⟩
  | 11 => ⟨S_, .f32⟩
  | 12 => ⟨S_, .f32⟩
  | 13 => ⟨S_, .f32⟩
  | 14 => ⟨S_, .f32⟩
  | 15 => ⟨S50000x16, .f32⟩
  | 16 => ⟨S50000x16, .f32⟩
  | 17 => ⟨S_, .f32⟩
  | 18 => ⟨S50000x16, .f32⟩
  | 19 => ⟨S50000x16, .f32⟩
  | 20 => ⟨S_, .f32⟩
  | 21 => ⟨S50000x16, .f32⟩
  | 22 => ⟨S50000x16, .f32⟩
  | 23 => ⟨S_, .f32⟩
  | 24 => ⟨S50000x32, .f32⟩
  | 25 => ⟨S50000x32, .f32⟩
  | 26 => ⟨S_, .f32⟩
  | 27 => ⟨S_, .f32⟩
  | 28 => ⟨S_, .f32⟩
  | 29 => ⟨S_, .f32⟩
  | 30 => ⟨S50000x32, .f32⟩
  | 31 => ⟨S50000x32, .f32⟩
  | 32 => ⟨S_, .f32⟩
  | 33 => ⟨S50000x32, .f32⟩
  | 34 => ⟨S50000x32, .f32⟩
  | 35 => ⟨S_, .f32⟩
  | 36 => ⟨S50000x32, .f32⟩
  | 37 => ⟨S50000x32, .f32⟩
  | 38 => ⟨S50000x48, .f32⟩
  | 39 => ⟨S_, .i32⟩
  | 40 => ⟨S50000, .i32⟩
  | 41 => ⟨S50000, .i1⟩
  | 42 => ⟨S50000, .i32⟩
  | 43 => ⟨S_, .i32⟩
  | 44 => ⟨S_, .i32⟩
  | 45 => ⟨S50000, .i32⟩
  | 46 => ⟨S_, .i32⟩
  | 47 => ⟨S25000, .i32⟩
  | 48 => ⟨S_, .i32⟩
  | 49 => ⟨S_, .i32⟩
  | 50 => ⟨S50000, .i32⟩
  | 51 => ⟨S50000, .i32⟩
  | 52 => ⟨S_, .i32⟩
  | 53 => ⟨S50000, .i32⟩
  | 54 => ⟨S50000, .i1⟩
  | 55 => ⟨S_, .i32⟩
  | 56 => ⟨S50000, .i32⟩
  | 57 => ⟨S50000, .i32⟩
  | 58 => ⟨S50000, .i32⟩
  | 59 => ⟨S50000x1, .i32⟩
  | 60 => ⟨S_, .i32⟩
  | 61 => ⟨S50000, .i32⟩
  | 62 => ⟨S25000, .i32⟩
  | 63 => ⟨S_, .i32⟩
  | 64 => ⟨S_, .i32⟩
  | 65 => ⟨S25000, .i32⟩
  | 66 => ⟨S_, .i32⟩
  | 67 => ⟨S25000, .i32⟩
  | 68 => ⟨S25000, .i32⟩
  | 69 => ⟨S25000, .i32⟩
  | 70 => ⟨S_, .i32⟩
  | 71 => ⟨S25000, .i32⟩
  | 72 => ⟨S25000, .i1⟩
  | 73 => ⟨S25000, .i32⟩
  | 74 => ⟨S25000, .i32⟩
  | 75 => ⟨S_, .i32⟩
  | 76 => ⟨S25000, .i32⟩
  | 77 => ⟨S25000, .i1⟩
  | 78 => ⟨S25000, .i1⟩
  | 79 => ⟨S_, .i32⟩
  | 80 => ⟨S25000, .i32⟩
  | 81 => ⟨S25000, .i32⟩
  | 82 => ⟨S25000, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S25000, .i32⟩
  | 90 => ⟨S25000, .i32⟩
  | 91 => ⟨S_, .i32⟩
  | 92 => ⟨S25000, .i32⟩
  | 93 => ⟨S25000, .i1⟩
  | 94 => ⟨S_, .i32⟩
  | 95 => ⟨S25000, .i32⟩
  | 96 => ⟨S25000, .i1⟩
  | 97 => ⟨S_, .i32⟩
  | 98 => ⟨S_, .i1⟩
  | 99 => ⟨S25000, .i1⟩
  | 100 => ⟨S25000, .i1⟩
  | 101 => ⟨S25000, .i1⟩
  | 102 => ⟨S25000, .i32⟩
  | 103 => ⟨S25000, .i32⟩
  | 104 => ⟨S25000, .i32⟩
  | 105 => ⟨S_, .i32⟩
  | 106 => ⟨S50000, .i32⟩
  | 107 => ⟨S50000, .i1⟩
  | 108 => ⟨S50000, .i32⟩
  | 109 => ⟨S_, .i32⟩
  | 110 => ⟨S_, .i32⟩
  | 111 => ⟨S50000, .i32⟩
  | 112 => ⟨S_, .i32⟩
  | 113 => ⟨S25000, .i32⟩
  | 114 => ⟨S_, .i32⟩
  | 115 => ⟨S_, .i32⟩
  | 116 => ⟨S50000, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S_, .i32⟩
  | 127 => ⟨S50000, .i32⟩
  | _ => ⟨S1500000x3, .f32⟩

abbrev hbmTy0_1 (i : Nat) : BufTy := match i % 128 with
  | 0 => ⟨S25000, .i32⟩
  | 1 => ⟨S_, .i32⟩
  | 2 => ⟨S_, .i32⟩
  | 3 => ⟨S25000, .i32⟩
  | 4 => ⟨S_, .i32⟩
  | 5 => ⟨S25000, .i32⟩
  | 6 => ⟨S25000, .i32⟩
  | 7 => ⟨S25000, .i32⟩
  | 8 => ⟨S_, .i32⟩
  | 9 => ⟨S25000, .i32⟩
  | 10 => ⟨S25000, .i1⟩
  | 11 => ⟨S25000, .i32⟩
  | 12 => ⟨S25000, .i32⟩
  | 13 => ⟨S_, .i32⟩
  | 14 => ⟨S25000, .i32⟩
  | 15 => ⟨S25000, .i1⟩
  | 16 => ⟨S25000, .i1⟩
  | 17 => ⟨S_, .i32⟩
  | 18 => ⟨S25000, .i32⟩
  | 19 => ⟨S25000, .i32⟩
  | 20 => ⟨S25000, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S25000, .i32⟩
  | 28 => ⟨S25000, .i32⟩
  | 29 => ⟨S_, .i32⟩
  | 30 => ⟨S25000, .i32⟩
  | 31 => ⟨S25000, .i1⟩
  | 32 => ⟨S_, .i32⟩
  | 33 => ⟨S25000, .i32⟩
  | 34 => ⟨S25000, .i1⟩
  | 35 => ⟨S_, .i32⟩
  | 36 => ⟨S_, .i1⟩
  | 37 => ⟨S25000, .i1⟩
  | 38 => ⟨S25000, .i1⟩
  | 39 => ⟨S25000, .i1⟩
  | 40 => ⟨S25000, .i32⟩
  | 41 => ⟨S25000, .i32⟩
  | 42 => ⟨S25000, .i32⟩
  | 43 => ⟨S_, .i32⟩
  | 44 => ⟨S25000, .i32⟩
  | 45 => ⟨S25000, .i1⟩
  | 46 => ⟨S_, .i32⟩
  | 47 => ⟨S25000, .i32⟩
  | 48 => ⟨S25000, .i32⟩
  | 49 => ⟨S25000, .i32⟩
  | 50 => ⟨S25000x1, .i32⟩
  | 51 => ⟨S25000x48, .f32⟩
  | 52 => ⟨S_, .i32⟩
  | 53 => ⟨S25000, .i32⟩
  | 54 => ⟨S25000, .i1⟩
  | 55 => ⟨S_, .i32⟩
  | 56 => ⟨S25000, .i32⟩
  | 57 => ⟨S25000, .i32⟩
  | 58 => ⟨S25000, .i32⟩
  | 59 => ⟨S25000x1, .i32⟩
  | 60 => ⟨S25000x48, .f32⟩
  | 61 => ⟨S50000x48, .f32⟩
  | _ => ⟨S1500000x3, .f32⟩

abbrev hbmTy (i : Nat) : BufTy := match i / 128 with
  | 0 => hbmTy0_0 i
  | 1 => hbmTy0_1 i
  | _ => ⟨S1500000x3, .f32⟩

abbrev bufTy : (tb : Table) → Fin (tcTables nBuf tb) → BufTy
  | .hbm, ⟨i, _⟩ => hbmTy i
  | _, _ => ⟨S1500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_call0_c : Ref sig .tc := ⟨.hbm, 43, rfl⟩
abbrev main_call0_call0_v0 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_c_10 : Ref sig .tc := ⟨.hbm, 48, rfl⟩
abbrev main_call1_v0 : Ref sig .tc := ⟨.hbm, 49, rfl⟩
abbrev main_call1_v1 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_c_12 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_13 : Ref sig .tc := ⟨.hbm, 60, rfl⟩
abbrev main_v32 : Ref sig .tc := ⟨.hbm, 61, rfl⟩
abbrev main_v33 : Ref sig .tc := ⟨.hbm, 62, rfl⟩
abbrev main_call2_call0_c : Ref sig .tc := ⟨.hbm, 63, rfl⟩
abbrev main_call2_call0_v0 : Ref sig .tc := ⟨.hbm, 64, rfl⟩
abbrev main_v34 : Ref sig .tc := ⟨.hbm, 65, rfl⟩
abbrev main_c_14 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_c : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_c_0 : Ref sig .tc := ⟨.hbm, 79, rfl⟩
abbrev main_call3_v11 : Ref sig .tc := ⟨.hbm, 80, rfl⟩
abbrev main_call3_v12 : Ref sig .tc := ⟨.hbm, 81, rfl⟩
abbrev main_v35 : Ref sig .tc := ⟨.hbm, 82, rfl⟩
abbrev main_c_15 : Ref sig .tc := ⟨.hbm, 83, rfl⟩
abbrev main_call4_v0 : Ref sig .tc := ⟨.hbm, 84, rfl⟩
abbrev main_call4_c : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_v5 : Ref sig .tc := ⟨.hbm, 92, rfl⟩
abbrev main_call4_v6 : Ref sig .tc := ⟨.hbm, 93, rfl⟩
abbrev main_call4_c_2 : Ref sig .tc := ⟨.hbm, 94, rfl⟩
abbrev main_call4_v7 : Ref sig .tc := ⟨.hbm, 95, rfl⟩
abbrev main_call4_v8 : Ref sig .tc := ⟨.hbm, 96, rfl⟩
abbrev main_call4_c_3 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_v36 : Ref sig .tc := ⟨.hbm, 104, rfl⟩
abbrev main_c_16 : Ref sig .tc := ⟨.hbm, 105, rfl⟩
abbrev main_v37 : Ref sig .tc := ⟨.hbm, 106, rfl⟩
abbrev main_v38 : Ref sig .tc := ⟨.hbm, 107, rfl⟩
abbrev main_call5_v0 : Ref sig .tc := ⟨.hbm, 108, rfl⟩
abbrev main_call5_call0_c : Ref sig .tc := ⟨.hbm, 109, rfl⟩
abbrev main_call5_call0_v0 : Ref sig .tc := ⟨.hbm, 110, rfl⟩
abbrev main_v39 : Ref sig .tc := ⟨.hbm, 111, rfl⟩
abbrev main_c_17 : Ref sig .tc := ⟨.hbm, 112, rfl⟩
abbrev main_v40 : Ref sig .tc := ⟨.hbm, 113, rfl⟩
abbrev main_c_18 : Ref sig .tc := ⟨.hbm, 114, rfl⟩
abbrev main_call6_v0 : Ref sig .tc := ⟨.hbm, 115, rfl⟩
abbrev main_call6_v1 : Ref sig .tc := ⟨.hbm, 116, rfl⟩
abbrev main_v41 : Ref sig .tc := ⟨.hbm, 117, rfl⟩
abbrev main_c_19 : Ref sig .tc := ⟨.hbm, 118, rfl⟩
abbrev main_v42 : Ref sig .tc := ⟨.hbm, 119, rfl⟩
abbrev main_v43 : Ref sig .tc := ⟨.hbm, 120, rfl⟩
abbrev main_c_20 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_c_21 : Ref sig .tc := ⟨.hbm, 126, rfl⟩
abbrev main_v48 : Ref sig .tc := ⟨.hbm, 127, rfl⟩
abbrev main_v49 : Ref sig .tc := ⟨.hbm, 128, rfl⟩
abbrev main_call7_call0_c : Ref sig .tc := ⟨.hbm, 129, rfl⟩
abbrev main_call7_call0_v0 : Ref sig .tc := ⟨.hbm, 130, rfl⟩
abbrev main_v50 : Ref sig .tc := ⟨.hbm, 131, rfl⟩
abbrev main_c_22 : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_v5 : Ref sig .tc := ⟨.hbm, 138, rfl⟩
abbrev main_call8_v6 : Ref sig .tc := ⟨.hbm, 139, rfl⟩
abbrev main_call8_v7 : Ref sig .tc := ⟨.hbm, 140, rfl⟩
abbrev main_call8_c : Ref sig .tc := ⟨.hbm, 141, rfl⟩
abbrev main_call8_v8 : Ref sig .tc := ⟨.hbm, 142, rfl⟩
abbrev main_call8_v9 : Ref sig .tc := ⟨.hbm, 143, rfl⟩
abbrev main_call8_v10 : Ref sig .tc := ⟨.hbm, 144, rfl⟩
abbrev main_call8_c_0 : Ref sig .tc := ⟨.hbm, 145, rfl⟩
abbrev main_call8_v11 : Ref sig .tc := ⟨.hbm, 146, rfl⟩
abbrev main_call8_v12 : Ref sig .tc := ⟨.hbm, 147, rfl⟩
abbrev main_v51 : Ref sig .tc := ⟨.hbm, 148, rfl⟩
abbrev main_c_23 : Ref sig .tc := ⟨.hbm, 149, rfl⟩
abbrev main_call9_v0 : Ref sig .tc := ⟨.hbm, 150, rfl⟩
abbrev main_call9_c : Ref sig .tc := ⟨.hbm, 151, rfl⟩
abbrev main_call9_v1 : Ref sig .tc := ⟨.hbm, 152, rfl⟩
abbrev main_call9_c_0 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_c_1 : Ref sig .tc := ⟨.hbm, 157, rfl⟩
abbrev main_call9_v5 : Ref sig .tc := ⟨.hbm, 158, rfl⟩
abbrev main_call9_v6 : Ref sig .tc := ⟨.hbm, 159, rfl⟩
abbrev main_call9_c_2 : Ref sig .tc := ⟨.hbm, 160, rfl⟩
abbrev main_call9_v7 : Ref sig .tc := ⟨.hbm, 161, rfl⟩
abbrev main_call9_v8 : Ref sig .tc := ⟨.hbm, 162, rfl⟩
abbrev main_call9_c_3 : Ref sig .tc := ⟨.hbm, 163, rfl⟩
abbrev main_call9_v9 : Ref sig .tc := ⟨.hbm, 164, rfl⟩
abbrev main_call9_v10 : Ref sig .tc := ⟨.hbm, 165, rfl⟩
abbrev main_call9_v11 : Ref sig .tc := ⟨.hbm, 166, rfl⟩
abbrev main_call9_v12 : Ref sig .tc := ⟨.hbm, 167, rfl⟩
abbrev main_call9_v13 : Ref sig .tc := ⟨.hbm, 168, rfl⟩
abbrev main_call9_v14 : Ref sig .tc := ⟨.hbm, 169, rfl⟩
abbrev main_v52 : Ref sig .tc := ⟨.hbm, 170, rfl⟩
abbrev main_c_24 : Ref sig .tc := ⟨.hbm, 171, rfl⟩
abbrev main_v53 : Ref sig .tc := ⟨.hbm, 172, rfl⟩
abbrev main_v54 : Ref sig .tc := ⟨.hbm, 173, rfl⟩
abbrev main_c_25 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_c_26 : Ref sig .tc := ⟨.hbm, 180, rfl⟩
abbrev main_v60 : Ref sig .tc := ⟨.hbm, 181, rfl⟩
abbrev main_v61 : Ref sig .tc := ⟨.hbm, 182, rfl⟩
abbrev main_c_27 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S_S50000x32 : S_.BroadcastsInDim S50000x32 (![] : Fin 0 → Fin S50000x32.rank)
  concatenates_S50000x16_S50000x32_S50000x48_d1 : Shape.Concatenates [S50000x16, S50000x32] S50000x48 1
  bcast_S_S50000 : S_.BroadcastsInDim S50000 (![] : Fin 0 → Fin S50000.rank)
  natLt_1_32 : 1 < 32
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  bcast_S_S25000 : S_.BroadcastsInDim S25000 (![] : Fin 0 → Fin S25000.rank)
  bcast_S50000_S50000x1_0 : S50000.BroadcastsInDim S50000x1 (![0] : Fin 1 → Fin S50000x1.rank)
  reduceWindows_S25000_S25000_w25000s1p24999_0 : S25000.ReduceWindows (![25000] : Fin 1 → Nat) ![1] ![24999] ![0] S25000
  bcast_S25000_S25000x1_0 : S25000.BroadcastsInDim S25000x1 (![0] : Fin 1 → Fin S25000x1.rank)
  concatenates_S25000x48_S25000x48_S50000x48_d0 : Shape.Concatenates [S25000x48, S25000x48] S50000x48 0
  scatter_S25000_S50000x1_S50000_n_0_0_1_wf : ScatterDims.WF S25000 S50000x1 S50000 [] [0] [0] 1
  gather_S50000x48_S25000x1_S25000x48_1_0_n_n_0_1_148_wf : GatherDims.WF S50000x48 S25000x1 S25000x48 [1] [0] [] [0] [] 1 ![1, 48]

variable [Facts₀]

def scatter_S25000_S50000x1_S50000_n_0_0_1 : ScatterDims S25000 S50000x1 S50000 where
  updateWindowDims := []
  insertedWindowDims := [0]
  scatterDimsToOperandDims := [0]
  indexVectorDim := 1
  wf := scatter_S25000_S50000x1_S50000_n_0_0_1_wf
def gather_S50000x48_S25000x1_S25000x48_1_0_n_n_0_1_148 : GatherDims S50000x48 S25000x1 S25000x48 where
  offsetDims := [1]
  collapsedSliceDims := [0]
  operandBatchingDims := []
  startIndicesBatchingDims := []
  startIndexMap := [0]
  indexVectorDim := 1
  sliceSizes := ![1, 48]
  wf := gather_S50000x48_S25000x1_S25000x48_1_0_n_n_0_1_148_wf

class Facts : Prop extends Facts₀ where

variable [Facts]
-- ==== Proof.KEntry.lean ====
/-
  The kernel program's @main is one pipelined region followed by host operations only: nothing runs before the
  region, so the region finds every buffer as launched, and the 151 operations after it come in 21 stretches
  (the two nonzero scans of the element codes, then the two row gathers and their concatenation).
  This module names those two things and a window's block at a grid point.
-/
import proofs.«423469_j7919919693922_3_alg».proof.Proof.Gen.Kernel.Launch
import proofs.«423469_j7919919693922_3_alg».proof.Proof.Gen.Kernel.Skeleton
import proofs.«423469_j7919919693922_3_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-- Core `c`'s buffer contents when the region is entered: no host operation precedes it, so the launch contents
    (written as the empty fold so that it is the form the library's statement about @main produces). -/
abbrev entry0 (c : Dev nD) : Valuation τ sig (Elt F) :=
  StableHlo.after (List.flatten ([] : List (List (HloOp τ sig (Elt F))))) (fun b => m (c, b))

/-- The same, read at a TensorCore reference. -/
abbrev entry (c : Dev nD) (b : Ref sig .tc) : Buf (Elt F) ((c : Thread nD τ).loc b) := entry0 m c (Proc.devRef .tc b)

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20]

/-- Window `w`'s block at grid point `t`: rows 5000·t … 5000·t+4999 of its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

end Cert.Kernel.Hand

end
-- ==== Proof.KTail.lean ====
/-
  What the library's frame run asks of the host operations after the region, and what it gives back about
  the buffers they never write: every one of the 151 operations writes one buffer of its own (the references
  listed in `tailWrites`), reads and writes unscoped TensorCore buffers only, allocates nothing, and writes none
  of the three arrays the region stages (`fp_0`, `fp_1`, the scaled 50000×48 result). Hence an argument array
  that is no window of the region ends as launched.
-/
import proofs.«423469_j7919919693922_3_alg».proof.Proof.KEntry

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Every reference a host operation after the region writes: each operation's own result buffer. -/
def tailWrites : List (Ref sig .tc) :=
  [
   main_c, main_v1, main_v2, main_call0_v0, main_call0_call0_c, main_call0_call0_v0, main_v3, main_c_0,
   main_v4, main_c_1, main_call1_v0, main_call1_v1, main_v5, main_c_2, main_v6, main_v7,
   main_c_3, main_v8, main_v9, main_v10, main_v11, main_c_4, main_v12, main_v13,
   main_call2_call0_c, main_call2_call0_v0, main_v14, main_c_5, main_call3_v0, main_call3_v1, main_call3_v2, main_call3_v3,
   main_call3_v4, main_call3_v5, main_call3_v6, main_call3_v7, main_call3_c, main_call3_v8, main_call3_v9, main_call3_v10,
   main_call3_c_0, main_call3_v11, main_call3_v12, main_v15, main_c_6, main_call4_v0, main_call4_c, main_call4_v1,
   main_call4_c_0, main_call4_v2, main_call4_v3, main_call4_v4, main_call4_c_1, main_call4_v5, main_call4_v6, main_call4_c_2,
   main_call4_v7, main_call4_v8, main_call4_c_3, main_call4_v9, main_call4_v10, main_call4_v11, main_call4_v12, main_call4_v13,
   main_call4_v14, main_v16, main_c_7, main_v17, main_v18, main_call5_v0, main_call5_call0_c, main_call5_call0_v0,
   main_v19, main_c_8, main_v20, main_c_9, main_call6_v0, main_call6_v1, main_v21, main_c_10,
   main_v22, main_v23, main_c_11, main_v24, main_v25, main_v26, main_v27, main_c_12,
   main_v28, main_v29, main_call7_call0_c, main_call7_call0_v0, main_v30, main_c_13, main_call8_v0, main_call8_v1,
   main_call8_v2, main_call8_v3, main_call8_v4, main_call8_v5, main_call8_v6, main_call8_v7, main_call8_c, main_call8_v8,
   main_call8_v9, main_call8_v10, main_call8_c_0, main_call8_v11, main_call8_v12, main_v31, main_c_14, main_call9_v0,
   main_call9_c, main_call9_v1, main_call9_c_0, main_call9_v2, main_call9_v3, main_call9_v4, main_call9_c_1, main_call9_v5,
   main_call9_v6, main_call9_c_2, main_call9_v7, main_call9_v8, main_call9_c_3, main_call9_v9, main_call9_v10, main_call9_v11,
   main_call9_v12, main_call9_v13, main_call9_v14, main_v32, main_c_15, main_v33, main_v34, main_c_16,
   main_v35, main_v36, main_v37, main_v38, main_v39, main_c_17, main_v40, main_v41,
   main_c_18, main_v42, main_v43, main_v44, main_v45, main_v46, main_v47 ]

/-- An operation whose written set is the one buffer of a reference listed in `tailWrites` writes inside the list. -/
theorem tail_writes_in {op : HloOp τ sig (Elt F)} {y : Ref sig .tc} (h : op.writes = {Proc.devRef .tc y}) (hy : y ∈ tailWrites) :
    op.writes ⊆ (tailWrites.map (Proc.devRef (τ := τ) .tc)).toFinset := by
  rw [h, Finset.singleton_subset_iff, List.mem_toFinset]
  exact List.mem_map.mpr ⟨y, hy, rfl⟩

/-- A property of every operation of every stretch, read at one operation of one stretch. -/
theorem tail_of_forall {α : Type} {p : α → Prop} {ls : List (List α)} (h : ls.Forall fun l => l.Forall p) :
    ∀ l ∈ ls, ∀ a ∈ l, p a :=
  fun l hl a ha => List.forall_iff_forall_mem.mp (List.forall_iff_forall_mem.mp h l hl) a ha

/-! ## Stretch by stretch: the written buffer is listed, nothing is allocated -/

theorem tail_writes_0 : (hostOps1 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_0 : (hostOps1 : List (HloOp τ sig (Elt F))).Forall fun op => op.fresh = ∅ := by
  simp only [List.Forall]
  repeat' apply And.intro
  all_goals rfl
theorem tail_writes_1 : (hostOps1_1 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_1 : (hostOps1_1 : List (HloOp τ sig (Elt F))).Forall fun op => op.fresh = ∅ := by
  simp only [List.Forall]
  repeat' apply And.intro
  all_goals rfl
theorem tail_writes_2 : (hostOps1_2 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_2 : (hostOps1_2 : List (HloOp τ sig (Elt F))).Forall fun op => op.fresh = ∅ := by
  simp only [List.Forall]
  repeat' apply And.intro
  all_goals rfl
theorem tail_writes_3 : (hostOps1_3 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_3 : (hostOps1_3 : List (HloOp τ sig (Elt F))).Forall fun op => op.fresh = ∅ := by
  simp only [List.Forall]
  repeat' apply And.intro
  all_goals rfl
theorem tail_writes_4 : (hostOps1_4 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_4 : (hostOps1_4 : List (HloOp τ sig (Elt F))).Forall fun op => op.fresh = ∅ := by
  simp only [List.Forall]
  repeat' apply And.intro
  all_goals rfl
theorem tail_writes_5 : (hostOps1_5 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_5 : (hostOps1_5 : List (HloOp τ sig (Elt F))).Forall fun op => op.fresh = ∅ := by
  simp only [List.Forall]
  repeat' apply And.intro
  all_goals rfl
theorem tail_writes_6 : (hostOps1_6 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_6 : (hostOps1_6 : List (HloOp τ sig (Elt F))).Forall fun op => op.fresh = ∅ := by
  simp only [List.Forall]
  repeat' apply And.intro
  all_goals rfl
theorem tail_writes_7 : (hostOps1_7 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_7 : (hostOps1_7 : List (HloOp τ sig (Elt F))).Forall fun op => op.fresh = ∅ := by
  simp only [List.Forall]
  repeat' apply And.intro
  all_goals rfl
theorem tail_writes_8 : (hostOps1_8 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_8 : (hostOps1_8 : List (HloOp τ sig (Elt F))).Forall fun op => op.fresh = ∅ := by
  simp only [List.Forall]
  repeat' apply And.intro
  all_goals rfl
theorem tail_writes_9 : (hostOps1_9 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_9 : (hostOps1_9 : List (HloOp τ sig (Elt F))).Forall fun op => op.fresh = ∅ := by
  simp only [List.Forall]
  repeat' apply And.intro
  all_goals rfl
theorem tail_writes_10 : (hostOps1_10 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_10 : (hostOps1_10 : List (HloOp τ sig (Elt F))).Forall fun op => op.fresh = ∅ := by
  simp only [List.Forall]
  repeat' apply And.intro
  all_goals rfl
theorem tail_writes_11 : (hostOps1_11 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_11 : (hostOps1_11 : List (HloOp τ sig (Elt F))).Forall fun op => op.fresh = ∅ := by
  simp only [List.Forall]
  repeat' apply And.intro
  all_goals rfl
theorem tail_writes_12 : (hostOps1_12 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_12 : (hostOps1_12 : List (HloOp τ sig (Elt F))).Forall fun op => op.fresh = ∅ := by
  simp only [List.Forall]
  repeat' apply And.intro
  all_goals rfl
theorem tail_writes_13 : (hostOps1_13 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_13 : (hostOps1_13 : List (HloOp τ sig (Elt F))).Forall fun op => op.fresh = ∅ := by
  simp only [List.Forall]
  repeat' apply And.intro
  all_goals rfl
theorem tail_writes_14 : (hostOps1_14 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_14 : (hostOps1_14 : List (HloOp τ sig (Elt F))).Forall fun op => op.fresh = ∅ := by
  simp only [List.Forall]
  repeat' apply And.intro
  all_goals rfl
theorem tail_writes_15 : (hostOps1_15 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_15 : (hostOps1_15 : List (HloOp τ sig (Elt F))).Forall fun op => op.fresh = ∅ := by
  simp only [List.Forall]
  repeat' apply And.intro
  all_goals rfl
theorem tail_writes_16 : (hostOps1_16 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_16 : (hostOps1_16 : List (HloOp τ sig (Elt F))).Forall fun op => op.fresh = ∅ := by
  simp only [List.Forall]
  repeat' apply And.intro
  all_goals rfl
theorem tail_writes_17 : (hostOps1_17 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_17 : (hostOps1_17 : List (HloOp τ sig (Elt F))).Forall fun op => op.fresh = ∅ := by
  simp only [List.Forall]
  repeat' apply And.intro
  all_goals rfl
theorem tail_writes_18 : (hostOps1_18 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_18 : (hostOps1_18 : List (HloOp τ sig (Elt F))).Forall fun op => op.fresh = ∅ := by
  simp only [List.Forall]
  repeat' apply And.intro
  all_goals rfl
theorem tail_writes_19 : (hostOps1_19 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_19 : (hostOps1_19 : List (HloOp τ sig (Elt F))).Forall fun op => op.fresh = ∅ := by
  simp only [List.Forall]
  repeat' apply And.intro
  all_goals rfl
theorem tail_writes_20 : (hostOps1_20 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_20 : (hostOps1_20 : List (HloOp τ sig (Elt F))).Forall fun op => op.fresh = ∅ := by
  simp only [List.Forall]
  repeat' apply And.intro
  all_goals rfl

/-! ## The whole tail -/

/-- Every operation of every stretch writes inside `tailWrites`. -/
theorem tail_forall_writes : (tailOps (F := F)).Forall fun ops => ops.Forall fun op =>
    op.writes ⊆ (tailWrites.map (Proc.devRef (τ := τ) .tc)).toFinset :=
  ⟨tail_writes_0, tail_writes_1, tail_writes_2, tail_writes_3, tail_writes_4, tail_writes_5, tail_writes_6, tail_writes_7, tail_writes_8, tail_writes_9, tail_writes_10, tail_writes_11, tail_writes_12, tail_writes_13, tail_writes_14, tail_writes_15, tail_writes_16, tail_writes_17, tail_writes_18, tail_writes_19, tail_writes_20⟩

/-- Every operation of every stretch touches TensorCore references only. -/
theorem tail_forall_tc : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩

/-- No operation of any stretch allocates. -/
theorem tail_forall_fresh : (tailOps (F := F)).Forall fun ops => ops.Forall fun op => op.fresh = ∅ :=
  ⟨tail_fresh_0, tail_fresh_1, tail_fresh_2, tail_fresh_3, tail_fresh_4, tail_fresh_5, tail_fresh_6, tail_fresh_7, tail_fresh_8, tail_fresh_9, tail_fresh_10, tail_fresh_11, tail_fresh_12, tail_fresh_13, tail_fresh_14, tail_fresh_15, tail_fresh_16, tail_fresh_17, tail_fresh_18, tail_fresh_19, tail_fresh_20⟩

/-- No array the region stages is listed in `tailWrites`. -/
theorem tail_arr_not_written : ∀ w, Pipeline.arrRef spec0 w ∉ tailWrites := by decide

/-- Each operation after the region writes inside `tailWrites`. -/
theorem tail_writes_sub : (tailOps (F := F)).flatten.Forall fun op =>
    op.writes ⊆ (tailWrites.map (Proc.devRef (τ := τ) .tc)).toFinset := by
  rw [List.forall_iff_forall_mem]
  intro op hop
  obtain ⟨ops, hops, hop⟩ := List.mem_flatten.mp hop
  exact tail_of_forall tail_forall_writes ops hops op hop

/-- A reference the tail never writes keeps its contents through the whole tail, from any contents. -/
theorem tail_keeps_ref (V : Valuation τ sig (Elt F)) {r : Ref sig .tc} (hr : r ∉ tailWrites) :
    StableHlo.after (tailOps (F := F)).flatten V (Proc.devRef .tc r) = V (Proc.devRef .tc r) :=
  StableHlo.after_of_writes_sub _ V tail_writes_sub hr

/-- The operations after the region touch the pipeline's arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_of_forall tail_forall_tc ops hops op hop)

/-- They allocate nothing. -/
theorem tail_fresh : ∀ ops ∈ (tailOps : List (List (HloOp τ sig (Elt F)))), ∀ op ∈ ops, op.fresh = ∅ :=
  tail_of_forall tail_forall_fresh

/-- They write no array the region stages. -/
theorem tail_keeps : ∀ ops ∈ (tailOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (tail_of_forall tail_forall_writes ops hops op hop hw))
  exact tail_arr_not_written w (Proc.devRef_injective _ he ▸ hy)

/-- @main is the region continued by the tail, from the launch contents. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain ((tailOps (F := F)).map StableHlo.seq)) :=
  Pipeline.hmain_around cfgs 0 defs₀ 𝒱₀ m main [] tailOps trivial trivial main_chain

/-- An argument array that is no window of the region and that the tail never writes ends as launched, whatever the
    region's proof data. -/
theorem kept_of (dats : (p : Fin 1) → (c : Dev nD) → Dat τ (Elt F) Unit ℕ (UR sig nD τ) ℕ (cfgs p) c) (c : Dev nD)
    (r : Ref sig .tc) (hr : r ∉ tailWrites) (ha : ∀ w, Pipeline.arrRef spec0 w ≠ r) :
    Pipeline.afterTail₀ cfgs dats 0 (entry0 m) (tailOps (F := F)) c r = m ((c : Thread nD τ).loc r) := by
  unfold Pipeline.afterTail₀
  rw [tail_keeps_ref _ hr, Pipeline.withArrays_of_ne _ c _ _ r ha]
  rfl

end Cert.Kernel.Hand

end
-- ==== Proof.KRegion.lean ====
/-
  The pipelined region: at grid point t the body reads rows 5000·t … 5000·t+4999 of fp_0 (16 columns) and of fp_1
  (32 columns), rescales each entrywise ((x − lo)·scale − 1) and stores the two side by side as one 5000×48 block.
  This module states what the body leaves in the output window's buffer, the body's triple, and the proof data the
  library's frame run takes: the arrays as the region finds them, each input buffer at its block, the output
  buffer at the rescaled block.
-/
import proofs.«423469_j7919919693922_3_alg».proof.Proof.KEntry
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (m : (ℓ : Loc nD τ sig) → Buf (Elt F) ℓ)

/-- The whole 5000×16, 5000×32 and 5000×48 blocks as rectangles: what the body's two loads and its store address. -/
abbrev rect16 : Rect S5000x16 := Rect.unit (s := S5000x16) ![0, 0] S5000x16.size inb_S5000x16_S5000x16_0_0
abbrev rect32 : Rect S5000x32 := Rect.unit (s := S5000x32) ![0, 0] S5000x32.size inb_S5000x32_S5000x32_0_0
abbrev rect48 : Rect S5000x48 := Rect.unit (s := S5000x48) ![0, 0] S5000x48.size inb_S5000x48_S5000x48_0_0

set_option maxRecDepth 16384 in
/-- The body's one store addresses every element of the 5000×48 buffer: as a tiling it is the single block of the
    buffer's own size at offset zero, so every index lies in its rectangle whatever the payload. -/
theorem store_covers (p : rect48.shape.Idx → Elt F .f32) (y : S5000x48.Idx) :
    ∃ pc ∈ ([⟨rect48, p⟩] : List (View.Piece (Elt F) S5000x48 .f32)), y ∈ pc.1.set :=
  View.cover_of_tiled [⟨rect48, p⟩] S5000x48.size (by rfl) y

/-- The output window's buffer after the body, from the two input blocks: its one store, of the whole block. -/
def scaledBlock (x0 : Vec F S5000x16 .f32) (x1 : Vec F S5000x32 .f32) : Vec F S5000x48 .f32 :=
  View.canon [⟨rect48, k0_pay1 (View.ld x0 rect16) (View.ld x1 rect32)⟩]

set_option maxHeartbeats 1000000 in
/-- The body on whole staging memrefs: the inputs' at contents `x0`, `x1`, the output's at anything; it runs to the
    continuation with the inputs as they were and the output at `scaledBlock x0 x1`. -/
theorem body_triple (c : Dev nD) (E : Set ℕ) (i : grid0.Coords)
    (a1 : Memref sig .tc .vmem S5000x16 .f32) (h1 : a1.IsWhole) (a2 : Memref sig .tc .vmem S5000x32 .f32) (h2 : a2.IsWhole)
    (a3 : Memref sig .tc .vmem S5000x48 .f32) (h3 : a3.IsWhole)
    (x0 : Vec F S5000x16 .f32) (x1 : Vec F S5000x32 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (scaledBlock x0 x1)) -∗ K ⟨⟩))
      ⊢ wp frame (wpE (defs₀ (F := F)) Variants.none c none) E (cc0__lambda_ i a1 h1 a2 h2 a3 h3) K := by
  -- the body is a sequence of five steps: load, load, a load of the output that nothing reads, one store, return
  simp only [cc0__lambda__eq_skeleton]; unfold cc0__lambda__skel
  unfold owns
  -- the two inputs' buffers read x0 and x1 through their memrefs; the output's buffer holds anything
  iintro ⟨⟨%g1, %e1, R1⟩, ⟨%g2, %e2, R2⟩, ⟨%y, %g3, -, R3⟩, Hret⟩
  subst e1 e2
  sl_exec
  sl_step
  iapply Hret
  -- the inputs come back as they went in
  isplitl [R1]
  · iexists g1; isplitr
    · ipureintro; rfl
    · iexact R1
  isplitl [R2]
  · iexists g2; isplitr
    · ipureintro; rfl
    · iexact R2
  -- the output's buffer is the prior contents under one write that covers the view: it reads as the write's canon
  iexists _; isplitr
  swap
  · iexact R3
  ipureintro
  exact View.read_writes_eq_canon _ _ _ (store_covers _)

/-- The region's proof data on core `c`. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => scaledBlock (blockAt m c 0 t) (blockAt m c 1 t)
  Φ _ := Pipeline.ΦA spec0 c
  q _ := fullShare
  owed _ := 0

theorem regionData_A (c : Dev nD) (w : Fin cfg0.W) : (regionData m 0 c).A w = entry m c (Pipeline.arrRef spec0 w) := by
  dsimp only [regionData]

theorem regionData_after0 (c : Dev nD) (t : Fin cfg0.N) : (regionData m 0 c).after 0 t = blockAt m c 0 t := by dsimp only [regionData]
theorem regionData_after1 (c : Dev nD) (t : Fin cfg0.N) : (regionData m 0 c).after 1 t = blockAt m c 1 t := by dsimp only [regionData]
theorem regionData_after2 (c : Dev nD) (t : Fin cfg0.N) :
    (regionData m 0 c).after 2 t = scaledBlock (blockAt m c 0 t) (blockAt m c 1 t) := by dsimp only [regionData]

/-- The pipeline fetches fp_0's rows at every grid point, so when the body runs the window's current staging buffer
    holds the block of that point: what a landed fetch leaves, which for a window whose block lies wholly inside its
    array is the block itself. -/
theorem before_in0 (c : Dev nD) (t : Fin cfg0.N) (d) : (regionData m 0 c).before 0 t d = blockAt m c 0 t := by
  rw [Dat.before_fetched _ 0 t (fetch0_0 t) d]
  unfold Dat.fetched Dat.blockOf blockAt
  rw [regionData_A]
  rfl

/-- The same of fp_1's rows. -/
theorem before_in1 (c : Dev nD) (t : Fin cfg0.N) (d) : (regionData m 0 c).before 1 t d = blockAt m c 1 t := by
  rw [Dat.before_fetched _ 1 t (fetch0_1 t) d]
  unfold Dat.fetched Dat.blockOf blockAt
  rw [regionData_A]
  rfl

/-- The body at grid point `t`, on what the pipeline hands it: the region's invariant and the core's debts, which it
    neither reads nor changes, and the three windows' current staging buffers — the inputs' at their blocks, the
    output's at whatever an earlier point or the launch left. It returns the inputs' buffers untouched and the
    output's at the rescaled block. -/
theorem body_at (c : Dev nD) (t : Fin cfg0.N) :
    iprop((regionData m 0 c).Φ t.castSucc ∗ (regionData m 0 c).owesAt () t.castSucc
        ∗ (∃ d, owns (c : Thread nD τ) (st0_0 t) fullShare ((regionData m 0 c).before 0 t d))
        ∗ (∃ d, owns (c : Thread nD τ) (st0_1 t) fullShare ((regionData m 0 c).before 1 t d))
        ∗ (∃ d, owns (c : Thread nD τ) (st0_2 t) fullShare ((regionData m 0 c).before 2 t d)))
      ⊢ wp frame (wpE (defs₀ (F := F)) Variants.none c none) Set.univ (bodyAt0 t) (fun _ =>
          iprop((regionData m 0 c).Φ t.succ ∗ (regionData m 0 c).owesAt () t.succ
            ∗ owns (c : Thread nD τ) (st0_0 t) fullShare ((regionData m 0 c).after 0 t)
            ∗ owns (c : Thread nD τ) (st0_1 t) fullShare ((regionData m 0 c).after 1 t)
            ∗ owns (c : Thread nD τ) (st0_2 t) fullShare ((regionData m 0 c).after 2 t))) := by
  unfold bodyAt0
  -- each input's buffer holds its block; the invariant and the debts do not depend on the point
  simp only [before_in0, before_in1]
  rw [show (regionData m 0 c).Φ t.succ = (regionData m 0 c).Φ t.castSucc from rfl,
    show (regionData m 0 c).owesAt () t.succ = (regionData m 0 c).owesAt () t.castSucc from rfl,
    regionData_after0, regionData_after1, regionData_after2]
  iintro ⟨Hinv, Howe, ⟨%d0, B0⟩, ⟨%d1, B1⟩, ⟨%d2, B2⟩⟩
  iapply (body_triple c Set.univ (grid0.coords t) _ _ _ _ _ _ (blockAt m c 0 t) (blockAt m c 1 t) _)
  isplitl [B0]
  · iexact B0
  isplitl [B1]
  · iexact B1
  isplitl [B2]
  · iexists _; iexact B2
  -- the body has returned: its three buffers, with the invariant and the debts set aside before the call
  iintro ⟨B0, B1, B2⟩
  isplitl [Hinv]
  · iexact Hinv
  isplitl [Howe]
  · iexact Howe
  isplitl [B0]
  · iexact B0
  isplitl [B1]
  · iexact B1
  iexact B2

/-- The library's body obligation for this proof data, at every grid point. -/
theorem body_obligation (c : Dev nD) :
    BodyObligation (regionData (F := F) m 0 c) (defs₀ (F := F)) Variants.none () Set.univ := fun t => by
  rw [bigSep_W0, bigSep_W0]
  exact body_at m c t

end Cert.Kernel.Hand

end
-- ==== Proof.KRun.lean ====
/-
  The kernel program's run: every weakly fair execution of @main terminates without fault; the arrays the region
  stages end at what the library computes from the region's proof data, every other unscoped buffer at what the
  host operations after the region leave. Read at the result buffer that is the tail's fold from the contents the
  region leaves; read at the argument arrays it is the launch contents.
-/
import proofs.«423469_j7919919693922_3_alg».proof.Proof.KTail
import proofs.«423469_j7919919693922_3_alg».proof.Proof.KRegion

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is left: the staged arrays at what the proof data says, every other
    buffer as launched. The tail runs from here. -/
abbrev afterRegion (c : Dev nD) : Valuation τ sig (Elt F) :=
  Pipeline.withArrays spec0 c (entry0 m c) fun w => (regionData m 0 c).arrAt w cfg0.N

theorem run_main : θ_run defs (onTc (τ := τ) (main (F := F))) (s₀ m ρ)
    (Pipeline.FramePost cfgs (regionData m) 0 (Pipeline.afterTail₀ cfgs (regionData m) 0 (entry0 m) tailOps)) :=
  Pipeline.θ_run_frame_around cfgs (regionData m) (0 : Fin 1) launch0 defs₀ Variants.none m ρ main
    (hbody := fun c => (body_obligation m c).loose)
    (hshare := fun c => (regionData m 0 c).share_full fun _ => rfl)
    (howed := fun _ _ => rfl) (V₀ := entry0 m) (opss := tailOps)
    (hsub := tail_sub) (hfresh := tail_fresh) (hkeep := tail_keeps)
    (hmain := main_around m Variants.none) (hA := regionData_A m) (hΦ := fun _ _ => rfl)

/-- The tail reads the rescaled array where the region left it, -/
theorem afterRegion_scaled (c : Dev nD) :
    afterRegion m c (Proc.devRef .tc main_v0) = (regionData m 0 c).arrAt 2 cfg0.N :=
  Pipeline.withArrays_arr spec0 launch0.win.arr_inj c _ _ 2

/-- and the element codes as launched. -/
theorem afterRegion_elems (c : Dev nD) :
    afterRegion m c (Proc.devRef .tc main_arg5) = m ((c.tc : Thread nD τ).loc main_arg5) := by
  rw [afterRegion, Pipeline.withArrays_of_ne _ c _ _ main_arg5 (by decide : ∀ w, Pipeline.arrRef spec0 w ≠ main_arg5)]
  rfl

/-- The run with the result named: the tail's fold at the result buffer, and the arguments unchanged. -/
theorem run_result : θ_run defs (onTc (τ := τ) (main (F := F))) ⟨m, fun _ => 0, ρ⟩ (fun r => ∀ c : Dev nD,
      r.2.mem ((c.tc : Thread nD τ).loc main_v47)
        = StableHlo.after (tailOps (F := F)).flatten (afterRegion m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).2 main_v47 (Pipeline.mem_restRefs_of main_v47 (by decide) (by decide)),
     ((h c).2 main_arg0 (Pipeline.mem_restRefs_of main_arg0 (by decide) (by decide))).trans
       (kept_of m (regionData m) c main_arg0 (by decide) (by decide)),
     ((h c).1 0).trans (((regionData m 0 c).arrAt_in 0 rfl _).trans ((regionData_A m c 0).trans rfl)),
     ((h c).1 1).trans (((regionData m 0 c).arrAt_in 1 rfl _).trans ((regionData_A m c 1).trans rfl)),
     ((h c).2 main_arg3 (Pipeline.mem_restRefs_of main_arg3 (by decide) (by decide))).trans
       (kept_of m (regionData m) c main_arg3 (by decide) (by decide)),
     ((h c).2 main_arg4 (Pipeline.mem_restRefs_of main_arg4 (by decide) (by decide))).trans
       (kept_of m (regionData m) c main_arg4 (by decide) (by decide)),
     ((h c).2 main_arg5 (Pipeline.mem_restRefs_of main_arg5 (by decide) (by decide))).trans
       (kept_of m (regionData m) c main_arg5 (by decide) (by decide)),
     ((h c).2 main_arg6 (Pipeline.mem_restRefs_of main_arg6 (by decide) (by decide))).trans
       (kept_of m (regionData m) c main_arg6 (by decide) (by decide)),
     ((h c).2 main_arg7 (Pipeline.mem_restRefs_of main_arg7 (by decide) (by decide))).trans
       (kept_of m (regionData m) c main_arg7 (by decide) (by decide))⟩) (run_main m ρ)

/-- The frame: it runs, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.Kernel.Hand

end
-- ==== Proof.KiEntry.lean ====
/-
  The kernel program's @main is one pipelined region followed by host operations only: nothing runs before the
  region, so the region finds every buffer as launched, and the 151 operations after it come in 21 stretches
  (the two nonzero scans of the element codes, then the two row gathers and their concatenation).
  This module names those two things and a window's block at a grid point.
-/
import proofs.«423469_j7919919693922_3_alg».proof.Proof.Gen.KernelIdeal.Launch
import proofs.«423469_j7919919693922_3_alg».proof.Proof.Gen.KernelIdeal.Skeleton
import proofs.«423469_j7919919693922_3_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-- Core `c`'s buffer contents when the region is entered: no host operation precedes it, so the launch contents
    (written as the empty fold so that it is the form the library's statement about @main produces). -/
abbrev entry0 (c : Dev nD) : Valuation τ sig (Elt F) :=
  StableHlo.after (List.flatten ([] : List (List (HloOp τ sig (Elt F))))) (fun b => m (c, b))

/-- The same, read at a TensorCore reference. -/
abbrev entry (c : Dev nD) (b : Ref sig .tc) : Buf (Elt F) ((c : Thread nD τ).loc b) := entry0 m c (Proc.devRef .tc b)

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20]

/-- Window `w`'s block at grid point `t`: rows 5000·t … 5000·t+4999 of its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

end Cert.KernelIdeal.Hand

end
-- ==== Proof.KiTail.lean ====
/-
  What the library's frame run asks of the host operations after the region, and what it gives back about
  the buffers they never write: every one of the 151 operations writes one buffer of its own (the references
  listed in `tailWrites`), reads and writes unscoped TensorCore buffers only, allocates nothing, and writes none
  of the three arrays the region stages (`fp_0`, `fp_1`, the scaled 50000×48 result). Hence an argument array
  that is no window of the region ends as launched.
-/
import proofs.«423469_j7919919693922_3_alg».proof.Proof.KiEntry

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Every reference a host operation after the region writes: each operation's own result buffer. -/
def tailWrites : List (Ref sig .tc) :=
  [
   main_c, main_v1, main_v2, main_call0_v0, main_call0_call0_c, main_call0_call0_v0, main_v3, main_c_0,
   main_v4, main_c_1, main_call1_v0, main_call1_v1, main_v5, main_c_2, main_v6, main_v7,
   main_c_3, main_v8, main_v9, main_v10, main_v11, main_c_4, main_v12, main_v13,
   main_call2_call0_c, main_call2_call0_v0, main_v14, main_c_5, main_call3_v0, main_call3_v1, main_call3_v2, main_call3_v3,
   main_call3_v4, main_call3_v5, main_call3_v6, main_call3_v7, main_call3_c, main_call3_v8, main_call3_v9, main_call3_v10,
   main_call3_c_0, main_call3_v11, main_call3_v12, main_v15, main_c_6, main_call4_v0, main_call4_c, main_call4_v1,
   main_call4_c_0, main_call4_v2, main_call4_v3, main_call4_v4, main_call4_c_1, main_call4_v5, main_call4_v6, main_call4_c_2,
   main_call4_v7, main_call4_v8, main_call4_c_3, main_call4_v9, main_call4_v10, main_call4_v11, main_call4_v12, main_call4_v13,
   main_call4_v14, main_v16, main_c_7, main_v17, main_v18, main_call5_v0, main_call5_call0_c, main_call5_call0_v0,
   main_v19, main_c_8, main_v20, main_c_9, main_call6_v0, main_call6_v1, main_v21, main_c_10,
   main_v22, main_v23, main_c_11, main_v24, main_v25, main_v26, main_v27, main_c_12,
   main_v28, main_v29, main_call7_call0_c, main_call7_call0_v0, main_v30, main_c_13, main_call8_v0, main_call8_v1,
   main_call8_v2, main_call8_v3, main_call8_v4, main_call8_v5, main_call8_v6, main_call8_v7, main_call8_c, main_call8_v8,
   main_call8_v9, main_call8_v10, main_call8_c_0, main_call8_v11, main_call8_v12, main_v31, main_c_14, main_call9_v0,
   main_call9_c, main_call9_v1, main_call9_c_0, main_call9_v2, main_call9_v3, main_call9_v4, main_call9_c_1, main_call9_v5,
   main_call9_v6, main_call9_c_2, main_call9_v7, main_call9_v8, main_call9_c_3, main_call9_v9, main_call9_v10, main_call9_v11,
   main_call9_v12, main_call9_v13, main_call9_v14, main_v32, main_c_15, main_v33, main_v34, main_c_16,
   main_v35, main_v36, main_v37, main_v38, main_v39, main_c_17, main_v40, main_v41,
   main_c_18, main_v42, main_v43, main_v44, main_v45, main_v46, main_v47 ]

/-- An operation whose written set is the one buffer of a reference listed in `tailWrites` writes inside the list. -/
theorem tail_writes_in {op : HloOp τ sig (Elt F)} {y : Ref sig .tc} (h : op.writes = {Proc.devRef .tc y}) (hy : y ∈ tailWrites) :
    op.writes ⊆ (tailWrites.map (Proc.devRef (τ := τ) .tc)).toFinset := by
  rw [h, Finset.singleton_subset_iff, List.mem_toFinset]
  exact List.mem_map.mpr ⟨y, hy, rfl⟩

/-- A property of every operation of every stretch, read at one operation of one stretch. -/
theorem tail_of_forall {α : Type} {p : α → Prop} {ls : List (List α)} (h : ls.Forall fun l => l.Forall p) :
    ∀ l ∈ ls, ∀ a ∈ l, p a :=
  fun l hl a ha => List.forall_iff_forall_mem.mp (List.forall_iff_forall_mem.mp h l hl) a ha

/-! ## Stretch by stretch: the written buffer is listed, nothing is allocated -/

theorem tail_writes_0 : (hostOps1 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_0 : (hostOps1 : List (HloOp τ sig (Elt F))).Forall fun op => op.fresh = ∅ := by
  simp only [List.Forall]
  repeat' apply And.intro
  all_goals rfl
theorem tail_writes_1 : (hostOps1_1 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_1 : (hostOps1_1 : List (HloOp τ sig (Elt F))).Forall fun op => op.fresh = ∅ := by
  simp only [List.Forall]
  repeat' apply And.intro
  all_goals rfl
theorem tail_writes_2 : (hostOps1_2 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_2 : (hostOps1_2 : List (HloOp τ sig (Elt F))).Forall fun op => op.fresh = ∅ := by
  simp only [List.Forall]
  repeat' apply And.intro
  all_goals rfl
theorem tail_writes_3 : (hostOps1_3 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_3 : (hostOps1_3 : List (HloOp τ sig (Elt F))).Forall fun op => op.fresh = ∅ := by
  simp only [List.Forall]
  repeat' apply And.intro
  all_goals rfl
theorem tail_writes_4 : (hostOps1_4 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_4 : (hostOps1_4 : List (HloOp τ sig (Elt F))).Forall fun op => op.fresh = ∅ := by
  simp only [List.Forall]
  repeat' apply And.intro
  all_goals rfl
theorem tail_writes_5 : (hostOps1_5 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_5 : (hostOps1_5 : List (HloOp τ sig (Elt F))).Forall fun op => op.fresh = ∅ := by
  simp only [List.Forall]
  repeat' apply And.intro
  all_goals rfl
theorem tail_writes_6 : (hostOps1_6 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_6 : (hostOps1_6 : List (HloOp τ sig (Elt F))).Forall fun op => op.fresh = ∅ := by
  simp only [List.Forall]
  repeat' apply And.intro
  all_goals rfl
theorem tail_writes_7 : (hostOps1_7 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_7 : (hostOps1_7 : List (HloOp τ sig (Elt F))).Forall fun op => op.fresh = ∅ := by
  simp only [List.Forall]
  repeat' apply And.intro
  all_goals rfl
theorem tail_writes_8 : (hostOps1_8 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_8 : (hostOps1_8 : List (HloOp τ sig (Elt F))).Forall fun op => op.fresh = ∅ := by
  simp only [List.Forall]
  repeat' apply And.intro
  all_goals rfl
theorem tail_writes_9 : (hostOps1_9 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_9 : (hostOps1_9 : List (HloOp τ sig (Elt F))).Forall fun op => op.fresh = ∅ := by
  simp only [List.Forall]
  repeat' apply And.intro
  all_goals rfl
theorem tail_writes_10 : (hostOps1_10 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_10 : (hostOps1_10 : List (HloOp τ sig (Elt F))).Forall fun op => op.fresh = ∅ := by
  simp only [List.Forall]
  repeat' apply And.intro
  all_goals rfl
theorem tail_writes_11 : (hostOps1_11 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_11 : (hostOps1_11 : List (HloOp τ sig (Elt F))).Forall fun op => op.fresh = ∅ := by
  simp only [List.Forall]
  repeat' apply And.intro
  all_goals rfl
theorem tail_writes_12 : (hostOps1_12 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_12 : (hostOps1_12 : List (HloOp τ sig (Elt F))).Forall fun op => op.fresh = ∅ := by
  simp only [List.Forall]
  repeat' apply And.intro
  all_goals rfl
theorem tail_writes_13 : (hostOps1_13 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_13 : (hostOps1_13 : List (HloOp τ sig (Elt F))).Forall fun op => op.fresh = ∅ := by
  simp only [List.Forall]
  repeat' apply And.intro
  all_goals rfl
theorem tail_writes_14 : (hostOps1_14 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_14 : (hostOps1_14 : List (HloOp τ sig (Elt F))).Forall fun op => op.fresh = ∅ := by
  simp only [List.Forall]
  repeat' apply And.intro
  all_goals rfl
theorem tail_writes_15 : (hostOps1_15 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_15 : (hostOps1_15 : List (HloOp τ sig (Elt F))).Forall fun op => op.fresh = ∅ := by
  simp only [List.Forall]
  repeat' apply And.intro
  all_goals rfl
theorem tail_writes_16 : (hostOps1_16 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_16 : (hostOps1_16 : List (HloOp τ sig (Elt F))).Forall fun op => op.fresh = ∅ := by
  simp only [List.Forall]
  repeat' apply And.intro
  all_goals rfl
theorem tail_writes_17 : (hostOps1_17 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_17 : (hostOps1_17 : List (HloOp τ sig (Elt F))).Forall fun op => op.fresh = ∅ := by
  simp only [List.Forall]
  repeat' apply And.intro
  all_goals rfl
theorem tail_writes_18 : (hostOps1_18 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_18 : (hostOps1_18 : List (HloOp τ sig (Elt F))).Forall fun op => op.fresh = ∅ := by
  simp only [List.Forall]
  repeat' apply And.intro
  all_goals rfl
theorem tail_writes_19 : (hostOps1_19 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_19 : (hostOps1_19 : List (HloOp τ sig (Elt F))).Forall fun op => op.fresh = ∅ := by
  simp only [List.Forall]
  repeat' apply And.intro
  all_goals rfl
theorem tail_writes_20 : (hostOps1_20 : List (HloOp τ sig (Elt F))).Forall fun op =>
    op.writes ⊆ (tailWrites.map (Proc.devRef (τ := τ) .tc)).toFinset := by
  simp only [List.Forall]
  repeat' apply And.intro
  all_goals exact tail_writes_in rfl (by decide)
theorem tail_fresh_20 : (hostOps1_20 : List (HloOp τ sig (Elt F))).Forall fun op => op.fresh = ∅ := by
  simp only [List.Forall]
  repeat' apply And.intro
  all_goals rfl

/-! ## The whole tail -/

/-- Every operation of every stretch writes inside `tailWrites`. -/
theorem tail_forall_writes : (tailOps (F := F)).Forall fun ops => ops.Forall fun op =>
    op.writes ⊆ (tailWrites.map (Proc.devRef (τ := τ) .tc)).toFinset :=
  ⟨tail_writes_0, tail_writes_1, tail_writes_2, tail_writes_3, tail_writes_4, tail_writes_5, tail_writes_6, tail_writes_7, tail_writes_8, tail_writes_9, tail_writes_10, tail_writes_11, tail_writes_12, tail_writes_13, tail_writes_14, tail_writes_15, tail_writes_16, tail_writes_17, tail_writes_18, tail_writes_19, tail_writes_20⟩

/-- Every operation of every stretch touches TensorCore references only. -/
theorem tail_forall_tc : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩

/-- No operation of any stretch allocates. -/
theorem tail_forall_fresh : (tailOps (F := F)).Forall fun ops => ops.Forall fun op => op.fresh = ∅ :=
  ⟨tail_fresh_0, tail_fresh_1, tail_fresh_2, tail_fresh_3, tail_fresh_4, tail_fresh_5, tail_fresh_6, tail_fresh_7, tail_fresh_8, tail_fresh_9, tail_fresh_10, tail_fresh_11, tail_fresh_12, tail_fresh_13, tail_fresh_14, tail_fresh_15, tail_fresh_16, tail_fresh_17, tail_fresh_18, tail_fresh_19, tail_fresh_20⟩

/-- No array the region stages is listed in `tailWrites`. -/
theorem tail_arr_not_written : ∀ w, Pipeline.arrRef spec0 w ∉ tailWrites := by decide

/-- Each operation after the region writes inside `tailWrites`. -/
theorem tail_writes_sub : (tailOps (F := F)).flatten.Forall fun op =>
    op.writes ⊆ (tailWrites.map (Proc.devRef (τ := τ) .tc)).toFinset := by
  rw [List.forall_iff_forall_mem]
  intro op hop
  obtain ⟨ops, hops, hop⟩ := List.mem_flatten.mp hop
  exact tail_of_forall tail_forall_writes ops hops op hop

/-- A reference the tail never writes keeps its contents through the whole tail, from any contents. -/
theorem tail_keeps_ref (V : Valuation τ sig (Elt F)) {r : Ref sig .tc} (hr : r ∉ tailWrites) :
    StableHlo.after (tailOps (F := F)).flatten V (Proc.devRef .tc r) = V (Proc.devRef .tc r) :=
  StableHlo.after_of_writes_sub _ V tail_writes_sub hr

/-- The operations after the region touch the pipeline's arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_of_forall tail_forall_tc ops hops op hop)

/-- They allocate nothing. -/
theorem tail_fresh : ∀ ops ∈ (tailOps : List (List (HloOp τ sig (Elt F)))), ∀ op ∈ ops, op.fresh = ∅ :=
  tail_of_forall tail_forall_fresh

/-- They write no array the region stages. -/
theorem tail_keeps : ∀ ops ∈ (tailOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (tail_of_forall tail_forall_writes ops hops op hop hw))
  exact tail_arr_not_written w (Proc.devRef_injective _ he ▸ hy)

/-- @main is the region continued by the tail, from the launch contents. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain ((tailOps (F := F)).map StableHlo.seq)) :=
  Pipeline.hmain_around cfgs 0 defs₀ 𝒱₀ m main [] tailOps trivial trivial main_chain

/-- An argument array that is no window of the region and that the tail never writes ends as launched, whatever the
    region's proof data. -/
theorem kept_of (dats : (p : Fin 1) → (c : Dev nD) → Dat τ (Elt F) Unit ℕ (UR sig nD τ) ℕ (cfgs p) c) (c : Dev nD)
    (r : Ref sig .tc) (hr : r ∉ tailWrites) (ha : ∀ w, Pipeline.arrRef spec0 w ≠ r) :
    Pipeline.afterTail₀ cfgs dats 0 (entry0 m) (tailOps (F := F)) c r = m ((c : Thread nD τ).loc r) := by
  unfold Pipeline.afterTail₀
  rw [tail_keeps_ref _ hr, Pipeline.withArrays_of_ne _ c _ _ r ha]
  rfl

end Cert.KernelIdeal.Hand

end
-- ==== Proof.KiRegion.lean ====
/-
  The pipelined region: at grid point t the body reads rows 5000·t … 5000·t+4999 of fp_0 (16 columns) and of fp_1
  (32 columns), rescales each entrywise ((x − lo)·scale − 1) and stores the two side by side as one 5000×48 block.
  This module states what the body leaves in the output window's buffer, the body's triple, and the proof data the
  library's frame run takes: the arrays as the region finds them, each input buffer at its block, the output
  buffer at the rescaled block.
-/
import proofs.«423469_j7919919693922_3_alg».proof.Proof.KiEntry
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (m : (ℓ : Loc nD τ sig) → Buf (Elt F) ℓ)

/-- The whole 5000×16, 5000×32 and 5000×48 blocks as rectangles: what the body's two loads and its store address. -/
abbrev rect16 : Rect S5000x16 := Rect.unit (s := S5000x16) ![0, 0] S5000x16.size inb_S5000x16_S5000x16_0_0
abbrev rect32 : Rect S5000x32 := Rect.unit (s := S5000x32) ![0, 0] S5000x32.size inb_S5000x32_S5000x32_0_0
abbrev rect48 : Rect S5000x48 := Rect.unit (s := S5000x48) ![0, 0] S5000x48.size inb_S5000x48_S5000x48_0_0

set_option maxRecDepth 16384 in
/-- The body's one store addresses every element of the 5000×48 buffer: as a tiling it is the single block of the
    buffer's own size at offset zero, so every index lies in its rectangle whatever the payload. -/
theorem store_covers (p : rect48.shape.Idx → Elt F .f32) (y : S5000x48.Idx) :
    ∃ pc ∈ ([⟨rect48, p⟩] : List (View.Piece (Elt F) S5000x48 .f32)), y ∈ pc.1.set :=
  View.cover_of_tiled [⟨rect48, p⟩] S5000x48.size (by rfl) y

/-- The output window's buffer after the body, from the two input blocks: its one store, of the whole block. -/
def scaledBlock (x0 : Vec F S5000x16 .f32) (x1 : Vec F S5000x32 .f32) : Vec F S5000x48 .f32 :=
  View.canon [⟨rect48, k0_pay1 (View.ld x0 rect16) (View.ld x1 rect32)⟩]

set_option maxHeartbeats 1000000 in
/-- The body on whole staging memrefs: the inputs' at contents `x0`, `x1`, the output's at anything; it runs to the
    continuation with the inputs as they were and the output at `scaledBlock x0 x1`. -/
theorem body_triple (c : Dev nD) (E : Set ℕ) (i : grid0.Coords)
    (a1 : Memref sig .tc .vmem S5000x16 .f32) (h1 : a1.IsWhole) (a2 : Memref sig .tc .vmem S5000x32 .f32) (h2 : a2.IsWhole)
    (a3 : Memref sig .tc .vmem S5000x48 .f32) (h3 : a3.IsWhole)
    (x0 : Vec F S5000x16 .f32) (x1 : Vec F S5000x32 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (scaledBlock x0 x1)) -∗ K ⟨⟩))
      ⊢ wp frame (wpE (defs₀ (F := F)) Variants.none c none) E (cc0__lambda_ i a1 h1 a2 h2 a3 h3) K := by
  -- the body is a sequence of five steps: load, load, a load of the output that nothing reads, one store, return
  simp only [cc0__lambda__eq_skeleton]; unfold cc0__lambda__skel
  unfold owns
  -- the two inputs' buffers read x0 and x1 through their memrefs; the output's buffer holds anything
  iintro ⟨⟨%g1, %e1, R1⟩, ⟨%g2, %e2, R2⟩, ⟨%y, %g3, -, R3⟩, Hret⟩
  subst e1 e2
  sl_exec
  sl_step
  iapply Hret
  -- the inputs come back as they went in
  isplitl [R1]
  · iexists g1; isplitr
    · ipureintro; rfl
    · iexact R1
  isplitl [R2]
  · iexists g2; isplitr
    · ipureintro; rfl
    · iexact R2
  -- the output's buffer is the prior contents under one write that covers the view: it reads as the write's canon
  iexists _; isplitr
  swap
  · iexact R3
  ipureintro
  exact View.read_writes_eq_canon _ _ _ (store_covers _)

/-- The region's proof data on core `c`. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => scaledBlock (blockAt m c 0 t) (blockAt m c 1 t)
  Φ _ := Pipeline.ΦA spec0 c
  q _ := fullShare
  owed _ := 0

theorem regionData_A (c : Dev nD) (w : Fin cfg0.W) : (regionData m 0 c).A w = entry m c (Pipeline.arrRef spec0 w) := by
  dsimp only [regionData]

theorem regionData_after0 (c : Dev nD) (t : Fin cfg0.N) : (regionData m 0 c).after 0 t = blockAt m c 0 t := by dsimp only [regionData]
theorem regionData_after1 (c : Dev nD) (t : Fin cfg0.N) : (regionData m 0 c).after 1 t = blockAt m c 1 t := by dsimp only [regionData]
theorem regionData_after2 (c : Dev nD) (t : Fin cfg0.N) :
    (regionData m 0 c).after 2 t = scaledBlock (blockAt m c 0 t) (blockAt m c 1 t) := by dsimp only [regionData]

/-- The pipeline fetches fp_0's rows at every grid point, so when the body runs the window's current staging buffer
    holds the block of that point: what a landed fetch leaves, which for a window whose block lies wholly inside its
    array is the block itself. -/
theorem before_in0 (c : Dev nD) (t : Fin cfg0.N) (d) : (regionData m 0 c).before 0 t d = blockAt m c 0 t := by
  rw [Dat.before_fetched _ 0 t (fetch0_0 t) d]
  unfold Dat.fetched Dat.blockOf blockAt
  rw [regionData_A]
  rfl

/-- The same of fp_1's rows. -/
theorem before_in1 (c : Dev nD) (t : Fin cfg0.N) (d) : (regionData m 0 c).before 1 t d = blockAt m c 1 t := by
  rw [Dat.before_fetched _ 1 t (fetch0_1 t) d]
  unfold Dat.fetched Dat.blockOf blockAt
  rw [regionData_A]
  rfl

/-- The body at grid point `t`, on what the pipeline hands it: the region's invariant and the core's debts, which it
    neither reads nor changes, and the three windows' current staging buffers — the inputs' at their blocks, the
    output's at whatever an earlier point or the launch left. It returns the inputs' buffers untouched and the
    output's at the rescaled block. -/
theorem body_at (c : Dev nD) (t : Fin cfg0.N) :
    iprop((regionData m 0 c).Φ t.castSucc ∗ (regionData m 0 c).owesAt () t.castSucc
        ∗ (∃ d, owns (c : Thread nD τ) (st0_0 t) fullShare ((regionData m 0 c).before 0 t d))
        ∗ (∃ d, owns (c : Thread nD τ) (st0_1 t) fullShare ((regionData m 0 c).before 1 t d))
        ∗ (∃ d, owns (c : Thread nD τ) (st0_2 t) fullShare ((regionData m 0 c).before 2 t d)))
      ⊢ wp frame (wpE (defs₀ (F := F)) Variants.none c none) Set.univ (bodyAt0 t) (fun _ =>
          iprop((regionData m 0 c).Φ t.succ ∗ (regionData m 0 c).owesAt () t.succ
            ∗ owns (c : Thread nD τ) (st0_0 t) fullShare ((regionData m 0 c).after 0 t)
            ∗ owns (c : Thread nD τ) (st0_1 t) fullShare ((regionData m 0 c).after 1 t)
            ∗ owns (c : Thread nD τ) (st0_2 t) fullShare ((regionData m 0 c).after 2 t))) := by
  unfold bodyAt0
  -- each input's buffer holds its block; the invariant and the debts do not depend on the point
  simp only [before_in0, before_in1]
  rw [show (regionData m 0 c).Φ t.succ = (regionData m 0 c).Φ t.castSucc from rfl,
    show (regionData m 0 c).owesAt () t.succ = (regionData m 0 c).owesAt () t.castSucc from rfl,
    regionData_after0, regionData_after1, regionData_after2]
  iintro ⟨Hinv, Howe, ⟨%d0, B0⟩, ⟨%d1, B1⟩, ⟨%d2, B2⟩⟩
  iapply (body_triple c Set.univ (grid0.coords t) _ _ _ _ _ _ (blockAt m c 0 t) (blockAt m c 1 t) _)
  isplitl [B0]
  · iexact B0
  isplitl [B1]
  · iexact B1
  isplitl [B2]
  · iexists _; iexact B2
  -- the body has returned: its three buffers, with the invariant and the debts set aside before the call
  iintro ⟨B0, B1, B2⟩
  isplitl [Hinv]
  · iexact Hinv
  isplitl [Howe]
  · iexact Howe
  isplitl [B0]
  · iexact B0
  isplitl [B1]
  · iexact B1
  iexact B2

/-- The library's body obligation for this proof data, at every grid point. -/
theorem body_obligation (c : Dev nD) :
    BodyObligation (regionData (F := F) m 0 c) (defs₀ (F := F)) Variants.none () Set.univ := fun t => by
  rw [bigSep_W0, bigSep_W0]
  exact body_at m c t

end Cert.KernelIdeal.Hand

end
-- ==== Proof.KiRun.lean ====
/-
  The kernel program's run: every weakly fair execution of @main terminates without fault; the arrays the region
  stages end at what the library computes from the region's proof data, every other unscoped buffer at what the
  host operations after the region leave. Read at the result buffer that is the tail's fold from the contents the
  region leaves; read at the argument arrays it is the launch contents.
-/
import proofs.«423469_j7919919693922_3_alg».proof.Proof.KiTail
import proofs.«423469_j7919919693922_3_alg».proof.Proof.KiRegion

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is left: the staged arrays at what the proof data says, every other
    buffer as launched. The tail runs from here. -/
abbrev afterRegion (c : Dev nD) : Valuation τ sig (Elt F) :=
  Pipeline.withArrays spec0 c (entry0 m c) fun w => (regionData m 0 c).arrAt w cfg0.N

theorem run_main : θ_run defs (onTc (τ := τ) (main (F := F))) (s₀ m ρ)
    (Pipeline.FramePost cfgs (regionData m) 0 (Pipeline.afterTail₀ cfgs (regionData m) 0 (entry0 m) tailOps)) :=
  Pipeline.θ_run_frame_around cfgs (regionData m) (0 : Fin 1) launch0 defs₀ Variants.none m ρ main
    (hbody := fun c => (body_obligation m c).loose)
    (hshare := fun c => (regionData m 0 c).share_full fun _ => rfl)
    (howed := fun _ _ => rfl) (V₀ := entry0 m) (opss := tailOps)
    (hsub := tail_sub) (hfresh := tail_fresh) (hkeep := tail_keeps)
    (hmain := main_around m Variants.none) (hA := regionData_A m) (hΦ := fun _ _ => rfl)

/-- The tail reads the rescaled array where the region left it, -/
theorem afterRegion_scaled (c : Dev nD) :
    afterRegion m c (Proc.devRef .tc main_v0) = (regionData m 0 c).arrAt 2 cfg0.N :=
  Pipeline.withArrays_arr spec0 launch0.win.arr_inj c _ _ 2

/-- and the element codes as launched. -/
theorem afterRegion_elems (c : Dev nD) :
    afterRegion m c (Proc.devRef .tc main_arg5) = m ((c.tc : Thread nD τ).loc main_arg5) := by
  rw [afterRegion, Pipeline.withArrays_of_ne _ c _ _ main_arg5 (by decide : ∀ w, Pipeline.arrRef spec0 w ≠ main_arg5)]
  rfl

/-- The run with the result named: the tail's fold at the result buffer, and the arguments unchanged. -/
theorem run_result : θ_run defs (onTc (τ := τ) (main (F := F))) ⟨m, fun _ => 0, ρ⟩ (fun r => ∀ c : Dev nD,
      r.2.mem ((c.tc : Thread nD τ).loc main_v47)
        = StableHlo.after (tailOps (F := F)).flatten (afterRegion m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).2 main_v47 (Pipeline.mem_restRefs_of main_v47 (by decide) (by decide)),
     ((h c).2 main_arg0 (Pipeline.mem_restRefs_of main_arg0 (by decide) (by decide))).trans
       (kept_of m (regionData m) c main_arg0 (by decide) (by decide)),
     ((h c).1 0).trans (((regionData m 0 c).arrAt_in 0 rfl _).trans ((regionData_A m c 0).trans rfl)),
     ((h c).1 1).trans (((regionData m 0 c).arrAt_in 1 rfl _).trans ((regionData_A m c 1).trans rfl)),
     ((h c).2 main_arg3 (Pipeline.mem_restRefs_of main_arg3 (by decide) (by decide))).trans
       (kept_of m (regionData m) c main_arg3 (by decide) (by decide)),
     ((h c).2 main_arg4 (Pipeline.mem_restRefs_of main_arg4 (by decide) (by decide))).trans
       (kept_of m (regionData m) c main_arg4 (by decide) (by decide)),
     ((h c).2 main_arg5 (Pipeline.mem_restRefs_of main_arg5 (by decide) (by decide))).trans
       (kept_of m (regionData m) c main_arg5 (by decide) (by decide)),
     ((h c).2 main_arg6 (Pipeline.mem_restRefs_of main_arg6 (by decide) (by decide))).trans
       (kept_of m (regionData m) c main_arg6 (by decide) (by decide)),
     ((h c).2 main_arg7 (Pipeline.mem_restRefs_of main_arg7 (by decide) (by decide))).trans
       (kept_of m (regionData m) c main_arg7 (by decide) (by decide))⟩) (run_main m ρ)

/-- The frame: it runs, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Hand

end
-- ==== Proof.Spec.lean ====
/-
  The rescaled fingerprint array, entry by entry: row r, column j of the 50000×48 result is
      (fp_0[r, j] − 0) · 1 − 1          for j < 16,
      (fp_1[r, j − 16] − (−1)) · ½ − 1   for 16 ≤ j < 48,
  over the extended reals, each constant the value its binary32 word denotes. This is the function of the two
  argument arrays that the kernel's region writes block by block and that the reference's first 31 operations compute
  (there as (x − lo) / max(hi − lo, 1e-6) · 2 − 1, the same real number for every real x).
-/
import proofs.«423469_j7919919693922_3_alg».proof.KernelIdeal
import Idealize.ShloMosaic.PureOps.Ideal
import Idealize.ShloMosaic.Lib.ValueIdx

noncomputable section

namespace Cert.Spec

open Idealize.ShloMosaic Cert.KernelIdeal

/-- Row `r`, column `j` of an array of 50000 rows. -/
def at16 (r : Fin 50000) (j : Fin 16) : S50000x16.Idx := ValueIdx.ix2 r j
def at32 (r : Fin 50000) (j : Fin 32) : S50000x32.Idx := ValueIdx.ix2 r j

/-- The rescaled array as one function of the two fingerprint arrays. -/
def scaled (x0 : S50000x16.Idx → EReal) (x1 : S50000x32.Idx → EReal) : S50000x48.Idx → EReal := fun i =>
  if h : (i 1).val < 16 then
    (x0 (at16 (i 0) ⟨(i 1).val, h⟩) - Ideal.ofBits .f32 0x00000000#32) * Ideal.ofBits .f32 0x3F800000#32
      - Ideal.ofBits .f32 0x3F800000#32
  else
    (x1 (at32 (i 0) ⟨(i 1).val - 16, by have h48 : (i 1).val < 48 := (i 1).isLt; omega⟩) - Ideal.ofBits .f32 0xBF800000#32)
        * Ideal.ofBits .f32 0x3F000000#32
      - Ideal.ofBits .f32 0x3F800000#32

end Cert.Spec

end
-- ==== Proof.KiValue.lean ====
/-
  What the region leaves in the rescaled array, as one function of the two fingerprint arrays: grid point t writes
  back rows 5000·t … 5000·t+4999, the body's one store being the entrywise rescaling of the two input blocks put side
  by side, so the ten blocks together are `Cert.Spec.scaled` of the arrays as launched.
-/
import proofs.«423469_j7919919693922_3_alg».proof.Proof.KiRegion
import proofs.«423469_j7919919693922_3_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The stored block, entry by entry -/

/-- Both loads and the store of the body address their whole buffers: offsets zero on both axes. -/
theorem zero_offsets : (![0, 0] : Fin 2 → Nat) = fun _ => 0 := funext fun a => by fin_cases a <;> rfl

/-- The stored block at a column below 16: the first input's entry of the same row and column, rescaled. -/
theorem rescaled_left (x0 : Vec Ideal S5000x16 .f32) (x1 : Vec Ideal S5000x32 .f32) (p : Fin 5000) (q : Fin 48) (h : q.val < 16) :
    k0_pay1 x0 x1 (ix2 p q)
      = (x0 (ix2 p (⟨q.val, h⟩ : Fin 16)) - Ideal.ofBits .f32 0x00000000#32) * Ideal.ofBits .f32 0x3F800000#32
          - Ideal.ofBits .f32 0x3F800000#32 := by
  unfold k0_pay1
  refine (concatenate_pair_apply_left (t := S5000x48) (s₁ := S5000x16) (s₂ := S5000x32) (1 : Fin 2) _ _ concatenates_S5000x16_S5000x32_S5000x48_d1 (ix2 p q) rfl (ix2 p (⟨q.val, h⟩ : Fin 16)) ?_).trans ?_
  · intro b
    match b with
    | ⟨0, _⟩ => rfl
    | ⟨1, _⟩ => rfl
  · rfl

/-- The stored block at a column from 16 on: the second input's entry of the same row, 16 columns to the left, rescaled. -/
theorem rescaled_right (x0 : Vec Ideal S5000x16 .f32) (x1 : Vec Ideal S5000x32 .f32) (p : Fin 5000) (q : Fin 48) (h : ¬ q.val < 16) :
    k0_pay1 x0 x1 (ix2 p q)
      = (x1 (ix2 p (⟨q.val - 16, by have := q.isLt; omega⟩ : Fin 32)) - Ideal.ofBits .f32 0xBF800000#32) * Ideal.ofBits .f32 0x3F000000#32
          - Ideal.ofBits .f32 0x3F800000#32 := by
  unfold k0_pay1
  refine (concatenate_pair_apply_right (t := S5000x48) (s₁ := S5000x16) (s₂ := S5000x32) (1 : Fin 2) _ _ concatenates_S5000x16_S5000x32_S5000x48_d1 (ix2 p q) rfl rfl (ix2 p (⟨q.val - 16, by have := q.isLt; omega⟩ : Fin 32)) ?_ ?_).trans ?_
  · intro b hb
    match b with
    | ⟨0, _⟩ => rfl
    | ⟨1, _⟩ => exact absurd rfl hb
  · show q.val - 16 + 16 = q.val
    omega
  · rfl

/-- Side by side: if the two input blocks are rows n … n+4999 of two arrays, then entry (p, q) of the stored block is
    entry (n + p, q) of the arrays' rescaling. -/
theorem rescaled_rows (x0 : Vec Ideal S5000x16 .f32) (x1 : Vec Ideal S5000x32 .f32)
    (a0 : S50000x16.Idx → EReal) (a1 : S50000x32.Idx → EReal) (n : Nat)
    (h0 : ∀ (y : S5000x16.Idx) (k : S50000x16.Idx), (k 0).val = n + (y 0).val → (k 1).val = (y 1).val → x0 y = a0 k)
    (h1 : ∀ (y : S5000x32.Idx) (k : S50000x32.Idx), (k 0).val = n + (y 0).val → (k 1).val = (y 1).val → x1 y = a1 k)
    (y : S5000x48.Idx) (i : S50000x48.Idx) (hrow : (i 0).val = n + (y 0).val) (hcol : (i 1).val = (y 1).val) :
    k0_pay1 x0 x1 y = Cert.Spec.scaled a0 a1 i := by
  obtain ⟨p, q, rfl⟩ : ∃ (p : Fin 5000) (q : Fin 48), y = ix2 p q := ⟨y 0, y 1, eq_ix2 y⟩
  have hcol' : (i 1).val = q.val := hcol
  have h48 : (i 1).val < 48 := (i 1).isLt
  unfold Cert.Spec.scaled
  by_cases h : q.val < 16
  · have h' : (i 1).val < 16 := by omega
    rw [rescaled_left x0 x1 p q h, dif_pos h']
    rw [h0 (ix2 p (⟨q.val, h⟩ : Fin 16)) (Cert.Spec.at16 (i 0) ⟨(i 1).val, h'⟩) hrow hcol]
  · have h' : ¬ (i 1).val < 16 := by omega
    rw [rescaled_right x0 x1 p q h, dif_neg h']
    rw [h1 (ix2 p (⟨q.val - 16, by omega⟩ : Fin 32)) (Cert.Spec.at32 (i 0) ⟨(i 1).val - 16, by omega⟩) hrow (by
      show (i 1).val - 16 = q.val - 16
      rw [hcol'])]

/-! ## Each block as rows of its array -/

/-- The three index maps over the ten grid points: point t addresses block row t, block column 0, of each array. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- fp_0's block at point t, entry (p, q), is the array's entry (5000·t + p, q): nothing runs before the region, so
    the region finds the array as launched. -/
theorem block0_apply (m : (ℓ : Loc nD τ sig) → Buf (Elt Ideal) ℓ) (c : Dev nD) (t : Fin cfg0.N) (y : S5000x16.Idx) (k : S50000x16.Idx)
    (hk0 : (k 0).val = 5000 * t.val + (y 0).val) (hk1 : (k 1).val = (y 1).val) :
    (blockAt m c 0 t : Vec Ideal S5000x16 .f32) y = (m ((c.tc : Thread nD τ).loc main_arg1) : S50000x16.Idx → EReal) k := by
  obtain ⟨e0, e1, -⟩ := block_index t
  unfold blockAt
  rw [View.read_apply]
  show m ((c.tc : Thread nD τ).loc main_arg1) _ = m ((c.tc : Thread nD τ).loc main_arg1) _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 16 + 1 * (y 1).val = (k 1).val; rw [e1, hk1]; omega

/-- The same of fp_1. -/
theorem block1_apply (m : (ℓ : Loc nD τ sig) → Buf (Elt Ideal) ℓ) (c : Dev nD) (t : Fin cfg0.N) (y : S5000x32.Idx) (k : S50000x32.Idx)
    (hk0 : (k 0).val = 5000 * t.val + (y 0).val) (hk1 : (k 1).val = (y 1).val) :
    (blockAt m c 1 t : Vec Ideal S5000x32 .f32) y = (m ((c.tc : Thread nD τ).loc main_arg2) : S50000x32.Idx → EReal) k := by
  obtain ⟨-, -, e0, e1, -⟩ := block_index t
  unfold blockAt
  rw [View.read_apply]
  show m ((c.tc : Thread nD τ).loc main_arg2) _ = m ((c.tc : Thread nD τ).loc main_arg2) _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 32 + 1 * (y 1).val = (k 1).val; rw [e1, hk1]; omega

/-- Entry (p, q) of the block that point t stores is entry (5000·t + p, q) of the rescaled array. -/
theorem stored_entry (m : (ℓ : Loc nD τ sig) → Buf (Elt Ideal) ℓ) (c : Dev nD) (t : Fin cfg0.N) (y : S5000x48.Idx) :
    k0_pay1 (blockAt m c 0 t) (blockAt m c 1 t) y
      = Cert.Spec.scaled (m ((c.tc : Thread nD τ).loc main_arg1)) (m ((c.tc : Thread nD τ).loc main_arg2))
          (((cfg0.win 2).blk t).view.emb y) := by
  obtain ⟨-, -, -, -, e0, e1⟩ := block_index t
  refine rescaled_rows _ _ _ _ (5000 * t.val) (block0_apply m c t) (block1_apply m c t) y _ ?_ ?_
  · show win0_2.index t (0 : Fin 2) * 5000 + 1 * (y 0).val = _
    rw [e0]; omega
  · show win0_2.index t (1 : Fin 2) * 48 + 1 * (y 1).val = _
    rw [e1]; omega

/-- What point t writes back is block t of the rescaled array. -/
theorem flushed_eq (m : (ℓ : Loc nD τ sig) → Buf (Elt Ideal) ℓ) (c : Dev nD) (t : Fin cfg0.N) :
    (regionData (F := Ideal) m 0 c).flushed 2 t
      = ((cfg0.win 2).blk t).view.read (Elt Ideal)
          (Cert.Spec.scaled (m ((c.tc : Thread nD τ).loc main_arg1)) (m ((c.tc : Thread nD τ).loc main_arg2))) := by
  show (cfg0.win 2).cut (grid0.coords t) ((regionData m 0 c).after 2 t) = _
  rw [regionData_after2]
  unfold scaledBlock
  rw [View.canon_unit_zero zero_offsets]
  simp only [View.ld_unit_zero (S := S5000x16) zero_offsets, View.ld_unit_zero (S := S5000x32) zero_offsets]
  funext y
  exact stored_entry m c t y

/-! ## The ten blocks cover the array -/

/-- An entry of the array lies in point t's block iff on each axis its coordinate is in the block's range. -/
theorem mem_block (t : Fin cfg0.N) (i : S50000x48.Idx) :
    i ∈ ((cfg0.win 2).blk t).view.set
      ↔ ∀ a : Fin 2, win0_2.index t a * S5000x48.size a ≤ (i a).val
          ∧ (i a).val < win0_2.index t a * S5000x48.size a + S5000x48.size a := by
  show i ∈ ((View.whole main_v0).slice (win0_2.rect t)).set ↔ _
  rw [View.set_slice_whole, Rect.mem_set_unit]
  exact Iff.rfl

/-- The ten blocks of 5000 rows cover the 50000 rows: row r lies in the block of point r / 5000. -/
theorem rows_covered (i : S50000x48.Idx) :
    ∃ t : Fin cfg0.N, (cfg0.win 2).flush t = true ∧ i ∈ ((cfg0.win 2).blk t).view.set := by
  have hr : (i 0).val < 50000 := (i 0).isLt
  have hc : (i 1).val < 48 := (i 1).isLt
  have hN : cfg0.N = 10 := by decide
  obtain ⟨t, ht⟩ : ∃ t : Fin cfg0.N, t.val = (i 0).val / 5000 := ⟨⟨(i 0).val / 5000, by rw [hN]; omega⟩, rfl⟩
  obtain ⟨-, -, -, -, e0, e1⟩ := block_index t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 48 ≤ (i 1).val ∧ (i 1).val < win0_2.index t (1 : Fin 2) * 48 + 48
    rw [e1]; omega

/-- After the region the rescaled array is `Cert.Spec.scaled` of the launch contents of fp_0 and fp_1. -/
theorem region_value (m : (ℓ : Loc nD τ sig) → Buf (Elt Ideal) ℓ) (c : Dev nD) :
    (regionData (F := Ideal) m 0 c).arrAt 2 cfg0.N
      = Cert.Spec.scaled (m ((c.tc : Thread nD τ).loc main_arg1)) (m ((c.tc : Thread nD τ).loc main_arg2)) :=
  (regionData (F := Ideal) m 0 c).arrAt_eq_of_cover 2
    (Cert.Spec.scaled (m ((c.tc : Thread nD τ).loc main_arg1)) (m ((c.tc : Thread nD τ).loc main_arg2)))
    (fun t _ => flushed_eq m c t) rows_covered

end Cert.KernelIdeal.Hand

end
-- ==== Proof.RefOps.lean ====
/- The reference program as a list of host operations: first the 31 that rescale fp_0 and fp_1 entrywise and put them
   side by side (the 50000×48 array of fingerprints), then the 151 that scan the element codes twice (elements 1 and 8),
   gather the rows of that array the scans name and stack the two gathers: 21 stretches, one per call of an outlined
   function or per run of statements of @main itself. -/
import proofs.«423469_j7919919693922_3_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The rescaling of the two fingerprint arrays and their concatenation: 31 operations, the last writes main_v20. -/
abbrev headOps : List (HloOp τ sig (Elt F)) :=
  [ StableHlo.nullary main_cst (constant S_ .f32 0x00000000#32),
    StableHlo.unary main_cst main_v0 (broadcastInDim S50000x16 ![] bcast_S_S50000x16 : (⟨S_, .f32⟩ : BufTy).Contents (Elt F) → (⟨S50000x16, .f32⟩ : BufTy).Contents (Elt F)),
    StableHlo.binary main_arg1 main_v0 main_v1 (subf : (⟨S50000x16, .f32⟩ : BufTy).Contents (Elt F) → (⟨S50000x16, .f32⟩ : BufTy).Contents (Elt F) → (⟨S50000x16, .f32⟩ : BufTy).Contents (Elt F)),
    StableHlo.nullary main_cst_0 (constant S_ .f32 0x40000000#32),
    StableHlo.nullary main_cst_1 (constant S_ .f32 0x358637BD#32),
    StableHlo.binary main_cst_0 main_cst_1 main_v2 (maximumf : (⟨S_, .f32⟩ : BufTy).Contents (Elt F) → (⟨S_, .f32⟩ : BufTy).Contents (Elt F) → (⟨S_, .f32⟩ : BufTy).Contents (Elt F)),
    StableHlo.unary main_v2 main_v3 (id : (⟨S_, .f32⟩ : BufTy).Contents (Elt F) → (⟨S_, .f32⟩ : BufTy).Contents (Elt F)),
    StableHlo.unary main_v3 main_v4 (broadcastInDim S50000x16 ![] bcast_S_S50000x16 : (⟨S_, .f32⟩ : BufTy).Contents (Elt F) → (⟨S50000x16, .f32⟩ : BufTy).Contents (Elt F)),
    StableHlo.binary main_v1 main_v4 main_v5 (Host.divf : (⟨S50000x16, .f32⟩ : BufTy).Contents (Elt F) → (⟨S50000x16, .f32⟩ : BufTy).Contents (Elt F) → (⟨S50000x16, .f32⟩ : BufTy).Contents (Elt F)),
    StableHlo.nullary main_cst_2 (constant S_ .f32 0x40000000#32),
    StableHlo.unary main_cst_2 main_v6 (broadcastInDim S50000x16 ![] bcast_S_S50000x16 : (⟨S_, .f32⟩ : BufTy).Contents (Elt F) → (⟨S50000x16, .f32⟩ : BufTy).Contents (Elt F)),
    StableHlo.binary main_v5 main_v6 main_v7 (mulf : (⟨S50000x16, .f32⟩ : BufTy).Contents (Elt F) → (⟨S50000x16, .f32⟩ : BufTy).Contents (Elt F) → (⟨S50000x16, .f32⟩ : BufTy).Contents (Elt F)),
    StableHlo.nullary main_cst_3 (constant S_ .f32 0x3F800000#32),
    StableHlo.unary main_cst_3 main_v8 (broadcastInDim S50000x16 ![] bcast_S_S50000x16 : (⟨S_, .f32⟩ : BufTy).Contents (Elt F) → (⟨S50000x16, .f32⟩ : BufTy).Contents (Elt F)),
    StableHlo.binary main_v7 main_v8 main_v9 (subf : (⟨S50000x16, .f32⟩ : BufTy).Contents (Elt F) → (⟨S50000x16, .f32⟩ : BufTy).Contents (Elt F) → (⟨S50000x16, .f32⟩ : BufTy).Contents (Elt F)),
    StableHlo.nullary main_cst_4 (constant S_ .f32 0xBF800000#32),
    StableHlo.unary main_cst_4 main_v10 (broadcastInDim S50000x32 ![] bcast_S_S50000x32 : (⟨S_, .f32⟩ : BufTy).Contents (Elt F) → (⟨S50000x32, .f32⟩ : BufTy).Contents (Elt F)),
    StableHlo.binary main_arg2 main_v10 main_v11 (subf : (⟨S50000x32, .f32⟩ : BufTy).Contents (Elt F) → (⟨S50000x32, .f32⟩ : BufTy).Contents (Elt F) → (⟨S50000x32, .f32⟩ : BufTy).Contents (Elt F)),
    StableHlo.nullary main_cst_5 (constant S_ .f32 0x40800000#32),
    StableHlo.nullary main_cst_6 (constant S_ .f32 0x358637BD#32),
    StableHlo.binary main_cst_5 main_cst_6 main_v12 (maximumf : (⟨S_, .f32⟩ : BufTy).Contents (Elt F) → (⟨S_, .f32⟩ : BufTy).Contents (Elt F) → (⟨S_, .f32⟩ : BufTy).Contents (Elt F)),
    StableHlo.unary main_v12 main_v13 (id : (⟨S_, .f32⟩ : BufTy).Contents (Elt F) → (⟨S_, .f32⟩ : BufTy).Contents (Elt F)),
    StableHlo.unary main_v13 main_v14 (broadcastInDim S50000x32 ![] bcast_S_S50000x32 : (⟨S_, .f32⟩ : BufTy).Contents (Elt F) → (⟨S50000x32, .f32⟩ : BufTy).Contents (Elt F)),
    StableHlo.binary main_v11 main_v14 main_v15 (Host.divf : (⟨S50000x32, .f32⟩ : BufTy).Contents (Elt F) → (⟨S50000x32, .f32⟩ : BufTy).Contents (Elt F) → (⟨S50000x32, .f32⟩ : BufTy).Contents (Elt F)),
    StableHlo.nullary main_cst_7 (constant S_ .f32 0x40000000#32),
    StableHlo.unary main_cst_7 main_v16 (broadcastInDim S50000x32 ![] bcast_S_S50000x32 : (⟨S_, .f32⟩ : BufTy).Contents (Elt F) → (⟨S50000x32, .f32⟩ : BufTy).Contents (Elt F)),
    StableHlo.binary main_v15 main_v16 main_v17 (mulf : (⟨S50000x32, .f32⟩ : BufTy).Contents (Elt F) → (⟨S50000x32, .f32⟩ : BufTy).Contents (Elt F) → (⟨S50000x32, .f32⟩ : BufTy).Contents (Elt F)),
    StableHlo.nullary main_cst_8 (constant S_ .f32 0x3F800000#32),
    StableHlo.unary main_cst_8 main_v18 (broadcastInDim S50000x32 ![] bcast_S_S50000x32 : (⟨S_, .f32⟩ : BufTy).Contents (Elt F) → (⟨S50000x32, .f32⟩ : BufTy).Contents (Elt F)),
    StableHlo.binary main_v17 main_v18 main_v19 (subf : (⟨S50000x32, .f32⟩ : BufTy).Contents (Elt F) → (⟨S50000x32, .f32⟩ : BufTy).Contents (Elt F) → (⟨S50000x32, .f32⟩ : BufTy).Contents (Elt F)),
    StableHlo.binary main_v9 main_v19 main_v20 ((fun a b => concatenate S50000x48 1 [⟨S50000x16, a⟩, ⟨S50000x32, b⟩] concatenates_S50000x16_S50000x32_S50000x48_d1) : (⟨S50000x16, .f32⟩ : BufTy).Contents (Elt F) → (⟨S50000x32, .f32⟩ : BufTy).Contents (Elt F) → (⟨S50000x48, .f32⟩ : BufTy).Contents (Elt F)) ]
theorem headOps_sub : (headOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- Stretch 0 of the 21 after the concatenation (3 operations). -/
abbrev tail0 : List (HloOp τ sig (Elt F)) :=
  [ StableHlo.nullary main_c (constantI S_ 32 1#32),
    StableHlo.unary main_c main_v21 (broadcastInDim S50000 ![] bcast_S_S50000 : (⟨S_, .i32⟩ : BufTy).Contents (Elt F) → (⟨S50000, .i32⟩ : BufTy).Contents (Elt F)),
    StableHlo.binary main_arg5 main_v21 main_v22 (cmpi .eq : (⟨S50000, .i32⟩ : BufTy).Contents (Elt F) → (⟨S50000, .i32⟩ : BufTy).Contents (Elt F) → (⟨S50000, .i1⟩ : BufTy).Contents (Elt F)) ]
theorem tail0_sub : (tail0 : List (HloOp τ sig (Elt F))).Forall fun op => op.bufs ⊆ StableHlo.tcRefs τ sig :=
  ⟨StableHlo.nullary_bufs_sub .., StableHlo.unary_bufs_sub .., StableHlo.binary_bufs_sub ..⟩

/-- Stretch 1 of the 21 after the concatenation (4 operations). -/
abbrev tail1 : List (HloOp τ sig (Elt F)) :=
  [ StableHlo.TRef.unary (.of main_v22 : StableHlo.TRef sig ⟨S50000, .i1⟩) (.of main_call0_v0 : StableHlo.TRef sig ⟨S50000, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v0 : StableHlo.TRef sig ⟨S50000, .i32⟩) (.of main_call0_call0_v0 : StableHlo.TRef sig ⟨S_, .i32⟩) (.of main_v23 : StableHlo.TRef sig ⟨S50000, .i32⟩) (fun x v => Host.reduceWindow IntOp.addi ![50000] ![1] ![49999] ![0] x v reduceWindows_S50000_S50000_w50000s1p49999_0 h_S_) ]
theorem tail1_sub : (tail1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩

/-- Stretch 2 of the 21 after the concatenation (3 operations). -/
abbrev tail2 : List (HloOp τ sig (Elt F)) :=
  [ StableHlo.nullary main_c_9 (constantI S_ 32 0#32),
    StableHlo.unary main_c_9 main_v24 (broadcastInDim S25000 ![] bcast_S_S25000 : (⟨S_, .i32⟩ : BufTy).Contents (Elt F) → (⟨S25000, .i32⟩ : BufTy).Contents (Elt F)),
    StableHlo.nullary main_c_10 (constantI S_ 32 0#32) ]
theorem tail2_sub : (tail2 : List (HloOp τ sig (Elt F))).Forall fun op => op.bufs ⊆ StableHlo.tcRefs τ sig :=
  ⟨StableHlo.nullary_bufs_sub .., StableHlo.unary_bufs_sub .., StableHlo.nullary_bufs_sub ..⟩

/-- Stretch 3 of the 21 after the concatenation (3 operations). -/
abbrev tail3 : List (HloOp τ sig (Elt F)) :=
  [ StableHlo.TRef.unary (.of main_c_10 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S50000, .i32⟩) (broadcastInDim S50000 ![] bcast_S_S50000),
    StableHlo.TRef.binary (.of main_call1_v1 : StableHlo.TRef sig ⟨S50000, .i32⟩) (.of main_v23 : StableHlo.TRef sig ⟨S50000, .i32⟩) (.of main_v25 : StableHlo.TRef sig ⟨S50000, .i32⟩) maxsi ]
theorem tail3_sub : (tail3 : List (HloOp τ sig (Elt F))).Forall fun op => op.bufs ⊆ StableHlo.tcRefs τ sig :=
  ⟨StableHlo.unary_bufs_sub .., StableHlo.unary_bufs_sub .., StableHlo.binary_bufs_sub ..⟩

/-- Stretch 4 of the 21 after the concatenation (11 operations). -/
abbrev tail4 : List (HloOp τ sig (Elt F)) :=
  [ StableHlo.nullary main_c_11 (constantI S_ 32 0#32),
    StableHlo.unary main_c_11 main_v26 (broadcastInDim S50000 ![] bcast_S_S50000 : (⟨S_, .i32⟩ : BufTy).Contents (Elt F) → (⟨S50000, .i32⟩ : BufTy).Contents (Elt F)),
    StableHlo.binary main_v25 main_v26 main_v27 (cmpi .slt : (⟨S50000, .i32⟩ : BufTy).Contents (Elt F) → (⟨S50000, .i32⟩ : BufTy).Contents (Elt F) → (⟨S50000, .i1⟩ : BufTy).Contents (Elt F)),
    StableHlo.nullary main_c_12 (constantI S_ 32 25000#32),
    StableHlo.unary main_c_12 main_v28 (broadcastInDim S50000 ![] bcast_S_S50000 : (⟨S_, .i32⟩ : BufTy).Contents (Elt F) → (⟨S50000, .i32⟩ : BufTy).Contents (Elt F)),
    StableHlo.binary main_v25 main_v28 main_v29 (addi : (⟨S50000, .i32⟩ : BufTy).Contents (Elt F) → (⟨S50000, .i32⟩ : BufTy).Contents (Elt F) → (⟨S50000, .i32⟩ : BufTy).Contents (Elt F)),
    StableHlo.ternary main_v27 main_v29 main_v25 main_v30 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v30 main_v31 (broadcastInDim S50000x1 ![0] bcast_S50000_S50000x1_0 : (⟨S50000, .i32⟩ : BufTy).Contents (Elt F) → (⟨S50000x1, .i32⟩ : BufTy).Contents (Elt F)),
    StableHlo.nullary main_c_13 (constantI S_ 32 1#32),
    StableHlo.unary main_c_13 main_v32 (broadcastInDim S50000 ![] bcast_S_S50000 : (⟨S_, .i32⟩ : BufTy).Contents (Elt F) → (⟨S50000, .i32⟩ : BufTy).Contents (Elt F)),
    StableHlo.ternary main_v24 main_v31 main_v32 main_v33 ((fun x i u => Host.scatter scatter_S25000_S50000x1_S50000_n_0_0_1 IntOp.addi x i u) : (⟨S25000, .i32⟩ : BufTy).Contents (Elt F) → (⟨S50000x1, .i32⟩ : BufTy).Contents (Elt F) → (⟨S50000, .i32⟩ : BufTy).Contents (Elt F) → (⟨S25000, .i32⟩ : BufTy).Contents (Elt F)) ]
theorem tail4_sub : (tail4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- Stretch 5 of the 21 after the concatenation (3 operations). -/
abbrev tail5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v33 : StableHlo.TRef sig ⟨S25000, .i32⟩) (.of main_call2_call0_v0 : StableHlo.TRef sig ⟨S_, .i32⟩) (.of main_v34 : StableHlo.TRef sig ⟨S25000, .i32⟩) (fun x v => Host.reduceWindow IntOp.addi ![25000] ![1] ![24999] ![0] x v reduceWindows_S25000_S25000_w25000s1p24999_0 h_S_) ]
theorem tail5_sub : (tail5 : List (HloOp τ sig (Elt F))).Forall fun op => op.bufs ⊆ StableHlo.tcRefs τ sig :=
  ⟨StableHlo.nullary_bufs_sub .., StableHlo.unary_bufs_sub .., StableHlo.binary_bufs_sub ..⟩

/-- Stretch 6 of the 21 after the concatenation (1 operations). -/
abbrev tail6 : List (HloOp τ sig (Elt F)) :=
  [ StableHlo.nullary main_c_14 (constantI S_ 32 1#32) ]
theorem tail6_sub : (tail6 : List (HloOp τ sig (Elt F))).Forall fun op => op.bufs ⊆ StableHlo.tcRefs τ sig :=
  StableHlo.nullary_bufs_sub ..

/-- Stretch 7 of the 21 after the concatenation (16 operations). -/
abbrev tail7 : List (HloOp τ sig (Elt F)) :=
  [ StableHlo.TRef.unary (.of main_c_14 : StableHlo.TRef sig ⟨S_, .i32⟩) (.of main_call3_v0 : StableHlo.TRef sig ⟨S25000, .i32⟩) (broadcastInDim S25000 ![] bcast_S_S25000),
    StableHlo.TRef.binary (.of main_v34 : StableHlo.TRef sig ⟨S25000, .i32⟩) (.of main_call3_v0 : StableHlo.TRef sig ⟨S25000, .i32⟩) (.of main_call3_v1 : StableHlo.TRef sig ⟨S25000, .i32⟩) Host.divsi,
    StableHlo.TRef.unary (.of main_v34 : StableHlo.TRef sig ⟨S25000, .i32⟩) (.of main_call3_v2 : StableHlo.TRef sig ⟨S25000, .i32⟩) signi,
    StableHlo.TRef.unary (.of main_c_14 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S25000, .i32⟩) (broadcastInDim S25000 ![] bcast_S_S25000),
    StableHlo.TRef.binary (.of main_call3_v2 : StableHlo.TRef sig ⟨S25000, .i32⟩) (.of main_call3_v4 : StableHlo.TRef sig ⟨S25000, .i32⟩) (.of main_call3_v5 : StableHlo.TRef sig ⟨S25000, .i1⟩) (cmpi .ne),
    StableHlo.TRef.unary (.of main_c_14 : StableHlo.TRef sig ⟨S_, .i32⟩) (.of main_call3_v6 : StableHlo.TRef sig ⟨S25000, .i32⟩) (broadcastInDim S25000 ![] bcast_S_S25000),
    StableHlo.TRef.binary (.of main_v34 : StableHlo.TRef sig ⟨S25000, .i32⟩) (.of main_call3_v6 : StableHlo.TRef sig ⟨S25000, .i32⟩) (.of main_call3_v7 : StableHlo.TRef sig ⟨S25000, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S25000, .i32⟩) (broadcastInDim S25000 ![] bcast_S_S25000),
    StableHlo.TRef.binary (.of main_call3_v7 : StableHlo.TRef sig ⟨S25000, .i32⟩) (.of main_call3_v8 : StableHlo.TRef sig ⟨S25000, .i32⟩) (.of main_call3_v9 : StableHlo.TRef sig ⟨S25000, .i1⟩) (cmpi .ne),
    StableHlo.TRef.binary (.of main_call3_v5 : StableHlo.TRef sig ⟨S25000, .i1⟩) (.of main_call3_v9 : StableHlo.TRef sig ⟨S25000, .i1⟩) (.of main_call3_v10 : StableHlo.TRef sig ⟨S25000, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S25000, .i32⟩) (broadcastInDim S25000 ![] bcast_S_S25000),
    StableHlo.TRef.binary (.of main_call3_v1 : StableHlo.TRef sig ⟨S25000, .i32⟩) (.of main_call3_v11 : StableHlo.TRef sig ⟨S25000, .i32⟩) (.of main_call3_v12 : StableHlo.TRef sig ⟨S25000, .i32⟩) subi,
    StableHlo.TRef.ternary (.of main_call3_v10 : StableHlo.TRef sig ⟨S25000, .i1⟩) (.of main_call3_v12 : StableHlo.TRef sig ⟨S25000, .i32⟩) (.of main_call3_v1 : StableHlo.TRef sig ⟨S25000, .i32⟩) (.of main_v35 : StableHlo.TRef sig ⟨S25000, .i32⟩) select ]
theorem tail7_sub : (tail7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Stretch 8 of the 21 after the concatenation (1 operations). -/
abbrev tail8 : List (HloOp τ sig (Elt F)) :=
  [ StableHlo.nullary main_c_15 (constantI S_ 32 50000#32) ]
theorem tail8_sub : (tail8 : List (HloOp τ sig (Elt F))).Forall fun op => op.bufs ⊆ StableHlo.tcRefs τ sig :=
  StableHlo.nullary_bufs_sub ..

/-- Stretch 9 of the 21 after the concatenation (21 operations). -/
abbrev tail9 : List (HloOp τ sig (Elt F)) :=
  [ StableHlo.TRef.unary (.of main_c_15 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S25000, .i32⟩) (broadcastInDim S25000 ![] bcast_S_S25000),
    StableHlo.TRef.binary (.of main_v35 : StableHlo.TRef sig ⟨S25000, .i32⟩) (.of main_call4_v3 : StableHlo.TRef sig ⟨S25000, .i32⟩) (.of main_call4_v4 : StableHlo.TRef sig ⟨S25000, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S25000, .i32⟩) (broadcastInDim S25000 ![] bcast_S_S25000),
    StableHlo.TRef.binary (.of main_call4_v4 : StableHlo.TRef sig ⟨S25000, .i32⟩) (.of main_call4_v5 : StableHlo.TRef sig ⟨S25000, .i32⟩) (.of main_call4_v6 : StableHlo.TRef sig ⟨S25000, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S25000, .i32⟩) (broadcastInDim S25000 ![] bcast_S_S25000),
    StableHlo.TRef.binary (.of main_call4_v4 : StableHlo.TRef sig ⟨S25000, .i32⟩) (.of main_call4_v7 : StableHlo.TRef sig ⟨S25000, .i32⟩) (.of main_call4_v8 : StableHlo.TRef sig ⟨S25000, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S25000, .i1⟩) (broadcastInDim S25000 ![] bcast_S_S25000),
    StableHlo.TRef.binary (.of main_call4_v8 : StableHlo.TRef sig ⟨S25000, .i1⟩) (.of main_call4_v10 : StableHlo.TRef sig ⟨S25000, .i1⟩) (.of main_call4_v11 : StableHlo.TRef sig ⟨S25000, .i1⟩) (cmpi .ne),
    StableHlo.TRef.binary (.of main_call4_v11 : StableHlo.TRef sig ⟨S25000, .i1⟩) (.of main_call4_v6 : StableHlo.TRef sig ⟨S25000, .i1⟩) (.of main_call4_v12 : StableHlo.TRef sig ⟨S25000, .i1⟩) andi,
    StableHlo.TRef.unary main_call4_call0.v0 (.of main_call4_v13 : StableHlo.TRef sig ⟨S25000, .i32⟩) (broadcastInDim S25000 ![] bcast_S_S25000),
    StableHlo.TRef.binary (.of main_call4_v4 : StableHlo.TRef sig ⟨S25000, .i32⟩) (.of main_call4_v13 : StableHlo.TRef sig ⟨S25000, .i32⟩) (.of main_call4_v14 : StableHlo.TRef sig ⟨S25000, .i32⟩) addi,
    StableHlo.TRef.ternary (.of main_call4_v12 : StableHlo.TRef sig ⟨S25000, .i1⟩) (.of main_call4_v14 : StableHlo.TRef sig ⟨S25000, .i32⟩) (.of main_call4_v4 : StableHlo.TRef sig ⟨S25000, .i32⟩) (.of main_v36 : StableHlo.TRef sig ⟨S25000, .i32⟩) select ]
theorem tail9_sub : (tail9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 10 of the 21 after the concatenation (3 operations). -/
abbrev tail10 : List (HloOp τ sig (Elt F)) :=
  [ StableHlo.nullary main_c_16 (constantI S_ 32 8#32),
    StableHlo.unary main_c_16 main_v37 (broadcastInDim S50000 ![] bcast_S_S50000 : (⟨S_, .i32⟩ : BufTy).Contents (Elt F) → (⟨S50000, .i32⟩ : BufTy).Contents (Elt F)),
    StableHlo.binary main_arg5 main_v37 main_v38 (cmpi .eq : (⟨S50000, .i32⟩ : BufTy).Contents (Elt F) → (⟨S50000, .i32⟩ : BufTy).Contents (Elt F) → (⟨S50000, .i1⟩ : BufTy).Contents (Elt F)) ]
theorem tail10_sub : (tail10 : List (HloOp τ sig (Elt F))).Forall fun op => op.bufs ⊆ StableHlo.tcRefs τ sig :=
  ⟨StableHlo.nullary_bufs_sub .., StableHlo.unary_bufs_sub .., StableHlo.binary_bufs_sub ..⟩

/-- Stretch 11 of the 21 after the concatenation (4 operations). -/
abbrev tail11 : List (HloOp τ sig (Elt F)) :=
  [ StableHlo.TRef.unary (.of main_v38 : StableHlo.TRef sig ⟨S50000, .i1⟩) (.of main_call5_v0 : StableHlo.TRef sig ⟨S50000, .i32⟩) (extui 32 · natLt_1_32),
    StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_call5_v0 : StableHlo.TRef sig ⟨S50000, .i32⟩) (.of main_call5_call0_v0 : StableHlo.TRef sig ⟨S_, .i32⟩) (.of main_v39 : StableHlo.TRef sig ⟨S50000, .i32⟩) (fun x v => Host.reduceWindow IntOp.addi ![50000] ![1] ![49999] ![0] x v reduceWindows_S50000_S50000_w50000s1p49999_0 h_S_) ]
theorem tail11_sub : (tail11 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩

/-- Stretch 12 of the 21 after the concatenation (3 operations). -/
abbrev tail12 : List (HloOp τ sig (Elt F)) :=
  [ StableHlo.nullary main_c_17 (constantI S_ 32 0#32),
    StableHlo.unary main_c_17 main_v40 (broadcastInDim S25000 ![] bcast_S_S25000 : (⟨S_, .i32⟩ : BufTy).Contents (Elt F) → (⟨S25000, .i32⟩ : BufTy).Contents (Elt F)),
    StableHlo.nullary main_c_18 (constantI S_ 32 0#32) ]
theorem tail12_sub : (tail12 : List (HloOp τ sig (Elt F))).Forall fun op => op.bufs ⊆ StableHlo.tcRefs τ sig :=
  ⟨StableHlo.nullary_bufs_sub .., StableHlo.unary_bufs_sub .., StableHlo.nullary_bufs_sub ..⟩

/-- Stretch 13 of the 21 after the concatenation (3 operations). -/
abbrev tail13 : List (HloOp τ sig (Elt F)) :=
  [ StableHlo.TRef.unary (.of main_c_18 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S50000, .i32⟩) (broadcastInDim S50000 ![] bcast_S_S50000),
    StableHlo.TRef.binary (.of main_call6_v1 : StableHlo.TRef sig ⟨S50000, .i32⟩) (.of main_v39 : StableHlo.TRef sig ⟨S50000, .i32⟩) (.of main_v41 : StableHlo.TRef sig ⟨S50000, .i32⟩) maxsi ]
theorem tail13_sub : (tail13 : List (HloOp τ sig (Elt F))).Forall fun op => op.bufs ⊆ StableHlo.tcRefs τ sig :=
  ⟨StableHlo.unary_bufs_sub .., StableHlo.unary_bufs_sub .., StableHlo.binary_bufs_sub ..⟩

/-- Stretch 14 of the 21 after the concatenation (11 operations). -/
abbrev tail14 : List (HloOp τ sig (Elt F)) :=
  [ StableHlo.nullary main_c_19 (constantI S_ 32 0#32),
    StableHlo.unary main_c_19 main_v42 (broadcastInDim S50000 ![] bcast_S_S50000 : (⟨S_, .i32⟩ : BufTy).Contents (Elt F) → (⟨S50000, .i32⟩ : BufTy).Contents (Elt F)),
    StableHlo.binary main_v41 main_v42 main_v43 (cmpi .slt : (⟨S50000, .i32⟩ : BufTy).Contents (Elt F) → (⟨S50000, .i32⟩ : BufTy).Contents (Elt F) → (⟨S50000, .i1⟩ : BufTy).Contents (Elt F)),
    StableHlo.nullary main_c_20 (constantI S_ 32 25000#32),
    StableHlo.unary main_c_20 main_v44 (broadcastInDim S50000 ![] bcast_S_S50000 : (⟨S_, .i32⟩ : BufTy).Contents (Elt F) → (⟨S50000, .i32⟩ : BufTy).Contents (Elt F)),
    StableHlo.binary main_v41 main_v44 main_v45 (addi : (⟨S50000, .i32⟩ : BufTy).Contents (Elt F) → (⟨S50000, .i32⟩ : BufTy).Contents (Elt F) → (⟨S50000, .i32⟩ : BufTy).Contents (Elt F)),
    StableHlo.ternary main_v43 main_v45 main_v41 main_v46 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v46 main_v47 (broadcastInDim S50000x1 ![0] bcast_S50000_S50000x1_0 : (⟨S50000, .i32⟩ : BufTy).Contents (Elt F) → (⟨S50000x1, .i32⟩ : BufTy).Contents (Elt F)),
    StableHlo.nullary main_c_21 (constantI S_ 32 1#32),
    StableHlo.unary main_c_21 main_v48 (broadcastInDim S50000 ![] bcast_S_S50000 : (⟨S_, .i32⟩ : BufTy).Contents (Elt F) → (⟨S50000, .i32⟩ : BufTy).Contents (Elt F)),
    StableHlo.ternary main_v40 main_v47 main_v48 main_v49 ((fun x i u => Host.scatter scatter_S25000_S50000x1_S50000_n_0_0_1 IntOp.addi x i u) : (⟨S25000, .i32⟩ : BufTy).Contents (Elt F) → (⟨S50000x1, .i32⟩ : BufTy).Contents (Elt F) → (⟨S50000, .i32⟩ : BufTy).Contents (Elt F) → (⟨S25000, .i32⟩ : BufTy).Contents (Elt F)) ]
theorem tail14_sub : (tail14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- Stretch 15 of the 21 after the concatenation (3 operations). -/
abbrev tail15 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v49 : StableHlo.TRef sig ⟨S25000, .i32⟩) (.of main_call7_call0_v0 : StableHlo.TRef sig ⟨S_, .i32⟩) (.of main_v50 : StableHlo.TRef sig ⟨S25000, .i32⟩) (fun x v => Host.reduceWindow IntOp.addi ![25000] ![1] ![24999] ![0] x v reduceWindows_S25000_S25000_w25000s1p24999_0 h_S_) ]
theorem tail15_sub : (tail15 : List (HloOp τ sig (Elt F))).Forall fun op => op.bufs ⊆ StableHlo.tcRefs τ sig :=
  ⟨StableHlo.nullary_bufs_sub .., StableHlo.unary_bufs_sub .., StableHlo.binary_bufs_sub ..⟩

/-- Stretch 16 of the 21 after the concatenation (1 operations). -/
abbrev tail16 : List (HloOp τ sig (Elt F)) :=
  [ StableHlo.nullary main_c_22 (constantI S_ 32 1#32) ]
theorem tail16_sub : (tail16 : List (HloOp τ sig (Elt F))).Forall fun op => op.bufs ⊆ StableHlo.tcRefs τ sig :=
  StableHlo.nullary_bufs_sub ..

/-- Stretch 17 of the 21 after the concatenation (16 operations). -/
abbrev tail17 : List (HloOp τ sig (Elt F)) :=
  [ StableHlo.TRef.unary (.of main_c_22 : StableHlo.TRef sig ⟨S_, .i32⟩) (.of main_call8_v0 : StableHlo.TRef sig ⟨S25000, .i32⟩) (broadcastInDim S25000 ![] bcast_S_S25000),
    StableHlo.TRef.binary (.of main_v50 : StableHlo.TRef sig ⟨S25000, .i32⟩) (.of main_call8_v0 : StableHlo.TRef sig ⟨S25000, .i32⟩) (.of main_call8_v1 : StableHlo.TRef sig ⟨S25000, .i32⟩) Host.divsi,
    StableHlo.TRef.unary (.of main_v50 : StableHlo.TRef sig ⟨S25000, .i32⟩) (.of main_call8_v2 : StableHlo.TRef sig ⟨S25000, .i32⟩) signi,
    StableHlo.TRef.unary (.of main_c_22 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S25000, .i32⟩) (broadcastInDim S25000 ![] bcast_S_S25000),
    StableHlo.TRef.binary (.of main_call8_v2 : StableHlo.TRef sig ⟨S25000, .i32⟩) (.of main_call8_v4 : StableHlo.TRef sig ⟨S25000, .i32⟩) (.of main_call8_v5 : StableHlo.TRef sig ⟨S25000, .i1⟩) (cmpi .ne),
    StableHlo.TRef.unary (.of main_c_22 : StableHlo.TRef sig ⟨S_, .i32⟩) (.of main_call8_v6 : StableHlo.TRef sig ⟨S25000, .i32⟩) (broadcastInDim S25000 ![] bcast_S_S25000),
    StableHlo.TRef.binary (.of main_v50 : StableHlo.TRef sig ⟨S25000, .i32⟩) (.of main_call8_v6 : StableHlo.TRef sig ⟨S25000, .i32⟩) (.of main_call8_v7 : StableHlo.TRef sig ⟨S25000, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S25000, .i32⟩) (broadcastInDim S25000 ![] bcast_S_S25000),
    StableHlo.TRef.binary (.of main_call8_v7 : StableHlo.TRef sig ⟨S25000, .i32⟩) (.of main_call8_v8 : StableHlo.TRef sig ⟨S25000, .i32⟩) (.of main_call8_v9 : StableHlo.TRef sig ⟨S25000, .i1⟩) (cmpi .ne),
    StableHlo.TRef.binary (.of main_call8_v5 : StableHlo.TRef sig ⟨S25000, .i1⟩) (.of main_call8_v9 : StableHlo.TRef sig ⟨S25000, .i1⟩) (.of main_call8_v10 : StableHlo.TRef sig ⟨S25000, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S25000, .i32⟩) (broadcastInDim S25000 ![] bcast_S_S25000),
    StableHlo.TRef.binary (.of main_call8_v1 : StableHlo.TRef sig ⟨S25000, .i32⟩) (.of main_call8_v11 : StableHlo.TRef sig ⟨S25000, .i32⟩) (.of main_call8_v12 : StableHlo.TRef sig ⟨S25000, .i32⟩) subi,
    StableHlo.TRef.ternary (.of main_call8_v10 : StableHlo.TRef sig ⟨S25000, .i1⟩) (.of main_call8_v12 : StableHlo.TRef sig ⟨S25000, .i32⟩) (.of main_call8_v1 : StableHlo.TRef sig ⟨S25000, .i32⟩) (.of main_v51 : StableHlo.TRef sig ⟨S25000, .i32⟩) select ]
theorem tail17_sub : (tail17 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Stretch 18 of the 21 after the concatenation (1 operations). -/
abbrev tail18 : List (HloOp τ sig (Elt F)) :=
  [ StableHlo.nullary main_c_23 (constantI S_ 32 50000#32) ]
theorem tail18_sub : (tail18 : List (HloOp τ sig (Elt F))).Forall fun op => op.bufs ⊆ StableHlo.tcRefs τ sig :=
  StableHlo.nullary_bufs_sub ..

/-- Stretch 19 of the 21 after the concatenation (21 operations). -/
abbrev tail19 : List (HloOp τ sig (Elt F)) :=
  [ StableHlo.TRef.unary (.of main_c_23 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S25000, .i32⟩) (broadcastInDim S25000 ![] bcast_S_S25000),
    StableHlo.TRef.binary (.of main_v51 : StableHlo.TRef sig ⟨S25000, .i32⟩) (.of main_call9_v3 : StableHlo.TRef sig ⟨S25000, .i32⟩) (.of main_call9_v4 : StableHlo.TRef sig ⟨S25000, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S25000, .i32⟩) (broadcastInDim S25000 ![] bcast_S_S25000),
    StableHlo.TRef.binary (.of main_call9_v4 : StableHlo.TRef sig ⟨S25000, .i32⟩) (.of main_call9_v5 : StableHlo.TRef sig ⟨S25000, .i32⟩) (.of main_call9_v6 : StableHlo.TRef sig ⟨S25000, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S25000, .i32⟩) (broadcastInDim S25000 ![] bcast_S_S25000),
    StableHlo.TRef.binary (.of main_call9_v4 : StableHlo.TRef sig ⟨S25000, .i32⟩) (.of main_call9_v7 : StableHlo.TRef sig ⟨S25000, .i32⟩) (.of main_call9_v8 : StableHlo.TRef sig ⟨S25000, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S25000, .i1⟩) (broadcastInDim S25000 ![] bcast_S_S25000),
    StableHlo.TRef.binary (.of main_call9_v8 : StableHlo.TRef sig ⟨S25000, .i1⟩) (.of main_call9_v10 : StableHlo.TRef sig ⟨S25000, .i1⟩) (.of main_call9_v11 : StableHlo.TRef sig ⟨S25000, .i1⟩) (cmpi .ne),
    StableHlo.TRef.binary (.of main_call9_v11 : StableHlo.TRef sig ⟨S25000, .i1⟩) (.of main_call9_v6 : StableHlo.TRef sig ⟨S25000, .i1⟩) (.of main_call9_v12 : StableHlo.TRef sig ⟨S25000, .i1⟩) andi,
    StableHlo.TRef.unary main_call9_call0.v0 (.of main_call9_v13 : StableHlo.TRef sig ⟨S25000, .i32⟩) (broadcastInDim S25000 ![] bcast_S_S25000),
    StableHlo.TRef.binary (.of main_call9_v4 : StableHlo.TRef sig ⟨S25000, .i32⟩) (.of main_call9_v13 : StableHlo.TRef sig ⟨S25000, .i32⟩) (.of main_call9_v14 : StableHlo.TRef sig ⟨S25000, .i32⟩) addi,
    StableHlo.TRef.ternary (.of main_call9_v12 : StableHlo.TRef sig ⟨S25000, .i1⟩) (.of main_call9_v14 : StableHlo.TRef sig ⟨S25000, .i32⟩) (.of main_call9_v4 : StableHlo.TRef sig ⟨S25000, .i32⟩) (.of main_v52 : StableHlo.TRef sig ⟨S25000, .i32⟩) select ]
theorem tail19_sub : (tail19 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 20 of the 21 after the concatenation (19 operations). -/
abbrev tail20 : List (HloOp τ sig (Elt F)) :=
  [ StableHlo.nullary main_c_24 (constantI S_ 32 0#32),
    StableHlo.unary main_c_24 main_v53 (broadcastInDim S25000 ![] bcast_S_S25000 : (⟨S_, .i32⟩ : BufTy).Contents (Elt F) → (⟨S25000, .i32⟩ : BufTy).Contents (Elt F)),
    StableHlo.binary main_v36 main_v53 main_v54 (cmpi .slt : (⟨S25000, .i32⟩ : BufTy).Contents (Elt F) → (⟨S25000, .i32⟩ : BufTy).Contents (Elt F) → (⟨S25000, .i1⟩ : BufTy).Contents (Elt F)),
    StableHlo.nullary main_c_25 (constantI S_ 32 50000#32),
    StableHlo.unary main_c_25 main_v55 (broadcastInDim S25000 ![] bcast_S_S25000 : (⟨S_, .i32⟩ : BufTy).Contents (Elt F) → (⟨S25000, .i32⟩ : BufTy).Contents (Elt F)),
    StableHlo.binary main_v36 main_v55 main_v56 (addi : (⟨S25000, .i32⟩ : BufTy).Contents (Elt F) → (⟨S25000, .i32⟩ : BufTy).Contents (Elt F) → (⟨S25000, .i32⟩ : BufTy).Contents (Elt F)),
    StableHlo.ternary main_v54 main_v56 main_v36 main_v57 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    StableHlo.unary main_v57 main_v58 (broadcastInDim S25000x1 ![0] bcast_S25000_S25000x1_0 : (⟨S25000, .i32⟩ : BufTy).Contents (Elt F) → (⟨S25000x1, .i32⟩ : BufTy).Contents (Elt F)),
    StableHlo.binary main_v20 main_v58 main_v59 ((fun x i => Host.gather gather_S50000x48_S25000x1_S25000x48_1_0_n_n_0_1_148 x i) : (⟨S50000x48, .f32⟩ : BufTy).Contents (Elt F) → (⟨S25000x1, .i32⟩ : BufTy).Contents (Elt F) → (⟨S25000x48, .f32⟩ : BufTy).Contents (Elt F)),
    StableHlo.nullary main_c_26 (constantI S_ 32 0#32),
    StableHlo.unary main_c_26 main_v60 (broadcastInDim S25000 ![] bcast_S_S25000 : (⟨S_, .i32⟩ : BufTy).Contents (Elt F) → (⟨S25000, .i32⟩ : BufTy).Contents (Elt F)),
    StableHlo.binary main_v52 main_v60 main_v61 (cmpi .slt : (⟨S25000, .i32⟩ : BufTy).Contents (Elt F) → (⟨S25000, .i32⟩ : BufTy).Contents (Elt F) → (⟨S25000, .i1⟩ : BufTy).Contents (Elt F)),
    StableHlo.nullary main_c_27 (constantI S_ 32 50000#32),
    StableHlo.unary main_c_27 main_v62 (broadcastInDim S25000 ![] bcast_S_S25000 : (⟨S_, .i32⟩ : BufTy).Contents (Elt F) → (⟨S25000, .i32⟩ : BufTy).Contents (Elt F)),
    StableHlo.binary main_v52 main_v62 main_v63 (addi : (⟨S25000, .i32⟩ : BufTy).Contents (Elt F) → (⟨S25000, .i32⟩ : BufTy).Contents (Elt F) → (⟨S25000, .i32⟩ : BufTy).Contents (Elt F)),
    StableHlo.ternary main_v61 main_v63 main_v52 main_v64 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    StableHlo.unary main_v64 main_v65 (broadcastInDim S25000x1 ![0] bcast_S25000_S25000x1_0 : (⟨S25000, .i32⟩ : BufTy).Contents (Elt F) → (⟨S25000x1, .i32⟩ : BufTy).Contents (Elt F)),
    StableHlo.binary main_v20 main_v65 main_v66 ((fun x i => Host.gather gather_S50000x48_S25000x1_S25000x48_1_0_n_n_0_1_148 x i) : (⟨S50000x48, .f32⟩ : BufTy).Contents (Elt F) → (⟨S25000x1, .i32⟩ : BufTy).Contents (Elt F) → (⟨S25000x48, .f32⟩ : BufTy).Contents (Elt F)),
    StableHlo.binary main_v59 main_v66 main_v67 ((fun a b => concatenate S50000x48 0 [⟨S25000x48, a⟩, ⟨S25000x48, b⟩] concatenates_S25000x48_S25000x48_S50000x48_d0) : (⟨S25000x48, .f32⟩ : BufTy).Contents (Elt F) → (⟨S25000x48, .f32⟩ : BufTy).Contents (Elt F) → (⟨S50000x48, .f32⟩ : BufTy).Contents (Elt F)) ]
theorem tail20_sub : (tail20 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- The 21 stretches, in program order. -/
abbrev tailOps : List (List (HloOp τ sig (Elt F))) :=
  [tail0, tail1, tail2, tail3, tail4, tail5, tail6, tail7, tail8, tail9, tail10, tail11, tail12, tail13, tail14, tail15, tail16, tail17, tail18, tail19, tail20]

end Cert.ReferenceIdeal.Hand

end
-- ==== Proof.RefRun.lean ====
/-
  The reference program's run. @main is a straight line of 182 host operations: the 31 of `headOps` rescale the two
  fingerprint arrays entrywise, (x − lo) / max(hi − lo, 1e-6) · 2 − 1, and put them side by side; the 151 of `tailOps`
  pick the rows of that array whose element code is 1, then those whose code is 8, and stack them. Every weakly
  fair execution terminates with each buffer at the operations' fold over the launch contents; an argument array is
  written by no operation; and the head's result is one closed term of the two fingerprint arrays.
-/
import proofs.«423469_j7919919693922_3_alg».proof.Proof.RefOps
import Idealize.ShloMosaic.Lib.StableHlo.Run
import Idealize.ShloMosaic.Lib.StableHlo.RunLoop
import Idealize.ShloMosaic.Lib.Pipeline.Regions

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The whole operation list: the head, then the 21 stretches. -/
abbrev ops : List (HloOp τ sig (Elt F)) := headOps ++ (tailOps (F := F)).flatten

/-- The chain of the stretches' programs is the program of their concatenation: sequencing distributes over append. -/
theorem chain_map_seq {Λ : Labels} : ∀ (L : List (List (HloOp τ sig (Elt F)))),
    (Pipeline.chain (L.map StableHlo.seq) : Prog (TpuEff nD τ sig (Elt F) Λ .tc) PUnit) = StableHlo.seq L.flatten
  | [] => rfl
  | l :: L => by rw [List.map_cons, Pipeline.chain_cons, List.flatten_cons, StableHlo.seq_append, chain_map_seq L]

/-- Stretch 12 cut where the printed program is cut in two: its first operation, -/
abbrev tail12a : List (HloOp τ sig (Elt F)) :=
  [ StableHlo.nullary main_c_17 (constantI S_ 32 0#32) ]

/-- and its other two. -/
abbrev tail12b : List (HloOp τ sig (Elt F)) :=
  [ StableHlo.unary main_c_17 main_v40 (broadcastInDim S25000 ![] bcast_S_S25000 : (⟨S_, .i32⟩ : BufTy).Contents (Elt F) → (⟨S25000, .i32⟩ : BufTy).Contents (Elt F)),
    StableHlo.nullary main_c_18 (constantI S_ 32 0#32) ]

/-- The first printed half is the head and stretches 0 … 11 in a row, ending in the first operation of stretch 12. -/
theorem main_part0_chain (c : Dev nD) : main_part0 (F := F) c = (Pipeline.chainK
  [ StableHlo.seq headOps, StableHlo.seq tail0, StableHlo.seq tail1, StableHlo.seq tail2, StableHlo.seq tail3,
    StableHlo.seq tail4, StableHlo.seq tail5, StableHlo.seq tail6, StableHlo.seq tail7, StableHlo.seq tail8,
    StableHlo.seq tail9, StableHlo.seq tail10, StableHlo.seq tail11 ]
  (StableHlo.seq tail12a) : Prog (TpuEff nD τ sig (Elt F) (Pipeline.Sig Λ₀ (Fin 0) fun p => (pcfgs (F := F) p).Adm) .tc) PUnit) := by
  chain_rfl

/-- The second printed half is the rest of stretch 12 and stretches 13 … 20 in a row. -/
theorem main_part1_chain (c : Dev nD) : main_part1 (F := F) c = (Pipeline.chain
  [ StableHlo.seq tail12b, StableHlo.seq tail13, StableHlo.seq tail14, StableHlo.seq tail15, StableHlo.seq tail16,
    StableHlo.seq tail17, StableHlo.seq tail18, StableHlo.seq tail19, StableHlo.seq tail20 ] : Prog (TpuEff nD τ sig (Elt F) (Pipeline.Sig Λ₀ (Fin 0) fun p => (pcfgs (F := F) p).Adm) .tc) PUnit) := by
  chain_rfl

/-- The stretches with stretch 12 cut in two concatenate to the same list. -/
theorem cut_flatten :
    ([headOps, tail0, tail1, tail2, tail3, tail4, tail5, tail6, tail7, tail8, tail9, tail10, tail11, tail12a,
      tail12b, tail13, tail14, tail15, tail16, tail17, tail18, tail19, tail20] : List (List (HloOp τ sig (Elt F)))).flatten
      = ops := by
  rfl

/-- @main is that straight line. -/
theorem main_eq (c : Dev nD) : main (F := F) c = StableHlo.seq (ops (F := F)) := by
  show (main_part0 (F := F) c >>= fun _ => main_part1 (F := F) c) = _
  rewrite [main_part1_chain, main_part0_chain, Pipeline.chainK_bind_chain]
  exact (chain_map_seq [headOps, tail0, tail1, tail2, tail3, tail4, tail5, tail6, tail7, tail8, tail9, tail10, tail11, tail12a,
      tail12b, tail13, tail14, tail15, tail16, tail17, tail18, tail19, tail20]).trans (congrArg StableHlo.seq cut_flatten)

/-- A property of every operation of every stretch holds of every operation of their concatenation. -/
theorem forall_flatten {α : Type} {p : α → Prop} :
    ∀ {L : List (List α)}, (L.Forall fun l => l.Forall p) → L.flatten.Forall p
  | [], _ => trivial
  | l :: L, h => by
    rw [List.forall_cons] at h
    rw [List.flatten_cons, List.forall_append]
    exact ⟨h.1, forall_flatten h.2⟩

theorem ops_sub : (ops : List (HloOp τ sig (Elt F))).Forall fun op => op.bufs ⊆ StableHlo.tcRefs τ sig :=
  List.forall_append.mpr ⟨headOps_sub, forall_flatten
    ⟨tail0_sub, tail1_sub, tail2_sub, tail3_sub, tail4_sub, tail5_sub, tail6_sub,
     tail7_sub, tail8_sub, tail9_sub, tail10_sub, tail11_sub, tail12_sub, tail13_sub,
     tail14_sub, tail15_sub, tail16_sub, tail17_sub, tail18_sub, tail19_sub, tail20_sub⟩⟩

/-- No operation leaves a result undetermined: each builder's set of such results is empty by its definition. -/
theorem headOps_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem tail0_fresh : (tail0 : List (HloOp τ sig (Elt F))).Forall fun op => op.fresh = ∅ :=
  ⟨rfl, rfl, rfl⟩
theorem tail1_fresh : (tail1 : List (HloOp τ sig (Elt F))).Forall fun op => op.fresh = ∅ :=
  ⟨rfl, rfl, rfl, rfl⟩
theorem tail2_fresh : (tail2 : List (HloOp τ sig (Elt F))).Forall fun op => op.fresh = ∅ :=
  ⟨rfl, rfl, rfl⟩
theorem tail3_fresh : (tail3 : List (HloOp τ sig (Elt F))).Forall fun op => op.fresh = ∅ :=
  ⟨rfl, rfl, rfl⟩
theorem tail4_fresh : (tail4 : List (HloOp τ sig (Elt F))).Forall fun op => op.fresh = ∅ :=
  ⟨rfl, rfl, rfl, rfl, rfl, rfl, rfl, rfl, rfl, rfl, rfl⟩
theorem tail5_fresh : (tail5 : List (HloOp τ sig (Elt F))).Forall fun op => op.fresh = ∅ :=
  ⟨rfl, rfl, rfl⟩
theorem tail6_fresh : (tail6 : List (HloOp τ sig (Elt F))).Forall fun op => op.fresh = ∅ :=
  rfl
theorem tail7_fresh : (tail7 : List (HloOp τ sig (Elt F))).Forall fun op => op.fresh = ∅ :=
  ⟨rfl, rfl, rfl, rfl, rfl, rfl, rfl, rfl, rfl, rfl, rfl, rfl, rfl, rfl, rfl, rfl⟩
theorem tail8_fresh : (tail8 : List (HloOp τ sig (Elt F))).Forall fun op => op.fresh = ∅ :=
  rfl
theorem tail9_fresh : (tail9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem tail10_fresh : (tail10 : List (HloOp τ sig (Elt F))).Forall fun op => op.fresh = ∅ :=
  ⟨rfl, rfl, rfl⟩
theorem tail11_fresh : (tail11 : List (HloOp τ sig (Elt F))).Forall fun op => op.fresh = ∅ :=
  ⟨rfl, rfl, rfl, rfl⟩
theorem tail12_fresh : (tail12 : List (HloOp τ sig (Elt F))).Forall fun op => op.fresh = ∅ :=
  ⟨rfl, rfl, rfl⟩
theorem tail13_fresh : (tail13 : List (HloOp τ sig (Elt F))).Forall fun op => op.fresh = ∅ :=
  ⟨rfl, rfl, rfl⟩
theorem tail14_fresh : (tail14 : List (HloOp τ sig (Elt F))).Forall fun op => op.fresh = ∅ :=
  ⟨rfl, rfl, rfl, rfl, rfl, rfl, rfl, rfl, rfl, rfl, rfl⟩
theorem tail15_fresh : (tail15 : List (HloOp τ sig (Elt F))).Forall fun op => op.fresh = ∅ :=
  ⟨rfl, rfl, rfl⟩
theorem tail16_fresh : (tail16 : List (HloOp τ sig (Elt F))).Forall fun op => op.fresh = ∅ :=
  rfl
theorem tail17_fresh : (tail17 : List (HloOp τ sig (Elt F))).Forall fun op => op.fresh = ∅ :=
  ⟨rfl, rfl, rfl, rfl, rfl, rfl, rfl, rfl, rfl, rfl, rfl, rfl, rfl, rfl, rfl, rfl⟩
theorem tail18_fresh : (tail18 : List (HloOp τ sig (Elt F))).Forall fun op => op.fresh = ∅ :=
  rfl
theorem tail19_fresh : (tail19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem tail20_fresh : (tail20 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (List.forall_append.mpr ⟨headOps_fresh, forall_flatten
    ⟨tail0_fresh, tail1_fresh, tail2_fresh, tail3_fresh, tail4_fresh, tail5_fresh, tail6_fresh,
     tail7_fresh, tail8_fresh, tail9_fresh, tail10_fresh, tail11_fresh, tail12_fresh, tail13_fresh,
     tail14_fresh, tail15_fresh, tail16_fresh, tail17_fresh, tail18_fresh, tail19_fresh, tail20_fresh⟩⟩)

/-- The signature scopes no TensorCore buffer and no semaphore: the program is one of tensor values only. -/
theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, each TensorCore buffer at the operations' fold over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (ops (F := F)) (StableHlo.launchContents m c) (Proc.devRef .tc b) :=
  StableHlo.run_seq scopedRefs_eq scopedSems_eq defs main (fun _ => ops) main_eq (fun _ => ops_sub) m ρ
    (hfresh := fun _ => ops_fresh)

/-- The fold of the whole list is the tail's fold from the head's. -/
theorem after_ops (V : Valuation τ sig (Elt F)) :
    StableHlo.after (ops (F := F)) V = StableHlo.after (tailOps (F := F)).flatten (StableHlo.after headOps V) :=
  StableHlo.after_append headOps (tailOps (F := F)).flatten V

/-- The references the head writes, and those the tail writes: each operation's own result buffer. -/
def headWrites : List (Ref sig .tc) :=
  [
   main_cst, main_v0, main_v1, main_cst_0, main_cst_1, main_v2, main_v3, main_v4,
   main_v5, main_cst_2, main_v6, main_v7, main_cst_3, main_v8, main_v9, main_cst_4,
   main_v10, main_v11, main_cst_5, main_cst_6, main_v12, main_v13, main_v14, main_v15,
   main_cst_7, main_v16, main_v17, main_cst_8, main_v18, main_v19, main_v20 ]

def tailWrites : List (Ref sig .tc) :=
  [
   main_c, main_v21, main_v22, main_call0_v0, main_call0_call0_c, main_call0_call0_v0, main_v23, main_c_9,
   main_v24, main_c_10, main_call1_v0, main_call1_v1, main_v25, main_c_11, main_v26, main_v27,
   main_c_12, main_v28, main_v29, main_v30, main_v31, main_c_13, main_v32, main_v33,
   main_call2_call0_c, main_call2_call0_v0, main_v34, main_c_14, main_call3_v0, main_call3_v1, main_call3_v2, main_call3_v3,
   main_call3_v4, main_call3_v5, main_call3_v6, main_call3_v7, main_call3_c, main_call3_v8, main_call3_v9, main_call3_v10,
   main_call3_c_0, main_call3_v11, main_call3_v12, main_v35, main_c_15, main_call4_v0, main_call4_c, main_call4_v1,
   main_call4_c_0, main_call4_v2, main_call4_v3, main_call4_v4, main_call4_c_1, main_call4_v5, main_call4_v6, main_call4_c_2,
   main_call4_v7, main_call4_v8, main_call4_c_3, main_call4_v9, main_call4_v10, main_call4_v11, main_call4_v12, main_call4_v13,
   main_call4_v14, main_v36, main_c_16, main_v37, main_v38, main_call5_v0, main_call5_call0_c, main_call5_call0_v0,
   main_v39, main_c_17, main_v40, main_c_18, main_call6_v0, main_call6_v1, main_v41, main_c_19,
   main_v42, main_v43, main_c_20, main_v44, main_v45, main_v46, main_v47, main_c_21,
   main_v48, main_v49, main_call7_call0_c, main_call7_call0_v0, main_v50, main_c_22, main_call8_v0, main_call8_v1,
   main_call8_v2, main_call8_v3, main_call8_v4, main_call8_v5, main_call8_v6, main_call8_v7, main_call8_c, main_call8_v8,
   main_call8_v9, main_call8_v10, main_call8_c_0, main_call8_v11, main_call8_v12, main_v51, main_c_23, main_call9_v0,
   main_call9_c, main_call9_v1, main_call9_c_0, main_call9_v2, main_call9_v3, main_call9_v4, main_call9_c_1, main_call9_v5,
   main_call9_v6, main_call9_c_2, main_call9_v7, main_call9_v8, main_call9_c_3, main_call9_v9, main_call9_v10, main_call9_v11,
   main_call9_v12, main_call9_v13, main_call9_v14, main_v52, main_c_24, main_v53, main_v54, main_c_25,
   main_v55, main_v56, main_v57, main_v58, main_v59, main_c_26, main_v60, main_v61,
   main_c_27, main_v62, main_v63, main_v64, main_v65, main_v66, main_v67 ]

/-- Each operation's written set is the singleton of its result buffer, and that buffer is on the list. -/
local macro "writes_in_list" : tactic =>
  `(tactic| (simp only [List.Forall, StableHlo.nullary_writes, StableHlo.unary_writes, StableHlo.binary_writes,
      StableHlo.ternary_writes, Finset.singleton_subset_iff, List.mem_toFinset, List.mem_map]
             repeat' apply And.intro
             all_goals exact ⟨_, by decide, rfl⟩))

theorem headOps_writes : (headOps : List (HloOp τ sig (Elt F))).Forall fun op =>
    op.writes ⊆ (headWrites.map (Proc.devRef (τ := τ) .tc)).toFinset := by writes_in_list
theorem tail0_writes : (tail0 : List (HloOp τ sig (Elt F))).Forall fun op =>
    op.writes ⊆ (tailWrites.map (Proc.devRef (τ := τ) .tc)).toFinset := by writes_in_list
theorem tail1_writes : (tail1 : List (HloOp τ sig (Elt F))).Forall fun op =>
    op.writes ⊆ (tailWrites.map (Proc.devRef (τ := τ) .tc)).toFinset := by writes_in_list
theorem tail2_writes : (tail2 : List (HloOp τ sig (Elt F))).Forall fun op =>
    op.writes ⊆ (tailWrites.map (Proc.devRef (τ := τ) .tc)).toFinset := by writes_in_list
theorem tail3_writes : (tail3 : List (HloOp τ sig (Elt F))).Forall fun op =>
    op.writes ⊆ (tailWrites.map (Proc.devRef (τ := τ) .tc)).toFinset := by writes_in_list
theorem tail4_writes : (tail4 : List (HloOp τ sig (Elt F))).Forall fun op =>
    op.writes ⊆ (tailWrites.map (Proc.devRef (τ := τ) .tc)).toFinset := by writes_in_list
theorem tail5_writes : (tail5 : List (HloOp τ sig (Elt F))).Forall fun op =>
    op.writes ⊆ (tailWrites.map (Proc.devRef (τ := τ) .tc)).toFinset := by writes_in_list
theorem tail6_writes : (tail6 : List (HloOp τ sig (Elt F))).Forall fun op =>
    op.writes ⊆ (tailWrites.map (Proc.devRef (τ := τ) .tc)).toFinset := by writes_in_list
theorem tail7_writes : (tail7 : List (HloOp τ sig (Elt F))).Forall fun op =>
    op.writes ⊆ (tailWrites.map (Proc.devRef (τ := τ) .tc)).toFinset := by writes_in_list
theorem tail8_writes : (tail8 : List (HloOp τ sig (Elt F))).Forall fun op =>
    op.writes ⊆ (tailWrites.map (Proc.devRef (τ := τ) .tc)).toFinset := by writes_in_list
theorem tail9_writes : (tail9 : List (HloOp τ sig (Elt F))).Forall fun op =>
    op.writes ⊆ (tailWrites.map (Proc.devRef (τ := τ) .tc)).toFinset := by writes_in_list
theorem tail10_writes : (tail10 : List (HloOp τ sig (Elt F))).Forall fun op =>
    op.writes ⊆ (tailWrites.map (Proc.devRef (τ := τ) .tc)).toFinset := by writes_in_list
theorem tail11_writes : (tail11 : List (HloOp τ sig (Elt F))).Forall fun op =>
    op.writes ⊆ (tailWrites.map (Proc.devRef (τ := τ) .tc)).toFinset := by writes_in_list
theorem tail12_writes : (tail12 : List (HloOp τ sig (Elt F))).Forall fun op =>
    op.writes ⊆ (tailWrites.map (Proc.devRef (τ := τ) .tc)).toFinset := by writes_in_list
theorem tail13_writes : (tail13 : List (HloOp τ sig (Elt F))).Forall fun op =>
    op.writes ⊆ (tailWrites.map (Proc.devRef (τ := τ) .tc)).toFinset := by writes_in_list
theorem tail14_writes : (tail14 : List (HloOp τ sig (Elt F))).Forall fun op =>
    op.writes ⊆ (tailWrites.map (Proc.devRef (τ := τ) .tc)).toFinset := by writes_in_list
theorem tail15_writes : (tail15 : List (HloOp τ sig (Elt F))).Forall fun op =>
    op.writes ⊆ (tailWrites.map (Proc.devRef (τ := τ) .tc)).toFinset := by writes_in_list
theorem tail16_writes : (tail16 : List (HloOp τ sig (Elt F))).Forall fun op =>
    op.writes ⊆ (tailWrites.map (Proc.devRef (τ := τ) .tc)).toFinset := by writes_in_list
theorem tail17_writes : (tail17 : List (HloOp τ sig (Elt F))).Forall fun op =>
    op.writes ⊆ (tailWrites.map (Proc.devRef (τ := τ) .tc)).toFinset := by writes_in_list
theorem tail18_writes : (tail18 : List (HloOp τ sig (Elt F))).Forall fun op =>
    op.writes ⊆ (tailWrites.map (Proc.devRef (τ := τ) .tc)).toFinset := by writes_in_list
theorem tail19_writes : (tail19 : List (HloOp τ sig (Elt F))).Forall fun op =>
    op.writes ⊆ (tailWrites.map (Proc.devRef (τ := τ) .tc)).toFinset := by writes_in_list
theorem tail20_writes : (tail20 : List (HloOp τ sig (Elt F))).Forall fun op =>
    op.writes ⊆ (tailWrites.map (Proc.devRef (τ := τ) .tc)).toFinset := by writes_in_list

/-- A reference the head never writes keeps its contents through it; -/
theorem head_keeps_ref (V : Valuation τ sig (Elt F)) {r : Ref sig .tc} (hr : r ∉ headWrites) :
    StableHlo.after (headOps (F := F)) V (Proc.devRef .tc r) = V (Proc.devRef .tc r) :=
  StableHlo.after_of_writes_sub headOps V headOps_writes hr

/-- likewise for the tail. -/
theorem tail_keeps_ref (V : Valuation τ sig (Elt F)) {r : Ref sig .tc} (hr : r ∉ tailWrites) :
    StableHlo.after (tailOps (F := F)).flatten V (Proc.devRef .tc r) = V (Proc.devRef .tc r) :=
  StableHlo.after_of_writes_sub (tailOps (F := F)).flatten V (forall_flatten
    ⟨tail0_writes, tail1_writes, tail2_writes, tail3_writes, tail4_writes, tail5_writes, tail6_writes,
     tail7_writes, tail8_writes, tail9_writes, tail10_writes, tail11_writes, tail12_writes, tail13_writes,
     tail14_writes, tail15_writes, tail16_writes, tail17_writes, tail18_writes, tail19_writes, tail20_writes⟩) hr

/-- The head's result as one term of the two fingerprint arrays: each entry (x − lo) / max(hi − lo, 1e-6) · 2 − 1, with
    (lo, hi) = (0, 2) for the 16 columns of fp_0 and (−1, 3) for the 32 of fp_1, the two side by side. -/
def scaledRef (x0 : (⟨S50000x16, .f32⟩ : BufTy).Contents (Elt F)) (x1 : (⟨S50000x32, .f32⟩ : BufTy).Contents (Elt F)) :
    (⟨S50000x48, .f32⟩ : BufTy).Contents (Elt F) :=
  concatenate S50000x48 1
    [⟨S50000x16, subf (mulf (Host.divf (subf x0 (broadcastInDim S50000x16 ![] bcast_S_S50000x16 (constant (F := F) S_ .f32 0x00000000#32)))
        (broadcastInDim S50000x16 ![] bcast_S_S50000x16 (id (maximumf (constant (F := F) S_ .f32 0x40000000#32) (constant (F := F) S_ .f32 0x358637BD#32)))))
        (broadcastInDim S50000x16 ![] bcast_S_S50000x16 (constant (F := F) S_ .f32 0x40000000#32))) (broadcastInDim S50000x16 ![] bcast_S_S50000x16 (constant (F := F) S_ .f32 0x3F800000#32))⟩,
     ⟨S50000x32, subf (mulf (Host.divf (subf x1 (broadcastInDim S50000x32 ![] bcast_S_S50000x32 (constant (F := F) S_ .f32 0xBF800000#32)))
        (broadcastInDim S50000x32 ![] bcast_S_S50000x32 (id (maximumf (constant (F := F) S_ .f32 0x40800000#32) (constant (F := F) S_ .f32 0x358637BD#32)))))
        (broadcastInDim S50000x32 ![] bcast_S_S50000x32 (constant (F := F) S_ .f32 0x40000000#32))) (broadcastInDim S50000x32 ![] bcast_S_S50000x32 (constant (F := F) S_ .f32 0x3F800000#32))⟩]
    concatenates_S50000x16_S50000x32_S50000x48_d1

set_option maxRecDepth 8192 in
/-- The head leaves that term at `main_v20`, from any contents. -/
theorem head_scaled (V : Valuation τ sig (Elt F)) :
    StableHlo.after (headOps (F := F)) V (Proc.devRef .tc main_v20)
      = scaledRef (V (Proc.devRef .tc main_arg1)) (V (Proc.devRef .tc main_arg2)) := by
  unfold scaledRef
  simp only [StableHlo.after_cons, StableHlo.after_nil]
  rfl

/-- A reference neither the head nor the tail writes holds its launch contents at the end. -/
theorem arg_kept (V : Valuation τ sig (Elt F)) {r : Ref sig .tc} (hh : r ∉ headWrites) (ht : r ∉ tailWrites) :
    StableHlo.after (ops (F := F)) V (Proc.devRef .tc r) = V (Proc.devRef .tc r) := by
  rw [after_ops, tail_keeps_ref _ ht, head_keeps_ref _ hh]

/-- The run with the result named: the tail's fold, from the head's, at the result buffer; the arguments unchanged. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v67)
        = StableHlo.after (tailOps (F := F)).flatten (StableHlo.after headOps (StableHlo.launchContents m c)) (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_v67).trans (congrFun (after_ops _) _),
     (h c main_arg0).trans (arg_kept _ (by decide) (by decide)),
     (h c main_arg1).trans (arg_kept _ (by decide) (by decide)),
     (h c main_arg2).trans (arg_kept _ (by decide) (by decide)),
     (h c main_arg3).trans (arg_kept _ (by decide) (by decide)),
     (h c main_arg4).trans (arg_kept _ (by decide) (by decide)),
     (h c main_arg5).trans (arg_kept _ (by decide) (by decide)),
     (h c main_arg6).trans (arg_kept _ (by decide) (by decide)),
     (h c main_arg7).trans (arg_kept _ (by decide) (by decide))⟩) (run m ρ)

/-- The frame: it runs, and the argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.ReferenceIdeal.Hand

end
-- ==== Proof.RefValue.lean ====
/-
  The reference's rescaling is the specification's, on real entries: for every real x,
      (x − 0) / max(2, 1e-6) · 2 − 1 = (x − 0) · 1 − 1    and    (x − (−1)) / max(4, 1e-6) · 2 − 1 = (x − (−1)) · ½ − 1,
  the binary32 words denoting exactly 0, 1, −1, ½, 2, 4 and a positive number below 2; the two rescaled arrays side by
  side are then the same 50000×48 array.
-/
import proofs.«423469_j7919919693922_3_alg».proof.Proof.RefRun
import proofs.«423469_j7919919693922_3_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen
open Idealize.ShloMosaic Idealize.ShloMosaic.TcCoe Idealize.SL.Sem

namespace RefValue

/-! ### The seven binary32 words as extended reals

Each word is sign, 8 exponent bits (bias 127), 23 fraction bits; a normal word denotes ±(2²³ + fraction) · 2^(exponent − 150),
the all-zero word denotes 0. -/

/-- `+0.0` denotes 0. -/
theorem w_zero : Ideal.ofBits .f32 0x00000000#32 = ((0 : ℝ) : EReal) := by
  simp [Ideal.ofBits, Ideal.ieee]

/-- Exponent 127, fraction 0: 2²³ · 2⁻²³ = 1. -/
theorem w_one : Ideal.ofBits .f32 0x3F800000#32 = ((1 : ℝ) : EReal) := by
  simp [Ideal.ofBits, Ideal.ieee, -EReal.coe_mul]; norm_num

/-- The same with the sign bit set: −1. -/
theorem w_negOne : Ideal.ofBits .f32 0xBF800000#32 = ((-1 : ℝ) : EReal) := by
  simp [Ideal.ofBits, Ideal.ieee, -EReal.coe_mul]; norm_num

/-- Exponent 126, fraction 0: 2²³ · 2⁻²⁴ = ½. -/
theorem w_half : Ideal.ofBits .f32 0x3F000000#32 = ((1 / 2 : ℝ) : EReal) := by
  simp [Ideal.ofBits, Ideal.ieee, -EReal.coe_mul]; norm_num

/-- Exponent 128, fraction 0: 2²³ · 2⁻²² = 2. -/
theorem w_two : Ideal.ofBits .f32 0x40000000#32 = ((2 : ℝ) : EReal) := by
  simp [Ideal.ofBits, Ideal.ieee, -EReal.coe_mul]; norm_num

/-- Exponent 129, fraction 0: 2²³ · 2⁻²¹ = 4. -/
theorem w_four : Ideal.ofBits .f32 0x40800000#32 = ((4 : ℝ) : EReal) := by
  simp [Ideal.ofBits, Ideal.ieee, -EReal.coe_mul]; norm_num

/-- The binary32 nearest 10⁻⁶: exponent 107, fraction 407485, so (2²³ + 407485) · 2⁻⁴³ = 8796093 · 2⁻⁴³. -/
theorem w_eps : Ideal.ofBits .f32 0x358637BD#32 = ((8796093 * (2 : ℝ) ^ (-43 : ℤ) : ℝ) : EReal) := by
  simp [Ideal.ofBits, Ideal.ieee, -EReal.coe_mul]

/-! ### The two clamped ranges

The guard against an empty range, max(hi − lo, 1e-6), is the range itself for both arrays: 8796093 · 2⁻⁴³ < 2 < 4. -/

theorem max_two_eps : max (Ideal.ofBits .f32 0x40000000#32) (Ideal.ofBits .f32 0x358637BD#32) = ((2 : ℝ) : EReal) := by
  rw [w_two, w_eps, max_eq_left]
  rw [EReal.coe_le_coe_iff]; norm_num

theorem max_four_eps : max (Ideal.ofBits .f32 0x40800000#32) (Ideal.ofBits .f32 0x358637BD#32) = ((4 : ℝ) : EReal) := by
  rw [w_four, w_eps, max_eq_left]
  rw [EReal.coe_le_coe_iff]; norm_num

/-! ### The rescaling of one real entry

Over ℝ, dividing by the range and doubling is multiplying by 2 / range: by 1 for the range 2, by ½ for the range 4. -/

theorem real_left (r : ℝ) : (r - 0) * (1 / 2) * 2 - 1 = (r - 0) * 1 - 1 := by ring

theorem real_right (r : ℝ) : (r - (-1)) * (1 / 4) * 2 - 1 = (r - (-1)) * (1 / 2) - 1 := by ring

/-- The same over the extended reals at a real entry: the quotient by the real 2 is the product with ½, every
    intermediate value is a real, and the two reals agree by `real_left`. -/
theorem ereal_left (r : ℝ) :
    Ideal.div ((r : EReal) - ((0 : ℝ) : EReal)) ((2 : ℝ) : EReal) * ((2 : ℝ) : EReal) - ((1 : ℝ) : EReal)
      = ((r : EReal) - ((0 : ℝ) : EReal)) * ((1 : ℝ) : EReal) - ((1 : ℝ) : EReal) := by
  rw [Ideal.div_coe (by norm_num : (2 : ℝ) ≠ 0)]
  rw [← EReal.coe_sub, ← EReal.coe_mul, ← EReal.coe_mul, ← EReal.coe_sub, ← EReal.coe_mul, ← EReal.coe_sub, real_left]

/-- Likewise for the range 4: the quotient by the real 4 is the product with ¼, and `real_right` joins the two reals. -/
theorem ereal_right (r : ℝ) :
    Ideal.div ((r : EReal) - ((-1 : ℝ) : EReal)) ((4 : ℝ) : EReal) * ((2 : ℝ) : EReal) - ((1 : ℝ) : EReal)
      = ((r : EReal) - ((-1 : ℝ) : EReal)) * ((1 / 2 : ℝ) : EReal) - ((1 : ℝ) : EReal) := by
  rw [Ideal.div_coe (by norm_num : (4 : ℝ) ≠ 0)]
  rw [← EReal.coe_sub, ← EReal.coe_mul, ← EReal.coe_mul, ← EReal.coe_sub, ← EReal.coe_mul, ← EReal.coe_sub, real_right]

end RefValue

open RefValue

/-- On arrays of real entries the head's term is the specification. Entry by entry: a column below 16 lies in the first
    piece of the concatenation, at the same row and column of fp_0; a column from 16 on lies in the second, at the same
    row and 16 columns less of fp_1. There every operation is pointwise and every broadcast scalar is its word, so the
    entry is the rescaling of one real, which is the specification's by the lemmas above. -/
theorem scaledRef_eq (x0 : (⟨S50000x16, .f32⟩ : BufTy).Contents (Elt Ideal)) (x1 : (⟨S50000x32, .f32⟩ : BufTy).Contents (Elt Ideal))
    (h0 : ∀ i, ∃ r : ℝ, x0 i = (r : EReal)) (h1 : ∀ i, ∃ r : ℝ, x1 i = (r : EReal)) :
    scaledRef (F := Ideal) x0 x1 = Cert.Spec.scaled x0 x1 := by
  funext i
  unfold scaledRef
  by_cases h : (i 1).val < 16
  · -- first piece: row (i 0), column (i 1) of fp_0
    rw [concatenate_pair_apply_left (t := S50000x48) (s₁ := S50000x16) (s₂ := S50000x32) (1 : Fin 2) _ _ _ i rfl
      (Cert.Spec.at16 (i 0) ⟨(i 1).val, h⟩)
      (fun b => by match b with | ⟨0, _⟩ => rfl | ⟨1, _⟩ => rfl)]
    obtain ⟨r, hr⟩ := h0 (Cert.Spec.at16 (i 0) ⟨(i 1).val, h⟩)
    unfold Cert.Spec.scaled
    rw [dif_pos h]
    simp only [subf, mulf, Host.divf, broadcastInDim, constant, maximumf, id, Ideal.subf_def, Ideal.mulf_def,
      Ideal.hostDivf_def, Ideal.maximumf_def, Ideal.ofBits_def]
    rw [max_two_eps, hr, w_zero, w_one, w_two]
    exact ereal_left r
  · -- second piece: row (i 0), column (i 1) − 16 of fp_1
    have h48 : (i 1).val < 48 := (i 1).isLt
    rw [concatenate_pair_apply_right (t := S50000x48) (s₁ := S50000x16) (s₂ := S50000x32) (1 : Fin 2) _ _ _ i rfl rfl
      (Cert.Spec.at32 (i 0) ⟨(i 1).val - 16, by omega⟩)
      (fun b hb => by match b with | ⟨0, _⟩ => rfl | ⟨1, _⟩ => exact absurd rfl hb)
      (by show (i 1).val - 16 + 16 = (i 1).val; omega)]
    obtain ⟨r, hr⟩ := h1 (Cert.Spec.at32 (i 0) ⟨(i 1).val - 16, by omega⟩)
    unfold Cert.Spec.scaled
    rw [dif_neg h]
    simp only [subf, mulf, Host.divf, broadcastInDim, constant, maximumf, id, Ideal.subf_def, Ideal.mulf_def,
      Ideal.hostDivf_def, Ideal.maximumf_def, Ideal.ofBits_def]
    rw [max_four_eps, hr, w_negOne, w_one, w_two, w_half]
    exact ereal_right r

end Cert.ReferenceIdeal.Hand

end
-- ==== Proof.Finite.lean ====
/-
  The precondition, read at the two fingerprint arrays: it is the conjunction over the five float inputs of
  "every entry's absolute value is below +infinity", so on every device every entry of fp_0 and of fp_1 is a real number.
-/
import proofs.«423469_j7919919693922_3_alg».proof.Defs
import proofs.«423469_j7919919693922_3_alg».proof.Proof.Gen.Pre_finite_inputs
import proofs.«423469_j7919919693922_3_alg».proof.Proof.Gen.KernelIdeal
import Idealize.ShloMosaic.Lib.ReduceAll
import Idealize.ShloMosaic.Lib.ValueIdx

noncomputable section

namespace Cert.Finite

open Idealize.ShloMosaic Idealize.ShloMosaic.TcCoe Idealize.SL.Sem
open Cert.KernelIdeal

/-- The f32 pattern with sign 0, all-ones exponent and zero fraction denotes +infinity. -/
theorem inf_lit : Ideal.ofBits .f32 0x7F800000#32 = (⊤ : EReal) := by
  simp [Ideal.ofBits, Ideal.ieee]

/-- An extended real whose absolute value `max x (-x)` is strictly below `⊤` is a real:
    at `⊥` and at `⊤` the absolute value is `⊤` itself, and `⊤ < ⊤` is false. -/
theorem real_of_abs_lt_top (x : EReal)
    (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The same, with the bound written as the f32 literal of +infinity. -/
theorem real_of_abs_lt_inf (x : EReal)
    (h : Ideal.cmp .olt (max x (-x)) (Ideal.ofBits .f32 0x7F800000#32) = 1#1) : ∃ r : ℝ, x = (r : EReal) :=
  real_of_abs_lt_top x (inf_lit ▸ h)

/-- The rank-0 shape has exactly one index. -/
instance : Subsingleton Cert.Pre_finite_inputs.S_.Idx := ⟨fun a b => funext fun d => d.elim0⟩

/-- Under the precondition every entry of fp_0 and of fp_1 is real, on every device. -/
theorem fingerprints_real (m : (ℓ : Loc nD τ sig) → Buf (Elt Ideal) ℓ)
    (h : Cert.Pre_KernelIdeal (hPre_finite_inputs := Cert.Pre_finite_inputs.Gen.facts) m) (c : Dev nD) :
    (∀ i, ∃ r : ℝ, m ((c.tc : Thread nD τ).loc main_arg1) i = (r : EReal))
      ∧ (∀ i, ∃ r : ℝ, m ((c.tc : Thread nD τ).loc main_arg2) i = (r : EReal)) := by
  -- the precondition at the one index of its rank-0 result
  have h1 := congrFun (h c) ValueIdx.ix0
  dsimp only [Cert.Pre_finite_inputs.fn, Cert.Pre_finite_inputs.fn_part1] at h1
  -- it is ((((all₀ ∧ all₁) ∧ all₂) ∧ all₃) ∧ all₄): a bitwise `and` of i1 words is 1 iff both are
  have e4 := IntOp.andi_eq_one.1 h1
  have e3 := IntOp.andi_eq_one.1 e4.1
  have e2 := IntOp.andi_eq_one.1 e3.1
  have e1 := IntOp.andi_eq_one.1 e2.1
  -- all₁ speaks of fp_0 and all₂ of fp_1; a reduction by `and` over every axis that is 1 met a 1 at each index,
  -- and a 1 there is |entry| < +infinity
  have a1 := e1.2
  have a2 := e2.2
  exact ⟨fun i => real_of_abs_lt_inf _ (Host.reduce_andi_all _ _ _ _ _ a1 i),
    fun i => real_of_abs_lt_inf _ (Host.reduce_andi_all _ _ _ _ _ a2 i)⟩

end Cert.Finite

end
-- ==== Proof.AgreeBase.lean ====
/-
  After the rescaled 50000×48 array exists, the kernel program and the reference run the SAME 151 host operations on
  it and on the element codes: two scans (which rows carry element 1, which carry element 8: a cumulative count, a
  scatter-add of ones at the counts, a second cumulative count, then floor-division and remainder that leave the row
  numbers), the two row gathers, and the stacking of the gathered halves. The two programs name their buffers
  differently, so the comparison is between a kernel-side and a reference-side assignment of contents to buffers: if
  the two agree on the rescaled array and on the element codes before the operations, they agree on the result after
  them. This module fixes the vocabulary: the two kinds of contents, and the operations cut in three parts.
-/
import proofs.«423469_j7919919693922_3_alg».proof.Proof.Gen.KernelIdeal.Launch
import proofs.«423469_j7919919693922_3_alg».proof.Proof.RefOps
import Idealize.ShloMosaic.Lib.StableHlo.Run

noncomputable section

namespace Cert.Agree

open Idealize.ShloMosaic Idealize.ShloMosaic.TcCoe Idealize.SL.Sem

variable {F : FTy → Type} [FloatOps F]

/-- Contents of the kernel program's buffers, and of the reference's. -/
abbrev KV (F : FTy → Type) [FloatOps F] := Valuation Cert.KernelIdeal.τ Cert.KernelIdeal.sig (Elt F)
abbrev RV (F : FTy → Type) [FloatOps F] := Valuation Cert.ReferenceIdeal.τ Cert.ReferenceIdeal.sig (Elt F)

/-- A buffer of either program, as the device buffer contents are read at. -/
abbrev kr (r : Ref Cert.KernelIdeal.sig .tc) : DevRef Cert.KernelIdeal.τ Cert.KernelIdeal.sig := Proc.devRef .tc r
abbrev rr (r : Ref Cert.ReferenceIdeal.sig .tc) : DevRef Cert.ReferenceIdeal.τ Cert.ReferenceIdeal.sig := Proc.devRef .tc r

/-- The shapes the live values have. -/
abbrev Codes (F : FTy → Type) [FloatOps F] := (⟨Cert.KernelIdeal.S50000, .i32⟩ : BufTy).Contents (Elt F)
abbrev Rows (F : FTy → Type) [FloatOps F] := (⟨Cert.KernelIdeal.S25000, .i32⟩ : BufTy).Contents (Elt F)
abbrev Prints (F : FTy → Type) [FloatOps F] := (⟨Cert.KernelIdeal.S50000x48, .f32⟩ : BufTy).Contents (Elt F)

/-- The first scan (element 1), the second (element 8), in each program. -/
abbrev scanAK : List (List (HloOp Cert.KernelIdeal.τ Cert.KernelIdeal.sig (Elt F))) := [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9]
abbrev scanAR : List (List (HloOp Cert.ReferenceIdeal.τ Cert.ReferenceIdeal.sig (Elt F))) := [Cert.ReferenceIdeal.Hand.tail0, Cert.ReferenceIdeal.Hand.tail1, Cert.ReferenceIdeal.Hand.tail2, Cert.ReferenceIdeal.Hand.tail3, Cert.ReferenceIdeal.Hand.tail4, Cert.ReferenceIdeal.Hand.tail5, Cert.ReferenceIdeal.Hand.tail6, Cert.ReferenceIdeal.Hand.tail7, Cert.ReferenceIdeal.Hand.tail8, Cert.ReferenceIdeal.Hand.tail9]
abbrev scanBK : List (List (HloOp Cert.KernelIdeal.τ Cert.KernelIdeal.sig (Elt F))) := [Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19]
abbrev scanBR : List (List (HloOp Cert.ReferenceIdeal.τ Cert.ReferenceIdeal.sig (Elt F))) := [Cert.ReferenceIdeal.Hand.tail10, Cert.ReferenceIdeal.Hand.tail11, Cert.ReferenceIdeal.Hand.tail12, Cert.ReferenceIdeal.Hand.tail13, Cert.ReferenceIdeal.Hand.tail14, Cert.ReferenceIdeal.Hand.tail15, Cert.ReferenceIdeal.Hand.tail16, Cert.ReferenceIdeal.Hand.tail17, Cert.ReferenceIdeal.Hand.tail18, Cert.ReferenceIdeal.Hand.tail19]

/-- The values live across the tail agree: the rescaled array, the element codes, and the two scans' row numbers
    (each clause about a value that exists at that moment). -/
def AgreeIn (WK : KV F) (WR : RV F) : Prop :=
  (WK (kr Cert.KernelIdeal.main_v0) : Prints F) = WR (rr Cert.ReferenceIdeal.main_v20) ∧ (WK (kr Cert.KernelIdeal.main_arg5) : Codes F) = WR (rr Cert.ReferenceIdeal.main_arg5)

def AgreeA (WK : KV F) (WR : RV F) : Prop :=
  AgreeIn WK WR ∧ (WK (kr Cert.KernelIdeal.main_v16) : Rows F) = WR (rr Cert.ReferenceIdeal.main_v36)

def AgreeB (WK : KV F) (WR : RV F) : Prop :=
  AgreeA WK WR ∧ (WK (kr Cert.KernelIdeal.main_v32) : Rows F) = WR (rr Cert.ReferenceIdeal.main_v52)

end Cert.Agree

end
-- ==== Proof.AgreeScanA.lean ====
/-
  The first scan, in both programs: from contents that agree on the rescaled array and the element codes, the ten
  stretches that compute the row numbers of element 1 leave contents that still agree on those two and agree on the
  row numbers.
-/
import proofs.«423469_j7919919693922_3_alg».proof.Proof.AgreeBase
import Idealize.ShloMosaic.Lib.StableHlo.RunLoop

noncomputable section

namespace Cert.Agree

open Idealize.ShloMosaic Idealize.ShloMosaic.TcCoe Idealize.SL.Sem

variable {F : FTy → Type} [FloatOps F]

namespace ScanA

/-- The shapes of the scan's intermediate values besides the codes and the row numbers: one flag per row of the
    array, and a single integer. -/
abbrev Flags (F : FTy → Type) [FloatOps F] := (⟨Cert.KernelIdeal.S50000, .i1⟩ : BufTy).Contents (Elt F)
abbrev Scalar (F : FTy → Type) [FloatOps F] := (⟨Cert.KernelIdeal.S_, .i32⟩ : BufTy).Contents (Elt F)

/-- Stretch 0: the flags "this row's code is 1" are the same function of the element codes on both sides. -/
theorem stretch0 (WK : KV F) (WR : RV F)
    (h5 : (WK (kr Cert.KernelIdeal.main_arg5) : Codes F) = WR (rr Cert.ReferenceIdeal.main_arg5)) :
    (StableHlo.after Cert.KernelIdeal.Gen.hostOps1 WK (kr Cert.KernelIdeal.main_v2) : Flags F)
      = StableHlo.after Cert.ReferenceIdeal.Hand.tail0 WR (rr Cert.ReferenceIdeal.main_v22) := by
  after_results
  rw [h5]

/-- Stretch 1: the running count of the flags (a windowed sum over all earlier rows). -/
theorem stretch1 (WK : KV F) (WR : RV F)
    (h2 : (WK (kr Cert.KernelIdeal.main_v2) : Flags F) = WR (rr Cert.ReferenceIdeal.main_v22)) :
    (StableHlo.after Cert.KernelIdeal.Gen.hostOps1_1 WK (kr Cert.KernelIdeal.main_v3) : Codes F)
      = StableHlo.after Cert.ReferenceIdeal.Hand.tail1 WR (rr Cert.ReferenceIdeal.main_v23) := by
  after_results
  rw [h2]

/-- Stretch 2 writes the zero row numbers and a zero bound, reading nothing; the running count passes through it. -/
theorem stretch2 (WK : KV F) (WR : RV F)
    (h3 : (WK (kr Cert.KernelIdeal.main_v3) : Codes F) = WR (rr Cert.ReferenceIdeal.main_v23)) :
    ((StableHlo.after Cert.KernelIdeal.Gen.hostOps1_2 WK (kr Cert.KernelIdeal.main_v3) : Codes F)
        = StableHlo.after Cert.ReferenceIdeal.Hand.tail2 WR (rr Cert.ReferenceIdeal.main_v23))
      ∧ ((StableHlo.after Cert.KernelIdeal.Gen.hostOps1_2 WK (kr Cert.KernelIdeal.main_v4) : Rows F)
        = StableHlo.after Cert.ReferenceIdeal.Hand.tail2 WR (rr Cert.ReferenceIdeal.main_v24))
      ∧ ((StableHlo.after Cert.KernelIdeal.Gen.hostOps1_2 WK (kr Cert.KernelIdeal.main_c_1) : Scalar F)
        = StableHlo.after Cert.ReferenceIdeal.Hand.tail2 WR (rr Cert.ReferenceIdeal.main_c_10)) := by
  refine ⟨?_, ?_, ?_⟩
  · after_results
    exact h3
  · after_results
  · after_results

/-- Stretch 3: the running count bounded below by the zero bound; the zero row numbers pass through it. -/
theorem stretch3 (WK : KV F) (WR : RV F)
    (h3 : (WK (kr Cert.KernelIdeal.main_v3) : Codes F) = WR (rr Cert.ReferenceIdeal.main_v23))
    (h4 : (WK (kr Cert.KernelIdeal.main_v4) : Rows F) = WR (rr Cert.ReferenceIdeal.main_v24))
    (hc : (WK (kr Cert.KernelIdeal.main_c_1) : Scalar F) = WR (rr Cert.ReferenceIdeal.main_c_10)) :
    ((StableHlo.after Cert.KernelIdeal.Gen.hostOps1_3 WK (kr Cert.KernelIdeal.main_v4) : Rows F)
        = StableHlo.after Cert.ReferenceIdeal.Hand.tail3 WR (rr Cert.ReferenceIdeal.main_v24))
      ∧ ((StableHlo.after Cert.KernelIdeal.Gen.hostOps1_3 WK (kr Cert.KernelIdeal.main_v5) : Codes F)
        = StableHlo.after Cert.ReferenceIdeal.Hand.tail3 WR (rr Cert.ReferenceIdeal.main_v25)) := by
  refine ⟨?_, ?_⟩
  · after_results
    exact h4
  · after_results
    rw [h3, hc]

/-- Stretch 4: negative positions wrapped by the row count, then ones added into the zero row numbers at those
    positions (a scatter-add). -/
theorem stretch4 (WK : KV F) (WR : RV F)
    (h4 : (WK (kr Cert.KernelIdeal.main_v4) : Rows F) = WR (rr Cert.ReferenceIdeal.main_v24))
    (h5 : (WK (kr Cert.KernelIdeal.main_v5) : Codes F) = WR (rr Cert.ReferenceIdeal.main_v25)) :
    (StableHlo.after Cert.KernelIdeal.Gen.hostOps1_4 WK (kr Cert.KernelIdeal.main_v13) : Rows F)
      = StableHlo.after Cert.ReferenceIdeal.Hand.tail4 WR (rr Cert.ReferenceIdeal.main_v33) := by
  after_results_simp
  rw [h4, h5]
  rfl

/-- Stretch 5: the running count of the scattered ones. -/
theorem stretch5 (WK : KV F) (WR : RV F)
    (h13 : (WK (kr Cert.KernelIdeal.main_v13) : Rows F) = WR (rr Cert.ReferenceIdeal.main_v33)) :
    (StableHlo.after Cert.KernelIdeal.Gen.hostOps1_5 WK (kr Cert.KernelIdeal.main_v14) : Rows F)
      = StableHlo.after Cert.ReferenceIdeal.Hand.tail5 WR (rr Cert.ReferenceIdeal.main_v34) := by
  after_results
  rw [h13]

/-- Stretch 6 writes the divisor 1; the second running count passes through it. -/
theorem stretch6 (WK : KV F) (WR : RV F)
    (h14 : (WK (kr Cert.KernelIdeal.main_v14) : Rows F) = WR (rr Cert.ReferenceIdeal.main_v34)) :
    ((StableHlo.after Cert.KernelIdeal.Gen.hostOps1_6 WK (kr Cert.KernelIdeal.main_v14) : Rows F)
        = StableHlo.after Cert.ReferenceIdeal.Hand.tail6 WR (rr Cert.ReferenceIdeal.main_v34))
      ∧ ((StableHlo.after Cert.KernelIdeal.Gen.hostOps1_6 WK (kr Cert.KernelIdeal.main_c_5) : Scalar F)
        = StableHlo.after Cert.ReferenceIdeal.Hand.tail6 WR (rr Cert.ReferenceIdeal.main_c_14)) := by
  refine ⟨?_, ?_⟩
  · after_results
    exact h14
  · after_results

/-- Stretch 7: the floor-division of the second running count by the divisor (the truncated quotient, lowered by one
    where the signs differ and the remainder is not zero). -/
theorem stretch7 (WK : KV F) (WR : RV F)
    (h14 : (WK (kr Cert.KernelIdeal.main_v14) : Rows F) = WR (rr Cert.ReferenceIdeal.main_v34))
    (hc : (WK (kr Cert.KernelIdeal.main_c_5) : Scalar F) = WR (rr Cert.ReferenceIdeal.main_c_14)) :
    (StableHlo.after Cert.KernelIdeal.Gen.hostOps1_7 WK (kr Cert.KernelIdeal.main_v15) : Rows F)
      = StableHlo.after Cert.ReferenceIdeal.Hand.tail7 WR (rr Cert.ReferenceIdeal.main_v35) := by
  after_results_simp
  rw [h14, hc]

/-- Stretch 8 writes the modulus 50000; the quotient passes through it. -/
theorem stretch8 (WK : KV F) (WR : RV F)
    (h15 : (WK (kr Cert.KernelIdeal.main_v15) : Rows F) = WR (rr Cert.ReferenceIdeal.main_v35)) :
    ((StableHlo.after Cert.KernelIdeal.Gen.hostOps1_8 WK (kr Cert.KernelIdeal.main_v15) : Rows F)
        = StableHlo.after Cert.ReferenceIdeal.Hand.tail8 WR (rr Cert.ReferenceIdeal.main_v35))
      ∧ ((StableHlo.after Cert.KernelIdeal.Gen.hostOps1_8 WK (kr Cert.KernelIdeal.main_c_6) : Scalar F)
        = StableHlo.after Cert.ReferenceIdeal.Hand.tail8 WR (rr Cert.ReferenceIdeal.main_c_15)) := by
  refine ⟨?_, ?_⟩
  · after_results
    exact h15
  · after_results

/-- Stretch 9: the remainder of the quotient by the modulus with the sign of the modulus (the truncated remainder,
    raised by the modulus where it is not zero and its sign differs from the modulus's). -/
theorem stretch9 (WK : KV F) (WR : RV F)
    (h15 : (WK (kr Cert.KernelIdeal.main_v15) : Rows F) = WR (rr Cert.ReferenceIdeal.main_v35))
    (hc : (WK (kr Cert.KernelIdeal.main_c_6) : Scalar F) = WR (rr Cert.ReferenceIdeal.main_c_15)) :
    (StableHlo.after Cert.KernelIdeal.Gen.hostOps1_9 WK (kr Cert.KernelIdeal.main_v16) : Rows F)
      = StableHlo.after Cert.ReferenceIdeal.Hand.tail9 WR (rr Cert.ReferenceIdeal.main_v36) := by
  after_results_simp
  rw [h15, hc]

/-- None of the ten stretches writes the rescaled array or the element codes: each passes through the whole scan, on
    both sides. -/
theorem keeps (WK : KV F) (WR : RV F) (h : AgreeIn WK WR) :
    AgreeIn (StableHlo.afterL (scanAK (F := F)) WK) (StableHlo.afterL (scanAR (F := F)) WR) := by
  obtain ⟨h0, h5⟩ := h
  simp only [StableHlo.afterL_cons, StableHlo.afterL_nil]
  refine ⟨?_, ?_⟩
  · after_results_simp
    exact h0
  · after_results_simp
    exact h5

end ScanA

open ScanA in
theorem scanA_agree (WK : KV F) (WR : RV F) (h : AgreeIn WK WR) :
    AgreeA (StableHlo.after (scanAK (F := F)).flatten WK) (StableHlo.after (scanAR (F := F)).flatten WR) := by
  rw [← StableHlo.afterL_eq_after_flatten, ← StableHlo.afterL_eq_after_flatten]
  refine ⟨keeps WK WR h, ?_⟩
  simp only [StableHlo.afterL_cons, StableHlo.afterL_nil]
  have e2 := stretch0 WK WR h.2
  have e3 := stretch1 _ _ e2
  obtain ⟨e3', e4, ec1⟩ := stretch2 _ _ e3
  obtain ⟨e4', e5⟩ := stretch3 _ _ e3' e4 ec1
  have e13 := stretch4 _ _ e4' e5
  have e14 := stretch5 _ _ e13
  obtain ⟨e14', ec5⟩ := stretch6 _ _ e14
  have e15 := stretch7 _ _ e14' ec5
  obtain ⟨e15', ec6⟩ := stretch8 _ _ e15
  exact stretch9 _ _ e15' ec6

end Cert.Agree

end
-- ==== Proof.AgreeScanB.lean ====
/-
  The second scan, in both programs: from contents that agree on the rescaled array, the element codes and the first
  scan's row numbers, the ten stretches that compute the row numbers of element 8 leave contents that still agree on
  those and agree on the new row numbers.

  Each stretch is the same list of operations in the two programs, over differently named buffers. So one stretch at a
  time: if the two programs' contents agree on the values the stretch reads, they agree on the values it leaves for
  later stretches (both sides are the same functions applied to equal arguments); and a value the stretch does not write
  is what it was, on each side. The ten steps are then chained along the two lists.
-/
import proofs.«423469_j7919919693922_3_alg».proof.Proof.AgreeBase

noncomputable section

namespace Cert.Agree

open Idealize.ShloMosaic Idealize.ShloMosaic.TcCoe Idealize.SL.Sem

variable {F : FTy → Type} [FloatOps F]

namespace ScanB

/-- The shapes of the values that live between two stretches of the scan besides the row numbers and the codes: one
    flag per code, and a scalar. -/
abbrev Flags (F : FTy → Type) [FloatOps F] := (⟨Cert.KernelIdeal.S50000, .i1⟩ : BufTy).Contents (Elt F)
abbrev Scal (F : FTy → Type) [FloatOps F] := (⟨Cert.KernelIdeal.S_, .i32⟩ : BufTy).Contents (Elt F)

/-- The ten stretches, in the kernel program (K) and in the reference (R). -/
local notation "K10" => (Cert.KernelIdeal.Gen.hostOps1_10 (F := F))
local notation "K11" => (Cert.KernelIdeal.Gen.hostOps1_11 (F := F))
local notation "K12" => (Cert.KernelIdeal.Gen.hostOps1_12 (F := F))
local notation "K13" => (Cert.KernelIdeal.Gen.hostOps1_13 (F := F))
local notation "K14" => (Cert.KernelIdeal.Gen.hostOps1_14 (F := F))
local notation "K15" => (Cert.KernelIdeal.Gen.hostOps1_15 (F := F))
local notation "K16" => (Cert.KernelIdeal.Gen.hostOps1_16 (F := F))
local notation "K17" => (Cert.KernelIdeal.Gen.hostOps1_17 (F := F))
local notation "K18" => (Cert.KernelIdeal.Gen.hostOps1_18 (F := F))
local notation "K19" => (Cert.KernelIdeal.Gen.hostOps1_19 (F := F))
local notation "R10" => (Cert.ReferenceIdeal.Hand.tail10 (F := F))
local notation "R11" => (Cert.ReferenceIdeal.Hand.tail11 (F := F))
local notation "R12" => (Cert.ReferenceIdeal.Hand.tail12 (F := F))
local notation "R13" => (Cert.ReferenceIdeal.Hand.tail13 (F := F))
local notation "R14" => (Cert.ReferenceIdeal.Hand.tail14 (F := F))
local notation "R15" => (Cert.ReferenceIdeal.Hand.tail15 (F := F))
local notation "R16" => (Cert.ReferenceIdeal.Hand.tail16 (F := F))
local notation "R17" => (Cert.ReferenceIdeal.Hand.tail17 (F := F))
local notation "R18" => (Cert.ReferenceIdeal.Hand.tail18 (F := F))
local notation "R19" => (Cert.ReferenceIdeal.Hand.tail19 (F := F))

/-! ## Two lines in a row -/

/-- The contents after two lines of operations in a row are the second line's after the first's. -/
theorem after_two {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_two l₁ l₂]

/-- A list of stretches run as one line is the first stretch, then the rest. -/
theorem after_flatten_cons {τ : Topo} {sig : RefSig} {Val : EltTy → Type} (s : List (HloOp τ sig Val))
    (rest : List (List (HloOp τ sig Val))) (V : Valuation τ sig Val) :
    StableHlo.after (s :: rest).flatten V = StableHlo.after rest.flatten (StableHlo.after s V) := by
  rw [List.flatten_cons, after_two]

/-- The second scan as ten stretches one after the other, in each program. -/
theorem scanK_eq (W : KV F) :
    StableHlo.after (scanBK (F := F)).flatten W
      = StableHlo.after K19 (StableHlo.after K18 (StableHlo.after K17 (StableHlo.after K16 (StableHlo.after K15
          (StableHlo.after K14 (StableHlo.after K13 (StableHlo.after K12 (StableHlo.after K11 (StableHlo.after K10 W))))))))) := by
  simp only [after_flatten_cons, List.flatten_nil, StableHlo.after_nil]

theorem scanR_eq (W : RV F) :
    StableHlo.after (scanBR (F := F)).flatten W
      = StableHlo.after R19 (StableHlo.after R18 (StableHlo.after R17 (StableHlo.after R16 (StableHlo.after R15
          (StableHlo.after R14 (StableHlo.after R13 (StableHlo.after R12 (StableHlo.after R11 (StableHlo.after R10 W))))))))) := by
  simp only [after_flatten_cons, List.flatten_nil, StableHlo.after_nil]

/-! ## What no stretch of the scan writes

The rescaled array, the element codes and the first scan's row numbers are written by none of the ten stretches: after
each they are what they were, in each program, so they agree after it if they agreed before it. -/

theorem base10 (WK : KV F) (WR : RV F) (hA : AgreeA WK WR) : AgreeA (StableHlo.after K10 WK) (StableHlo.after R10 WR) := by
  obtain ⟨⟨h0, h5⟩, h16⟩ := hA
  refine And.intro (And.intro ?_ ?_) ?_
  · after_results_simp; exact h0
  · after_results_simp; exact h5
  · after_results_simp; exact h16

theorem base11 (WK : KV F) (WR : RV F) (hA : AgreeA WK WR) : AgreeA (StableHlo.after K11 WK) (StableHlo.after R11 WR) := by
  obtain ⟨⟨h0, h5⟩, h16⟩ := hA
  refine And.intro (And.intro ?_ ?_) ?_
  · after_results_simp; exact h0
  · after_results_simp; exact h5
  · after_results_simp; exact h16

theorem base12 (WK : KV F) (WR : RV F) (hA : AgreeA WK WR) : AgreeA (StableHlo.after K12 WK) (StableHlo.after R12 WR) := by
  obtain ⟨⟨h0, h5⟩, h16⟩ := hA
  refine And.intro (And.intro ?_ ?_) ?_
  · after_results_simp; exact h0
  · after_results_simp; exact h5
  · after_results_simp; exact h16

theorem base13 (WK : KV F) (WR : RV F) (hA : AgreeA WK WR) : AgreeA (StableHlo.after K13 WK) (StableHlo.after R13 WR) := by
  obtain ⟨⟨h0, h5⟩, h16⟩ := hA
  refine And.intro (And.intro ?_ ?_) ?_
  · after_results_simp; exact h0
  · after_results_simp; exact h5
  · after_results_simp; exact h16

theorem base14 (WK : KV F) (WR : RV F) (hA : AgreeA WK WR) : AgreeA (StableHlo.after K14 WK) (StableHlo.after R14 WR) := by
  obtain ⟨⟨h0, h5⟩, h16⟩ := hA
  refine And.intro (And.intro ?_ ?_) ?_
  · after_results_simp; exact h0
  · after_results_simp; exact h5
  · after_results_simp; exact h16

theorem base15 (WK : KV F) (WR : RV F) (hA : AgreeA WK WR) : AgreeA (StableHlo.after K15 WK) (StableHlo.after R15 WR) := by
  obtain ⟨⟨h0, h5⟩, h16⟩ := hA
  refine And.intro (And.intro ?_ ?_) ?_
  · after_results_simp; exact h0
  · after_results_simp; exact h5
  · after_results_simp; exact h16

theorem base16 (WK : KV F) (WR : RV F) (hA : AgreeA WK WR) : AgreeA (StableHlo.after K16 WK) (StableHlo.after R16 WR) := by
  obtain ⟨⟨h0, h5⟩, h16⟩ := hA
  refine And.intro (And.intro ?_ ?_) ?_
  · after_results_simp; exact h0
  · after_results_simp; exact h5
  · after_results_simp; exact h16

theorem base17 (WK : KV F) (WR : RV F) (hA : AgreeA WK WR) : AgreeA (StableHlo.after K17 WK) (StableHlo.after R17 WR) := by
  obtain ⟨⟨h0, h5⟩, h16⟩ := hA
  refine And.intro (And.intro ?_ ?_) ?_
  · after_results_simp; exact h0
  · after_results_simp; exact h5
  · after_results_simp; exact h16

theorem base18 (WK : KV F) (WR : RV F) (hA : AgreeA WK WR) : AgreeA (StableHlo.after K18 WK) (StableHlo.after R18 WR) := by
  obtain ⟨⟨h0, h5⟩, h16⟩ := hA
  refine And.intro (And.intro ?_ ?_) ?_
  · after_results_simp; exact h0
  · after_results_simp; exact h5
  · after_results_simp; exact h16

theorem base19 (WK : KV F) (WR : RV F) (hA : AgreeA WK WR) : AgreeA (StableHlo.after K19 WK) (StableHlo.after R19 WR) := by
  obtain ⟨⟨h0, h5⟩, h16⟩ := hA
  refine And.intro (And.intro ?_ ?_) ?_
  · after_results_simp; exact h0
  · after_results_simp; exact h5
  · after_results_simp; exact h16

/-! ## The ten stretches

Each leaves, in both programs, the same functions of the values it reads: equal once those are. -/

/-- Stretch 10: the flags "the code is 8", from the codes. -/
theorem step10 (WK : KV F) (WR : RV F)
    (h5 : (WK (kr Cert.KernelIdeal.main_arg5) : Codes F) = WR (rr Cert.ReferenceIdeal.main_arg5)) :
    (StableHlo.after K10 WK (kr Cert.KernelIdeal.main_v18) : Flags F) = StableHlo.after R10 WR (rr Cert.ReferenceIdeal.main_v38) := by
  after_results_simp
  rw [h5]

/-- Stretch 11: the running count of the flags. -/
theorem step11 (WK : KV F) (WR : RV F)
    (h18 : (WK (kr Cert.KernelIdeal.main_v18) : Flags F) = WR (rr Cert.ReferenceIdeal.main_v38)) :
    (StableHlo.after K11 WK (kr Cert.KernelIdeal.main_v19) : Codes F) = StableHlo.after R11 WR (rr Cert.ReferenceIdeal.main_v39) := by
  after_results_simp
  rw [h18]

/-- Stretch 12: 25000 zeros and the scalar 0; the running count is not written. -/
theorem step12 (WK : KV F) (WR : RV F)
    (h19 : (WK (kr Cert.KernelIdeal.main_v19) : Codes F) = WR (rr Cert.ReferenceIdeal.main_v39)) :
    (StableHlo.after K12 WK (kr Cert.KernelIdeal.main_v19) : Codes F) = StableHlo.after R12 WR (rr Cert.ReferenceIdeal.main_v39) ∧
    (StableHlo.after K12 WK (kr Cert.KernelIdeal.main_v20) : Rows F) = StableHlo.after R12 WR (rr Cert.ReferenceIdeal.main_v40) ∧
    (StableHlo.after K12 WK (kr Cert.KernelIdeal.main_c_9) : Scal F) = StableHlo.after R12 WR (rr Cert.ReferenceIdeal.main_c_18) := by
  refine ⟨?_, ?_, ?_⟩
  · after_results_simp; exact h19
  · after_results_simp
  · after_results_simp

/-- Stretch 13: the running count clipped below at the scalar; the zeros are not written. -/
theorem step13 (WK : KV F) (WR : RV F)
    (h19 : (WK (kr Cert.KernelIdeal.main_v19) : Codes F) = WR (rr Cert.ReferenceIdeal.main_v39))
    (h20 : (WK (kr Cert.KernelIdeal.main_v20) : Rows F) = WR (rr Cert.ReferenceIdeal.main_v40))
    (hc : (WK (kr Cert.KernelIdeal.main_c_9) : Scal F) = WR (rr Cert.ReferenceIdeal.main_c_18)) :
    (StableHlo.after K13 WK (kr Cert.KernelIdeal.main_v20) : Rows F) = StableHlo.after R13 WR (rr Cert.ReferenceIdeal.main_v40) ∧
    (StableHlo.after K13 WK (kr Cert.KernelIdeal.main_v21) : Codes F) = StableHlo.after R13 WR (rr Cert.ReferenceIdeal.main_v41) := by
  refine ⟨?_, ?_⟩
  · after_results_simp; exact h20
  · after_results_simp
    rw [h19, hc]

/-- Stretch 14: ones added into the zeros at the clipped counts (negative counts wrapped by 25000). -/
theorem step14 (WK : KV F) (WR : RV F)
    (h20 : (WK (kr Cert.KernelIdeal.main_v20) : Rows F) = WR (rr Cert.ReferenceIdeal.main_v40))
    (h21 : (WK (kr Cert.KernelIdeal.main_v21) : Codes F) = WR (rr Cert.ReferenceIdeal.main_v41)) :
    (StableHlo.after K14 WK (kr Cert.KernelIdeal.main_v29) : Rows F) = StableHlo.after R14 WR (rr Cert.ReferenceIdeal.main_v49) := by
  after_results_simp
  rw [h20, h21]
  rfl

/-- Stretch 15: the running count of the scattered ones. -/
theorem step15 (WK : KV F) (WR : RV F)
    (h29 : (WK (kr Cert.KernelIdeal.main_v29) : Rows F) = WR (rr Cert.ReferenceIdeal.main_v49)) :
    (StableHlo.after K15 WK (kr Cert.KernelIdeal.main_v30) : Rows F) = StableHlo.after R15 WR (rr Cert.ReferenceIdeal.main_v50) := by
  after_results_simp
  rw [h29]

/-- Stretch 16: the scalar 1; the second running count is not written. -/
theorem step16 (WK : KV F) (WR : RV F)
    (h30 : (WK (kr Cert.KernelIdeal.main_v30) : Rows F) = WR (rr Cert.ReferenceIdeal.main_v50)) :
    (StableHlo.after K16 WK (kr Cert.KernelIdeal.main_v30) : Rows F) = StableHlo.after R16 WR (rr Cert.ReferenceIdeal.main_v50) ∧
    (StableHlo.after K16 WK (kr Cert.KernelIdeal.main_c_13) : Scal F) = StableHlo.after R16 WR (rr Cert.ReferenceIdeal.main_c_22) := by
  refine ⟨?_, ?_⟩
  · after_results_simp; exact h30
  · after_results_simp

/-- Stretch 17: the floor of the second running count divided by the scalar. -/
theorem step17 (WK : KV F) (WR : RV F)
    (h30 : (WK (kr Cert.KernelIdeal.main_v30) : Rows F) = WR (rr Cert.ReferenceIdeal.main_v50))
    (hc : (WK (kr Cert.KernelIdeal.main_c_13) : Scal F) = WR (rr Cert.ReferenceIdeal.main_c_22)) :
    (StableHlo.after K17 WK (kr Cert.KernelIdeal.main_v31) : Rows F) = StableHlo.after R17 WR (rr Cert.ReferenceIdeal.main_v51) := by
  after_results_simp
  rw [h30, hc]

/-- Stretch 18: the scalar 50000; the quotient is not written. -/
theorem step18 (WK : KV F) (WR : RV F)
    (h31 : (WK (kr Cert.KernelIdeal.main_v31) : Rows F) = WR (rr Cert.ReferenceIdeal.main_v51)) :
    (StableHlo.after K18 WK (kr Cert.KernelIdeal.main_v31) : Rows F) = StableHlo.after R18 WR (rr Cert.ReferenceIdeal.main_v51) ∧
    (StableHlo.after K18 WK (kr Cert.KernelIdeal.main_c_14) : Scal F) = StableHlo.after R18 WR (rr Cert.ReferenceIdeal.main_c_23) := by
  refine ⟨?_, ?_⟩
  · after_results_simp; exact h31
  · after_results_simp

/-- Stretch 19: the remainder of the quotient by the scalar, with the divisor's sign: the row numbers of element 8. -/
theorem step19 (WK : KV F) (WR : RV F)
    (h31 : (WK (kr Cert.KernelIdeal.main_v31) : Rows F) = WR (rr Cert.ReferenceIdeal.main_v51))
    (hc : (WK (kr Cert.KernelIdeal.main_c_14) : Scal F) = WR (rr Cert.ReferenceIdeal.main_c_23)) :
    (StableHlo.after K19 WK (kr Cert.KernelIdeal.main_v32) : Rows F) = StableHlo.after R19 WR (rr Cert.ReferenceIdeal.main_v52) := by
  after_results_simp
  rw [h31, hc]

end ScanB

open ScanB in
theorem scanB_agree (WK : KV F) (WR : RV F) (h : AgreeA WK WR) :
    AgreeB (StableHlo.after (scanBK (F := F)).flatten WK) (StableHlo.after (scanBR (F := F)).flatten WR) := by
  rw [scanK_eq, scanR_eq]
  have a1 := base10 WK WR h
  have e18 := step10 WK WR h.1.2
  have a2 := base11 _ _ a1
  have e19 := step11 _ _ e18
  have a3 := base12 _ _ a2
  obtain ⟨e19', e20, ec9⟩ := step12 _ _ e19
  have a4 := base13 _ _ a3
  obtain ⟨e20', e21⟩ := step13 _ _ e19' e20 ec9
  have a5 := base14 _ _ a4
  have e29 := step14 _ _ e20' e21
  have a6 := base15 _ _ a5
  have e30 := step15 _ _ e29
  have a7 := base16 _ _ a6
  obtain ⟨e30', ec13⟩ := step16 _ _ e30
  have a8 := base17 _ _ a7
  have e31 := step17 _ _ e30' ec13
  have a9 := base18 _ _ a8
  obtain ⟨e31', ec14⟩ := step18 _ _ e31
  have a10 := base19 _ _ a9
  have e32 := step19 _ _ e31' ec14
  exact And.intro a10 e32

end Cert.Agree

end
-- ==== Proof.AgreeTail.lean ====
/-
  The last stretch (both row-number vectors normalised into range, the two gathers of rows of the rescaled array,
  the stacking of the gathered halves) and the composition: the kernel program's 151 operations after its region and
  the reference's 151 after its concatenation, run from contents that agree on the rescaled array and the element
  codes, leave the same result.
-/
import proofs.«423469_j7919919693922_3_alg».proof.Proof.AgreeScanA
import proofs.«423469_j7919919693922_3_alg».proof.Proof.AgreeScanB
import proofs.«423469_j7919919693922_3_alg».proof.Proof.KiEntry
import Idealize.ShloMosaic.Lib.Pipeline.Frame

noncomputable section

namespace Cert.Agree

open Idealize.ShloMosaic Idealize.ShloMosaic.TcCoe Idealize.SL.Sem

variable {F : FTy → Type} [FloatOps F]

/-- A concatenation of two pieces of one shape depends only on the pieces: equal pieces, equal stacks (the
    side condition speaks of the pieces' shapes alone). -/
private theorem concat_pair_congr {α : Type} {t s : Shape} {a : Fin t.rank} {x x' y y' : s.Idx → α}
    {h : Shape.Concatenates ([(⟨s, x⟩ : (s : Shape) × (s.Idx → α)), ⟨s, y⟩].map (·.1)) t a}
    {h' : Shape.Concatenates ([(⟨s, x'⟩ : (s : Shape) × (s.Idx → α)), ⟨s, y'⟩].map (·.1)) t a}
    (hx : x = x') (hy : y = y') :
    concatenate t a [⟨s, x⟩, ⟨s, y⟩] h = concatenate t a [⟨s, x'⟩, ⟨s, y'⟩] h' := by
  subst hx; subst hy; rfl

/-- Stretch 20. Its result is the stack of two gathers; each gather reads the rescaled array and one row-number
    vector brought into range (a negative entry has the row count 50000 added), and nothing else from outside the
    stretch. So the two programs' results are the same function of values that agree: the stack splits into its two
    halves, and in each half the kernel's expression becomes the reference's once the two values read are exchanged
    for their reference-side equals (the shapes and the gather's dimension numbers are the same literals on both
    sides). -/
theorem last_agree (WK : KV F) (WR : RV F) (h : AgreeB WK WR) :
    (StableHlo.after (Cert.KernelIdeal.Gen.hostOps1_20 (F := F)) WK (kr Cert.KernelIdeal.main_v47) : Prints F)
      = StableHlo.after (Cert.ReferenceIdeal.Hand.tail20 (F := F)) WR (rr Cert.ReferenceIdeal.main_v67) := by
  obtain ⟨⟨⟨h0, _⟩, h16⟩, h32⟩ := h
  after_results_simp
  refine concat_pair_congr ?_ ?_
  -- first half: rows of the rescaled array at the first scan's row numbers
  · after_results_simp
    rw [h0, h16]
    rfl
  -- second half: rows at the second scan's row numbers
  · after_results_simp
    rw [h0, h32]
    rfl

/-- Three parts run in a row: a first list of stretches, a second, then one more stretch; the contents after the
    whole are the contents after the last stretch run from those after the second list run from those after the
    first (running a concatenation is running its parts in order). -/
private theorem after_three {τ : Topo} {sig : RefSig} {Val : EltTy → Type} (A B : List (List (HloOp τ sig Val)))
    (c : List (HloOp τ sig Val)) (V : Valuation τ sig Val) :
    StableHlo.after (A ++ B ++ [c]).flatten V
      = StableHlo.after c (StableHlo.after B.flatten (StableHlo.after A.flatten V)) := by
  rw [List.flatten_append, List.flatten_append, StableHlo.after_append, StableHlo.after_append, List.flatten_cons,
    List.flatten_nil, List.append_nil]

/-- The two tails agree on the result: each tail is its first scan, its second scan and the last stretch in a row,
    and agreement is carried across each of the three in turn. -/
theorem tails_agree (WK : KV F) (WR : RV F) (h : AgreeIn WK WR) :
    (StableHlo.after (Cert.KernelIdeal.Hand.tailOps (F := F)).flatten WK (kr Cert.KernelIdeal.main_v47) : Prints F)
      = StableHlo.after (Cert.ReferenceIdeal.Hand.tailOps (F := F)).flatten WR (rr Cert.ReferenceIdeal.main_v67) := by
  -- the 21 stretches of each program are the ten of the first scan, the ten of the second, and stretch 20
  show (StableHlo.after ((scanAK (F := F)) ++ scanBK ++ [Cert.KernelIdeal.Gen.hostOps1_20]).flatten WK
          (kr Cert.KernelIdeal.main_v47) : Prints F)
      = StableHlo.after ((scanAR (F := F)) ++ scanBR ++ [Cert.ReferenceIdeal.Hand.tail20]).flatten WR
          (rr Cert.ReferenceIdeal.main_v67)
  rw [after_three, after_three]
  exact last_agree _ _ (scanB_agree _ _ (scanA_agree WK WR h))

end Cert.Agree

end
-- ==== Proof.lean ====
/-
  The kernel rescales the two fingerprint arrays in one pipelined region, entry by entry,
      fp_0 ↦ (x − 0) · 1 − 1,   fp_1 ↦ (x − (−1)) · ½ − 1,
  the two side by side as a 50000×48 array, and then, in plain host operations, picks the rows whose element code is 1,
  then those whose code is 8, and stacks them. The reference computes the same array as
      (x − lo) / max(hi − lo, 1e-6) · 2 − 1   with (lo, hi) = (0, 2) and (−1, 3),
  and applies the same row selection. On real entries (the precondition: every float input finite) the two rescalings
  are the same real number, x/2·2 − 1 = x − 1 and (x + 1)/4·2 − 1 = (x + 1)/2 − 1; the row selection is the same 151
  operations in both programs, applied to arrays that agree, so the results agree.

  The pieces: each kernel program's run is the library's frame run of its region continued by the host operations
  (the region's body, its proof data and the facts about the later operations are in the modules imported here, once
  for the idealized program and once, the same text, for the word-level one); the reference's run is a straight line
  of 182 operations; the region's ten blocks together are the specification `Cert.Spec.scaled` of the launch
  arrays; the reference's first 31 operations compute the same specification on real entries; and the two tails
  agree on the result whenever they start from contents that agree on the rescaled array and the element codes.
  The idealization rewrote nothing, so `preserves` has no conjunct.
-/
import proofs.«423469_j7919919693922_3_alg».proof.Defs
import proofs.«423469_j7919919693922_3_alg».proof.Proof.Gen.Kernel
import proofs.«423469_j7919919693922_3_alg».proof.Proof.Gen.KernelIdeal
import proofs.«423469_j7919919693922_3_alg».proof.Proof.Gen.ReferenceIdeal
import proofs.«423469_j7919919693922_3_alg».proof.Proof.Gen.Pre_finite_inputs
import proofs.«423469_j7919919693922_3_alg».proof.Proof.KRun
import proofs.«423469_j7919919693922_3_alg».proof.Proof.KiRun
import proofs.«423469_j7919919693922_3_alg».proof.Proof.KiValue
import proofs.«423469_j7919919693922_3_alg».proof.Proof.RefRun
import proofs.«423469_j7919919693922_3_alg».proof.Proof.RefValue
import proofs.«423469_j7919919693922_3_alg».proof.Proof.Finite
import proofs.«423469_j7919919693922_3_alg».proof.Proof.AgreeTail
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Hand.frame (F := Bits) m ρ

/-- So does its idealization, -/
theorem frame_kernelIdeal : Cert.frame_KernelIdeal := fun m ρ _ => Cert.KernelIdeal.Hand.frame (F := Ideal) m ρ

/-- and the reference. -/
theorem frame_referenceIdeal : Cert.frame_ReferenceIdeal := fun m ρ _ => Cert.ReferenceIdeal.Hand.frame (F := Ideal) m ρ

/-- Before the row selection the two programs hold the same rescaled array and the same element codes: the region's
    blocks are the specification of the launch arrays, the reference's first operations compute the specification on
    real entries, and the arguments agree. -/
theorem agree_before (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.Agree.AgreeIn (F := Ideal) (Cert.KernelIdeal.Hand.afterRegion m c)
      (StableHlo.after (Cert.ReferenceIdeal.Hand.headOps (F := Ideal)) (StableHlo.launchContents m' c)) := by
  obtain ⟨r1, r2⟩ := Cert.Finite.fingerprints_real m hpre c
  constructor
  · show (Cert.KernelIdeal.Hand.afterRegion m c (Proc.devRef .tc Cert.KernelIdeal.main_v0) : Cert.Agree.Prints Ideal)
      = StableHlo.after (Cert.ReferenceIdeal.Hand.headOps (F := Ideal)) (StableHlo.launchContents m' c) (Proc.devRef .tc Cert.ReferenceIdeal.main_v20)
    rw [Cert.KernelIdeal.Hand.afterRegion_scaled, Cert.KernelIdeal.Hand.region_value, Cert.ReferenceIdeal.Hand.head_scaled]
    show _ = Cert.ReferenceIdeal.Hand.scaledRef (F := Ideal) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
    rw [h1, h2]
    exact (Cert.ReferenceIdeal.Hand.scaledRef_eq _ _ r1 r2).symm
  · show (Cert.KernelIdeal.Hand.afterRegion m c (Proc.devRef .tc Cert.KernelIdeal.main_arg5) : Cert.Agree.Codes Ideal)
      = StableHlo.after (Cert.ReferenceIdeal.Hand.headOps (F := Ideal)) (StableHlo.launchContents m' c) (Proc.devRef .tc Cert.ReferenceIdeal.main_arg5)
    rw [Cert.KernelIdeal.Hand.afterRegion_elems, Cert.ReferenceIdeal.Hand.head_keeps_ref _ (by decide)]
    exact h5.symm

/-- From memories agreeing on the arguments both idealized programs run, and end with the same result: the common row
    selection applied to arrays that agree. -/
theorem algebraic : Cert.algebraic_KernelIdeal_ReferenceIdeal := by
  intro m ρ m' ρ' hpre hagree
  refine ⟨fun c => StableHlo.after (Cert.KernelIdeal.Hand.tailOps (F := Ideal)).flatten (Cert.KernelIdeal.Hand.afterRegion m c)
    (Proc.devRef .tc Cert.KernelIdeal.main_v47), Cert.KernelIdeal.Hand.run_result m ρ, ?_⟩
  refine (θ_run Cert.ReferenceIdeal.defs _ _).mono (fun r h c => ⟨(h c).1.trans ?_, (h c).2⟩) (Cert.ReferenceIdeal.Hand.run_result m' ρ')
  exact (Cert.Agree.tails_agree _ _ (agree_before m m' hpre c (hagree c).2.1 (hagree c).2.2.1 (hagree c).2.2.2.2.2.1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
